-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.named_const.Statement Cert.KernelIdeal.κ "inv_20" .f32 0x3D4CCCCD#32 ((1 / 20 : ℝ) : EReal)
  ∧ IdealRules.named_const.Statement Cert.KernelIdeal.κ "inv_20" .f32 0x3D4CCCCD#32 ((1 / 20 : ℝ) : EReal)
  ∧ IdealRules.named_const.Statement Cert.KernelIdeal.κ "inv_50" .f32 0x3CA3D70A#32 ((1 / 50 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20x512 : Shape := ⟨3, ![4096, 20, 512]⟩
abbrev S4096x20x256 : Shape := ⟨3, ![4096, 20, 256]⟩
abbrev S4096x50x128 : Shape := ⟨3, ![4096, 50, 128]⟩
abbrev S512x128 : Shape := ⟨2, ![512, 128]⟩
abbrev S128 : Shape := ⟨1, ![128]⟩
abbrev S256x128 : Shape := ⟨2, ![256, 128]⟩
abbrev S128x128 : Shape := ⟨2, ![128, 128]⟩
abbrev S384x128 : Shape := ⟨2, ![384, 128]⟩
abbrev S128x64 : Shape := ⟨2, ![128, 64]⟩
abbrev S64 : Shape := ⟨1, ![64]⟩
abbrev S_ : Shape := ⟨0, ![]⟩

class Facts : Prop where
  bcast_S_S4096x20x512 : S_.BroadcastsInDim S4096x20x512 (![] : Fin 0 → Fin S4096x20x512.rank)
  reducesTo_S4096x20x512_S_d0_1_2 : S4096x20x512.ReducesTo [0, 1, 2] S_
  h_S_ : 0 < S_.numel
  bcast_S_S4096x20x256 : S_.BroadcastsInDim S4096x20x256 (![] : Fin 0 → Fin S4096x20x256.rank)
  reducesTo_S4096x20x256_S_d0_1_2 : S4096x20x256.ReducesTo [0, 1, 2] S_
  bcast_S_S4096x50x128 : S_.BroadcastsInDim S4096x50x128 (![] : Fin 0 → Fin S4096x50x128.rank)
  reducesTo_S4096x50x128_S_d0_1_2 : S4096x50x128.ReducesTo [0, 1, 2] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S128 .f32) (main_arg15 : FVec F S128x64 .f32) (main_arg16 : FVec F S64 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg15
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg11 : FVec F S128x128 .f32) (main_arg12 : FVec F S128 .f32) (main_arg13 : FVec F S384x128 .f32) (main_arg14 : FVec F S128 .f32) (main_arg15 : FVec F S128x64 .f32) (main_arg16 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S384x128 .f32 := Host.absf main_arg13
  let main_cst_24 : FVec F S_ .f32 := constant S_ .f32 0x7F800000#32
  let main_v65 : FVec F S384x128 .f32 := broadcastInDim S384x128 ![] bcast_S_S384x128 main_cst_24
  let main_v66 : IVec S384x128 1 := cmpf .olt main_v64 main_v65
  let main_c_25 : IVec S_ 1 := constantI S_ 1 1#1
  let main_v67 : IVec S_ 1 := (fun x v => Host.reduce IntOp.andi x v reducesTo_S384x128_S_d0_1 h_S_) main_v66 main_c_25
  fn_part4 (F := F) main_arg14 main_arg15 main_arg16 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S384x128 .f32) (main_arg14 : FVec F S128 .f32) (main_arg15 : FVec F S128x64 .f32) (main_arg16 : FVec F S64 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S256x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S384x128 .f32) (main_arg14 : FVec F S128 .f32) (main_arg15 : FVec F S128x64 .f32) (main_arg16 : FVec F S64 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x20x512 .f32) (main_arg1 : FVec F S4096x20x256 .f32) (main_arg2 : FVec F S4096x50x128 .f32) (main_arg3 : FVec F S512x128 .f32) (main_arg4 : FVec F S128 .f32) (main_arg5 : FVec F S256x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S384x128 .f32) (main_arg14 : FVec F S128 .f32) (main_arg15 : FVec F S128x64 .f32) (main_arg16 : FVec F S64 .f32) : IVec S_ 1 :=
  let main_v0 : FVec F S4096x20x512 .f32 := Host.absf main_arg0
  let main_cst : FVec F S_ .f32 := constant S_ .f32 0x7F800000#32
  let main_v1 : FVec F S4096x20x512 .f32 := broadcastInDim S4096x20x512 ![] bcast_S_S4096x20x512 main_cst
  let main_v2 : IVec S4096x20x512 1 := cmpf .olt main_v0 main_v1
  let main_c : IVec S_ 1 := constantI S_ 1 1#1
  let main_v3 : IVec S_ 1 := (fun x v => Host.reduce IntOp.andi x v reducesTo_S4096x20x512_S_d0_1_2 h_S_) main_v2 main_c
  let main_v4 : FVec F S4096x20x256 .f32 := Host.absf main_arg1
  let main_cst_0 : FVec F S_ .f32 := constant S_ .f32 0x7F800000#32
  let main_v5 : FVec F S4096x20x256 .f32 := broadcastInDim S4096x20x256 ![] bcast_S_S4096x20x256 main_cst_0
  let main_v6 : IVec S4096x20x256 1 := cmpf .olt main_v4 main_v5
  let main_c_1 : IVec S_ 1 := constantI S_ 1 1#1
  let main_v7 : IVec S_ 1 := (fun x v => Host.reduce IntOp.andi x v reducesTo_S4096x20x256_S_d0_1_2 h_S_) main_v6 main_c_1
  let main_v8 : IVec S_ 1 := andi main_v3 main_v7
  let main_v9 : FVec F S4096x50x128 .f32 := Host.absf main_arg2
  let main_cst_2 : FVec F S_ .f32 := constant S_ .f32 0x7F800000#32
  let main_v10 : FVec F S4096x50x128 .f32 := broadcastInDim S4096x50x128 ![] bcast_S_S4096x50x128 main_cst_2
  let main_v11 : IVec S4096x50x128 1 := cmpf .olt main_v9 main_v10
  let main_c_3 : IVec S_ 1 := constantI S_ 1 1#1
  let main_v12 : IVec S_ 1 := (fun x v => Host.reduce IntOp.andi x v reducesTo_S4096x50x128_S_d0_1_2 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x20x512 : Shape := ⟨3, ![4096, 20, 512]⟩
abbrev S4096x20x256 : Shape := ⟨3, ![4096, 20, 256]⟩
abbrev S4096x50x128 : Shape := ⟨3, ![4096, 50, 128]⟩
abbrev S512x128 : Shape := ⟨2, ![512, 128]⟩
abbrev S128 : Shape := ⟨1, ![128]⟩
abbrev S256x128 : Shape := ⟨2, ![256, 128]⟩
abbrev S128x128 : Shape := ⟨2, ![128, 128]⟩
abbrev S384x128 : Shape := ⟨2, ![384, 128]⟩
abbrev S128x64 : Shape := ⟨2, ![128, 64]⟩
abbrev S64 : Shape := ⟨1, ![64]⟩
abbrev S1x128 : Shape := ⟨2, ![1, 128]⟩
abbrev S3x4096x128 : Shape := ⟨3, ![3, 4096, 128]⟩
abbrev S128x20x512 : Shape := ⟨3, ![128, 20, 512]⟩
abbrev S128x20x256 : Shape := ⟨3, ![128, 20, 256]⟩
abbrev S128x50x128 : Shape := ⟨3, ![128, 50, 128]⟩
abbrev S3x128x128 : Shape := ⟨3, ![3, 128, 128]⟩
abbrev S128x512 : Shape := ⟨2, ![128, 512]⟩
abbrev S128x256 : Shape := ⟨2, ![128, 256]⟩
abbrev S1x128x128 : Shape := ⟨3, ![1, 128, 128]⟩
abbrev S12288x128 : Shape := ⟨2, ![12288, 128]⟩
abbrev S1x64 : Shape := ⟨2, ![1, 64]⟩
abbrev S4096x64 : Shape := ⟨2, ![4096, 64]⟩
abbrev S1536x128 : Shape := ⟨2, ![1536, 128]⟩
abbrev S512x64 : Shape := ⟨2, ![512, 64]⟩
abbrev S512x3x128 : Shape := ⟨3, ![512, 3, 128]⟩

abbrev nBuf : Space → Nat
  | .hbm => 27
  | .vmem => 26
  | .smem => 0
  | _ => 0

abbrev bufTy : (tb : Table) → Fin (tcTables nBuf tb) → BufTy
  | .hbm, ⟨0, _⟩ => ⟨S4096x20x512, .f32⟩
  | .hbm, ⟨1, _⟩ => ⟨S4096x20x256, .f32⟩
  | .hbm, ⟨2, _⟩ => ⟨S4096x50x128, .f32⟩
  | .hbm, ⟨3, _⟩ => ⟨S512x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S384x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S3x4096x128, .f32⟩
  | .hbm, ⟨21, _⟩ => ⟨S12288x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x64, .f32⟩
  | .hbm, ⟨26, _⟩ => ⟨S4096x64, .f32⟩
  | .local _ .vmem, ⟨0, _⟩ => ⟨S128x20x512, .f32⟩
  | .local _ .vmem, ⟨1, _⟩ => ⟨S128x20x512, .f32⟩
  | .local _ .vmem, ⟨2, _⟩ => ⟨S128x20x256, .f32⟩
  | .local _ .vmem, ⟨3, _⟩ => ⟨S128x20x256, .f32⟩
  | .local _ .vmem, ⟨4, _⟩ => ⟨S128x50x128, .f32⟩
  | .local _ .vmem, ⟨5, _⟩ => ⟨S128x50x128, .f32⟩
  | .local _ .vmem, ⟨6, _⟩ => ⟨S512x128, .f32⟩
  | .local _ .vmem, ⟨7, _⟩ => ⟨S1x128, .f32⟩
  | .local _ .vmem, ⟨8, _⟩ => ⟨S256x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S3x128x128, .f32⟩
  | .local _ .vmem, ⟨13, _⟩ => ⟨S3x128x128, .f32⟩
  | .local _ .vmem, ⟨14, _⟩ => ⟨S1536x128, .f32⟩
  | .local _ .vmem, ⟨15, _⟩ => ⟨S1536x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S384x128, .f32⟩
  | .local _ .vmem, ⟨21, _⟩ => ⟨S1x128, .f32⟩
  | .local _ .vmem, ⟨22, _⟩ => ⟨S128x64, .f32⟩
  | .local _ .vmem, ⟨23, _⟩ => ⟨S1x64, .f32⟩
  | .local _ .vmem, ⟨24, _⟩ => ⟨S512x64, .f32⟩
  | .local _ .vmem, ⟨25, _⟩ => ⟨S512x64, .f32⟩
  | _, _ => ⟨S4096x20x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x20x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x20x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x50x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1536x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S128_S1x128 : S128.ShapeCasts S1x128
  inb_S128x20x512_S128x20x512_0_0_0 : ∀ a, (![0, 0, 0] : Fin 3 → Nat) a + S128x20x512.size a ≤ S128x20x512.size a
  h_S128x20x512 : 0 < S128x20x512.numel
  reduces_S128x20x512_S128x512 : S128x20x512.Reduces [1] S128x512
  inb_S128x20x256_S128x20x256_0_0_0 : ∀ a, (![0, 0, 0] : Fin 3 → Nat) a + S128x20x256.size a ≤ S128x20x256.size a
  h_S128x20x256 : 0 < S128x20x256.numel
  reduces_S128x20x256_S128x256 : S128x20x256.Reduces [1] S128x256
  inb_S128x50x128_S128x50x128_0_0_0 : ∀ a, (![0, 0, 0] : Fin 3 → Nat) a + S128x50x128.size a ≤ S128x50x128.size a
  h_S128x50x128 : 0 < S128x50x128.numel
  reduces_S128x50x128_S128x128 : S128x50x128.Reduces [1] S128x128
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  shapeCasts_S128x128_S1x128x128 : S128x128.ShapeCasts S1x128x128
  inb_S256x128_S256x128_0_0 : ∀ a, (![0, 0] : Fin 2 → Nat) a + S256x128.size a ≤ S256x128.size a
  h_S256x128 : 0 < S256x128.numel
  inb_S3x128x128_S1x128x128_1_0_0 : ∀ a, (![1, 0, 0] : Fin 3 → Nat) a + S1x128x128.size a ≤ S3x128x128.size a
  inb_S128x128_S128x128_0_0 : ∀ a, (![0, 0] : Fin 2 → Nat) a + S128x128.size a ≤ S128x128.size a
  h_S128x128 : 0 < S128x128.numel
  inb_S3x128x128_S1x128x128_2_0_0 : ∀ a, (![2, 0, 0] : Fin 3 → Nat) a + S1x128x128.size a ≤ S3x128x128.size a
  shapeCasts_S3x4096x128_S12288x128 : S3x4096x128.ShapeCasts S12288x128
  shapeCasts_S64_S1x64 : S64.ShapeCasts S1x64
  inb_S1536x128_S1536x128_0_0 : ∀ a, (![0, 0] : Fin 2 → Nat) a + S1536x128.size a ≤ S1536x128.size a
  h_S1536x128 : 0 < S1536x128.numel
  shapeCasts_S1536x128_S1536x128 : S1536x128.ShapeCasts S1536x128
  shapeCasts_S1536x128_S512x3x128 : S1536x128.ShapeCasts S512x3x128
  reduces_S512x3x128_S512x128 : S512x3x128.Reduces [1] S512x128
  broadcasts_S1x128_S512x128 : S1x128.Broadcasts S512x128
  inb_S384x128_S128x128_0_0 : ∀ a, (![0, 0] : Fin 2 → Nat) a + S128x128.size a ≤ S384x128.size a
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  dot_S128x512_S512x128_S128x128_1_0_0_1_n_n_wf : DotDims.WF S128x512 S512x128 S128x128 [1] [0] [0] [1] [] []
  dot_S128x256_S256x128_S128x128_1_0_0_1_n_n_wf : DotDims.WF S128x256 S256x128 S128x128 [1] [0] [0] [1] [] []
  dot_S128x128_S128x128_S128x128_1_0_0_1_n_n_wf : DotDims.WF S128x128 S128x128 S128x128 [1] [0] [0] [1] [] []
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x20x512.size a ≤ S4096x20x512.size a
  hwx0_0 : ∀ i : grid0.Coords, EltTy.bits .f32 = 32 ∨ (Rect.block (s := S4096x20x512) S128x20x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x20x256.size a ≤ S4096x20x256.size a
  hwx0_1 : ∀ i : grid0.Coords, EltTy.bits .f32 = 32 ∨ (Rect.block (s := S4096x20x256) S128x20x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x50x128.size a ≤ S4096x50x128.size a
  hwx0_2 : ∀ i : grid0.Coords, EltTy.bits .f32 = 32 ∨ (Rect.block (s := S4096x50x128) S128x50x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3x128x128.size a ≤ S3x4096x128.size a
  hwx0_9 : ∀ i : grid0.Coords, EltTy.bits .f32 = 32 ∨ (Rect.block (s := S3x4096x128) S3x128x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1536x128.size a ≤ S12288x128.size a
  hwx1_0 : ∀ i : grid1.Coords, EltTy.bits .f32 = 32 ∨ (Rect.block (s := S12288x128) S1536x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384x128.size a ≤ S384x128.size a
  hwx1_5 : ∀ i : grid1.Coords, EltTy.bits .f32 = 32 ∨ (Rect.block (s := S384x128) S384x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x64.size a ≤ S4096x64.size a
  hwx1_9 : ∀ i : grid1.Coords, EltTy.bits .f32 = 32 ∨ (Rect.block (s := S4096x64) S512x64.size (cc1_transform_9 i) (hinb1_9 i)).WholeWords (EltTy.packing .f32)

variable [Facts₀]

def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_arg0) S128x20x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x20x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x50x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S3x128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v4) S1536x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S384x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v9) S512x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x20x512 : Shape := ⟨3, ![4096, 20, 512]⟩
abbrev S4096x20x256 : Shape := ⟨3, ![4096, 20, 256]⟩
abbrev S4096x50x128 : Shape := ⟨3, ![4096, 50, 128]⟩
abbrev S512x128 : Shape := ⟨2, ![512, 128]⟩
abbrev S128 : Shape := ⟨1, ![128]⟩
abbrev S256x128 : Shape := ⟨2, ![256, 128]⟩
abbrev S128x128 : Shape := ⟨2, ![128, 128]⟩
abbrev S384x128 : Shape := ⟨2, ![384, 128]⟩
abbrev S128x64 : Shape := ⟨2, ![128, 64]⟩
abbrev S64 : Shape := ⟨1, ![64]⟩
abbrev S_ : Shape := ⟨0, ![]⟩
abbrev S4096x512 : Shape := ⟨2, ![4096, 512]⟩
abbrev S4096x128 : Shape := ⟨2, ![4096, 128]⟩
abbrev S1x128 : Shape := ⟨2, ![1, 128]⟩
abbrev S4096x256 : Shape := ⟨2, ![4096, 256]⟩
abbrev S12288x128 : Shape := ⟨2, ![12288, 128]⟩
abbrev S12288 : Shape := ⟨1, ![12288]⟩
abbrev S4096 : Shape := ⟨1, ![4096]⟩
abbrev S4096x3 : Shape := ⟨2, ![4096, 3]⟩
abbrev S12288x1 : Shape := ⟨2, ![12288, 1]⟩
abbrev S4096x3x128 : Shape := ⟨3, ![4096, 3, 128]⟩
abbrev S4096x384 : Shape := ⟨2, ![4096, 384]⟩
abbrev S4096x64 : Shape := ⟨2, ![4096, 64]⟩
abbrev S1x64 : Shape := ⟨2, ![1, 64]⟩

abbrev nBuf : Space → Nat
  | .hbm => 215
  | .vmem => 0
  | .smem => 0
  | _ => 0

abbrev hbmTy0_0 (i : Nat) : BufTy := match i % 128 with
  | 0 => ⟨S4096x20x512, .f32⟩
  | 1 => ⟨S4096x20x256, .f32⟩
  | 2 => ⟨S4096x50x128, .f32⟩
  | 3 => ⟨S512x128, .f32⟩
  | 4 => ⟨S128, .f32⟩
  | 5 => ⟨S256x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S384x128, .f32⟩
  | 14 => ⟨S128, .f32⟩
  | 15 => ⟨S128x64, .f32⟩
  | 16 => ⟨S64, .f32⟩
  | 17 => ⟨S_, .f32⟩
  | 18 => ⟨S4096x512, .f32⟩
  | 19 => ⟨S_, .f32⟩
  | 20 => ⟨S4096x512, .f32⟩
  | 21 => ⟨S4096x512, .f32⟩
  | 22 => ⟨S4096x128, .f32⟩
  | 23 => ⟨S1x128, .f32⟩
  | 24 => ⟨S4096x128, .f32⟩
  | 25 => ⟨S4096x128, .f32⟩
  | 26 => ⟨S_, .f32⟩
  | 27 => ⟨S4096x256, .f32⟩
  | 28 => ⟨S_, .f32⟩
  | 29 => ⟨S4096x256, .f32⟩
  | 30 => ⟨S4096x256, .f32⟩
  | 31 => ⟨S4096x128, .f32⟩
  | 32 => ⟨S1x128, .f32⟩
  | 33 => ⟨S4096x128, .f32⟩
  | 34 => ⟨S4096x128, .f32⟩
  | 35 => ⟨S_, .f32⟩
  | 36 => ⟨S4096x128, .f32⟩
  | 37 => ⟨S_, .f32⟩
  | 38 => ⟨S4096x128, .f32⟩
  | 39 => ⟨S4096x128, .f32⟩
  | 40 => ⟨S4096x128, .f32⟩
  | 41 => ⟨S1x128, .f32⟩
  | 42 => ⟨S4096x128, .f32⟩
  | 43 => ⟨S4096x128, .f32⟩
  | 44 => ⟨S12288x128, .f32⟩
  | 45 => ⟨S12288, .i32⟩
  | 46 => ⟨S4096, .i32⟩
  | 47 => ⟨S4096x3, .i32⟩
  | 48 => ⟨S12288, .i32⟩
  | 49 => ⟨S12288x128, .f32⟩
  | 50 => ⟨S_, .f32⟩
  | 51 => ⟨S12288, .f32⟩
  | 52 => ⟨S_, .f32⟩
  | 53 => ⟨S12288, .f32⟩
  | 54 => ⟨S12288x1, .i32⟩
  | 55 => ⟨S12288, .f32⟩
  | 56 => ⟨S_, .f32⟩
  | 57 => ⟨S12288, .f32⟩
  | 58 => ⟨S12288, .i1⟩
  | 59 => ⟨S_, .f32⟩
  | 60 => ⟨S12288, .f32⟩
  | 61 => ⟨S12288, .f32⟩
  | 62 => ⟨S_, .f32⟩
  | 63 => ⟨S_, .f32⟩
  | 64 => ⟨S12288, .f32⟩
  | 65 => ⟨S12288, .f32⟩
  | 66 => ⟨S_, .f32⟩
  | 67 => ⟨S4096, .f32⟩
  | 68 => ⟨S12288x1, .i32⟩
  | 69 => ⟨S4096, .f32⟩
  | 70 => ⟨S_, .f32⟩
  | 71 => ⟨S4096, .f32⟩
  | 72 => ⟨S4096, .i1⟩
  | 73 => ⟨S_, .f32⟩
  | 74 => ⟨S4096, .f32⟩
  | 75 => ⟨S4096, .f32⟩
  | 76 => ⟨S_, .f32⟩
  | 77 => ⟨S_, .f32⟩
  | 78 => ⟨S4096, .f32⟩
  | 79 => ⟨S4096, .f32⟩
  | 80 => ⟨S_, .i32⟩
  | 81 => ⟨S12288, .i32⟩
  | 82 => ⟨S12288, .i1⟩
  | 83 => ⟨S_, .i32⟩
  | 84 => ⟨S12288, .i32⟩
  | 85 => ⟨S12288, .i32⟩
  | 86 => ⟨S12288, .i32⟩
  | 87 => ⟨S12288x1, .i32⟩
  | 88 => ⟨S12288x128, .f32⟩
  | 89 => ⟨S_, .i32⟩
  | 90 => ⟨S12288, .i32⟩
  | 91 => ⟨S12288, .i1⟩
  | 92 => ⟨S_, .i32⟩
  | 93 => ⟨S12288, .i32⟩
  | 94 => ⟨S12288, .i32⟩
  | 95 => ⟨S12288, .i32⟩
  | 96 => ⟨S12288x1, .i32⟩
  | 97 => ⟨S12288, .f32⟩
  | 98 => ⟨S12288x1, .f32⟩
  | 99 => ⟨S12288x128, .f32⟩
  | 100 => ⟨S12288x128, .f32⟩
  | 101 => ⟨S_, .f32⟩
  | 102 => ⟨S4096x128, .f32⟩
  | 103 => ⟨S12288x1, .i32⟩
  | 104 => ⟨S4096x128, .f32⟩
  | 105 => ⟨S_, .i32⟩
  | 106 => ⟨S12288, .i32⟩
  | 107 => ⟨S12288, .i1⟩
  | 108 => ⟨S_, .i32⟩
  | 109 => ⟨S12288, .i32⟩
  | 110 => ⟨S12288, .i32⟩
  | 111 => ⟨S12288, .i32⟩
  | 112 => ⟨S12288x1, .i32⟩
  | 113 => ⟨S12288x128, .f32⟩
  | 114 => ⟨S_, .f32⟩
  | 115 => ⟨S12288x128, .f32⟩
  | 116 => ⟨S12288x1, .i32⟩
  | 117 => ⟨S12288x128, .f32⟩
  | 118 => ⟨S12288x1, .f32⟩
  | 119 => ⟨S12288x128, .f32⟩
  | 120 => ⟨S12288x128, .f32⟩
  | 121 => ⟨S1x128, .f32⟩
  | 122 => ⟨S12288x128, .f32⟩
  | 123 => ⟨S12288x128, .f32⟩
  | 124 => ⟨S_, .f32⟩
  | 125 => ⟨S12288x128, .f32⟩
  | 126 => ⟨S12288x128, .f32⟩
  | 127 => ⟨S12288x128, .f32⟩
  | _ => ⟨S4096x20x512, .f32⟩

abbrev hbmTy0_1 (i : Nat) : BufTy := match i % 128 with
  | 0 => ⟨S_, .f32⟩
  | 1 => ⟨S12288, .f32⟩
  | 2 => ⟨S_, .f32⟩
  | 3 => ⟨S12288, .f32⟩
  | 4 => ⟨S12288x1, .i32⟩
  | 5 => ⟨S12288, .f32⟩
  | 6 => ⟨S_, .f32⟩
  | 7 => ⟨S12288, .f32⟩
  | 8 => ⟨S12288, .i1⟩
  | 9 => ⟨S_, .f32⟩
  | 10 => ⟨S12288, .f32⟩
  | 11 => ⟨S12288, .f32⟩
  | 12 => ⟨S_, .f32⟩
  | 13 => ⟨S_, .f32⟩
  | 14 => ⟨S12288, .f32⟩
  | 15 => ⟨S12288, .f32⟩
  | 16 => ⟨S_, .f32⟩
  | 17 => ⟨S4096, .f32⟩
  | 18 => ⟨S12288x1, .i32⟩
  | 19 => ⟨S4096, .f32⟩
  | 20 => ⟨S_, .f32⟩
  | 21 => ⟨S4096, .f32⟩
  | 22 => ⟨S4096, .i1⟩
  | 23 => ⟨S_, .f32⟩
  | 24 => ⟨S4096, .f32⟩
  | 25 => ⟨S4096, .f32⟩
  | 26 => ⟨S_, .f32⟩
  | 27 => ⟨S_, .f32⟩
  | 28 => ⟨S4096, .f32⟩
  | 29 => ⟨S4096, .f32⟩
  | 30 => ⟨S_, .i32⟩
  | 31 => ⟨S12288, .i32⟩
  | 32 => ⟨S12288, .i1⟩
  | 33 => ⟨S_, .i32⟩
  | 34 => ⟨S12288, .i32⟩
  | 35 => ⟨S12288, .i32⟩
  | 36 => ⟨S12288, .i32⟩
  | 37 => ⟨S12288x1, .i32⟩
  | 38 => ⟨S12288x128, .f32⟩
  | 39 => ⟨S_, .i32⟩
  | 40 => ⟨S12288, .i32⟩
  | 41 => ⟨S12288, .i1⟩
  | 42 => ⟨S_, .i32⟩
  | 43 => ⟨S12288, .i32⟩
  | 44 => ⟨S12288, .i32⟩
  | 45 => ⟨S12288, .i32⟩
  | 46 => ⟨S12288x1, .i32⟩
  | 47 => ⟨S12288, .f32⟩
  | 48 => ⟨S12288x1, .f32⟩
  | 49 => ⟨S12288x128, .f32⟩
  | 50 => ⟨S12288x128, .f32⟩
  | 51 => ⟨S_, .f32⟩
  | 52 => ⟨S4096x128, .f32⟩
  | 53 => ⟨S12288x1, .i32⟩
  | 54 => ⟨S4096x128, .f32⟩
  | 55 => ⟨S_, .i32⟩
  | 56 => ⟨S12288, .i32⟩
  | 57 => ⟨S12288, .i1⟩
  | 58 => ⟨S_, .i32⟩
  | 59 => ⟨S12288, .i32⟩
  | 60 => ⟨S12288, .i32⟩
  | 61 => ⟨S12288, .i32⟩
  | 62 => ⟨S12288x1, .i32⟩
  | 63 => ⟨S12288x128, .f32⟩
  | 64 => ⟨S_, .f32⟩
  | 65 => ⟨S12288x128, .f32⟩
  | 66 => ⟨S12288x1, .i32⟩
  | 67 => ⟨S12288x128, .f32⟩
  | 68 => ⟨S12288x1, .f32⟩
  | 69 => ⟨S12288x128, .f32⟩
  | 70 => ⟨S12288x128, .f32⟩
  | 71 => ⟨S1x128, .f32⟩
  | 72 => ⟨S12288x128, .f32⟩
  | 73 => ⟨S12288x128, .f32⟩
  | 74 => ⟨S4096x3x128, .f32⟩
  | 75 => ⟨S4096x384, .f32⟩
  | 76 => ⟨S4096x128, .f32⟩
  | 77 => ⟨S1x128, .f32⟩
  | 78 => ⟨S4096x128, .f32⟩
  | 79 => ⟨S4096x128, .f32⟩
  | 80 => ⟨S_, .f32⟩
  | 81 => ⟨S4096x128, .f32⟩
  | 82 => ⟨S4096x128, .f32⟩
  | 83 => ⟨S4096x64, .f32⟩
  | 84 => ⟨S1x64, .f32⟩
  | 85 => ⟨S4096x64, .f32⟩
  | 86 => ⟨S4096x64, .f32⟩
  | _ => ⟨S4096x20x512, .f32⟩

abbrev hbmTy (i : Nat) : BufTy := match i / 128 with
  | 0 => hbmTy0_0 i
  | 1 => hbmTy0_1 i
  | _ => ⟨S4096x20x512, .f32⟩

abbrev bufTy : (tb : Table) → Fin (tcTables nBuf tb) → BufTy
  | .hbm, ⟨i, _⟩ => hbmTy i
  | _, _ => ⟨S4096x20x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_cst_9 : Ref sig .tc := ⟨.hbm, 62, rfl⟩
abbrev main_call0_v0 : Ref sig .tc := ⟨.hbm, 63, rfl⟩
abbrev main_call0_v1 : Ref sig .tc := ⟨.hbm, 64, rfl⟩
abbrev main_v35 : Ref sig .tc := ⟨.hbm, 65, rfl⟩
abbrev main_cst_10 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_11 : Ref sig .tc := ⟨.hbm, 70, rfl⟩
abbrev main_v39 : Ref sig .tc := ⟨.hbm, 71, rfl⟩
abbrev main_v40 : Ref sig .tc := ⟨.hbm, 72, rfl⟩
abbrev main_cst_12 : Ref sig .tc := ⟨.hbm, 73, rfl⟩
abbrev main_v41 : Ref sig .tc := ⟨.hbm, 74, rfl⟩
abbrev main_v42 : Ref sig .tc := ⟨.hbm, 75, rfl⟩
abbrev main_cst_13 : Ref sig .tc := ⟨.hbm, 76, rfl⟩
abbrev main_call1_v0 : Ref sig .tc := ⟨.hbm, 77, rfl⟩
abbrev main_call1_v1 : Ref sig .tc := ⟨.hbm, 78, rfl⟩
abbrev main_v43 : Ref sig .tc := ⟨.hbm, 79, rfl⟩
abbrev main_c : Ref sig .tc := ⟨.hbm, 80, rfl⟩
abbrev main_v44 : Ref sig .tc := ⟨.hbm, 81, rfl⟩
abbrev main_v45 : Ref sig .tc := ⟨.hbm, 82, rfl⟩
abbrev main_c_14 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_15 : Ref sig .tc := ⟨.hbm, 89, rfl⟩
abbrev main_v51 : Ref sig .tc := ⟨.hbm, 90, rfl⟩
abbrev main_v52 : Ref sig .tc := ⟨.hbm, 91, rfl⟩
abbrev main_c_16 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_17 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_18 : Ref sig .tc := ⟨.hbm, 105, rfl⟩
abbrev main_v64 : Ref sig .tc := ⟨.hbm, 106, rfl⟩
abbrev main_v65 : Ref sig .tc := ⟨.hbm, 107, rfl⟩
abbrev main_c_19 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_20 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_call2_cst : Ref sig .tc := ⟨.hbm, 124, rfl⟩
abbrev main_call2_v0 : Ref sig .tc := ⟨.hbm, 125, rfl⟩
abbrev main_v80 : Ref sig .tc := ⟨.hbm, 126, rfl⟩
abbrev main_v81 : Ref sig .tc := ⟨.hbm, 127, rfl⟩
abbrev main_cst_21 : Ref sig .tc := ⟨.hbm, 128, rfl⟩
abbrev main_v82 : Ref sig .tc := ⟨.hbm, 129, rfl⟩
abbrev main_cst_22 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_23 : Ref sig .tc := ⟨.hbm, 134, rfl⟩
abbrev main_v86 : Ref sig .tc := ⟨.hbm, 135, rfl⟩
abbrev main_v87 : Ref sig .tc := ⟨.hbm, 136, rfl⟩
abbrev main_cst_24 : Ref sig .tc := ⟨.hbm, 137, rfl⟩
abbrev main_v88 : Ref sig .tc := ⟨.hbm, 138, rfl⟩
abbrev main_v89 : Ref sig .tc := ⟨.hbm, 139, rfl⟩
abbrev main_cst_25 : Ref sig .tc := ⟨.hbm, 140, rfl⟩
abbrev main_call3_v0 : Ref sig .tc := ⟨.hbm, 141, rfl⟩
abbrev main_call3_v1 : Ref sig .tc := ⟨.hbm, 142, rfl⟩
abbrev main_v90 : Ref sig .tc := ⟨.hbm, 143, rfl⟩
abbrev main_cst_26 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_cst_27 : Ref sig .tc := ⟨.hbm, 148, rfl⟩
abbrev main_v94 : Ref sig .tc := ⟨.hbm, 149, rfl⟩
abbrev main_v95 : Ref sig .tc := ⟨.hbm, 150, rfl⟩
abbrev main_cst_28 : Ref sig .tc := ⟨.hbm, 151, rfl⟩
abbrev main_v96 : Ref sig .tc := ⟨.hbm, 152, rfl⟩
abbrev main_v97 : Ref sig .tc := ⟨.hbm, 153, rfl⟩
abbrev main_cst_29 : Ref sig .tc := ⟨.hbm, 154, rfl⟩
abbrev main_call4_v0 : Ref sig .tc := ⟨.hbm, 155, rfl⟩
abbrev main_call4_v1 : Ref sig .tc := ⟨.hbm, 156, rfl⟩
abbrev main_v98 : Ref sig .tc := ⟨.hbm, 157, rfl⟩
abbrev main_c_30 : Ref sig .tc := ⟨.hbm, 158, rfl⟩
abbrev main_v99 : Ref sig .tc := ⟨.hbm, 159, rfl⟩
abbrev main_v100 : Ref sig .tc := ⟨.hbm, 160, rfl⟩
abbrev main_c_31 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_c_32 : Ref sig .tc := ⟨.hbm, 167, rfl⟩
abbrev main_v106 : Ref sig .tc := ⟨.hbm, 168, rfl⟩
abbrev main_v107 : Ref sig .tc := ⟨.hbm, 169, rfl⟩
abbrev main_c_33 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_34 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_c_35 : Ref sig .tc := ⟨.hbm, 183, rfl⟩
abbrev main_v119 : Ref sig .tc := ⟨.hbm, 184, rfl⟩
abbrev main_v120 : Ref sig .tc := ⟨.hbm, 185, rfl⟩
abbrev main_c_36 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_cst_37 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_call5_cst : Ref sig .tc := ⟨.hbm, 208, rfl⟩
abbrev main_call5_v0 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩

abbrev nD : Nat := 1
abbrev τ : Topo := Topo.v7x

variable {F : FTy → Type} [FloatOps F]

class Facts₀ : Prop where
  reducesTo_S4096x20x512_S4096x512_d1 : S4096x20x512.ReducesTo [1] S4096x512
  h_S_ : 0 < S_.numel
  bcast_S_S4096x512 : S_.BroadcastsInDim S4096x512 (![] : Fin 0 → Fin S4096x512.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  reducesTo_S4096x20x256_S4096x256_d1 : S4096x20x256.ReducesTo [1] S4096x256
  bcast_S_S4096x256 : S_.BroadcastsInDim S4096x256 (![] : Fin 0 → Fin S4096x256.rank)
  reducesTo_S4096x50x128_S4096x128_d1 : S4096x50x128.ReducesTo [1] S4096x128
  bcast_S_S4096x128 : S_.BroadcastsInDim S4096x128 (![] : Fin 0 → Fin S4096x128.rank)
  concatenates_S4096x128_S4096x128_S4096x128_S12288x128_d0 : Shape.Concatenates [S4096x128, S4096x128, S4096x128] S12288x128 0
  bcast_S4096_S4096x3_0 : S4096.BroadcastsInDim S4096x3 (![0] : Fin 1 → Fin S4096x3.rank)
  shapeCasts_S4096x3_S12288 : S4096x3.ShapeCasts S12288
  bcast_S_S12288 : S_.BroadcastsInDim S12288 (![] : Fin 0 → Fin S12288.rank)
  bcast_S12288_S12288x1_0 : S12288.BroadcastsInDim S12288x1 (![0] : Fin 1 → Fin S12288x1.rank)
  bcast_S_S4096 : S_.BroadcastsInDim S4096 (![] : Fin 0 → Fin S4096.rank)
  bcast_S12288x1_S12288x128_0_1 : S12288x1.BroadcastsInDim S12288x128 (![0, 1] : Fin 2 → Fin S12288x128.rank)
  bcast_S_S12288x128 : S_.BroadcastsInDim S12288x128 (![] : Fin 0 → Fin S12288x128.rank)
  bcast_S1x128_S12288x128_0_1 : S1x128.BroadcastsInDim S12288x128 (![0, 1] : Fin 2 → Fin S12288x128.rank)
  shapeCasts_S12288x128_S4096x3x128 : S12288x128.ShapeCasts S4096x3x128
  shapeCasts_S4096x3x128_S4096x384 : S4096x3x128.ShapeCasts S4096x384
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x512_S512x128_S4096x128_1_0_0_1_n_n_wf : DotDims.WF S4096x512 S512x128 S4096x128 [1] [0] [0] [1] [] []
  dot_S4096x256_S256x128_S4096x128_1_0_0_1_n_n_wf : DotDims.WF S4096x256 S256x128 S4096x128 [1] [0] [0] [1] [] []
  dot_S4096x128_S128x128_S4096x128_1_0_0_1_n_n_wf : DotDims.WF S4096x128 S128x128 S4096x128 [1] [0] [0] [1] [] []
  dot_S12288x128_S128x128_S12288x128_1_0_0_1_n_n_wf : DotDims.WF S12288x128 S128x128 S12288x128 [1] [0] [0] [1] [] []
  scatter_S12288_S12288x1_S12288_n_0_0_1_wf : ScatterDims.WF S12288 S12288x1 S12288 [] [0] [0] 1
  scatter_S4096_S12288x1_S12288_n_0_0_1_wf : ScatterDims.WF S4096 S12288x1 S12288 [] [0] [0] 1
  gather_S12288x128_S12288x1_S12288x128_1_0_n_n_0_1_1128_wf : GatherDims.WF S12288x128 S12288x1 S12288x128 [1] [0] [] [0] [] 1 ![1, 128]
  gather_S4096_S12288x1_S12288_n_0_n_n_0_1_1_wf : GatherDims.WF S4096 S12288x1 S12288 [] [0] [] [0] [] 1 ![1]
  scatter_S4096x128_S12288x1_S12288x128_1_0_0_1_wf : ScatterDims.WF S4096x128 S12288x1 S12288x128 [1] [0] [0] 1
  gather_S4096x128_S12288x1_S12288x128_1_0_n_n_0_1_1128_wf : GatherDims.WF S4096x128 S12288x1 S12288x128 [1] [0] [] [0] [] 1 ![1, 128]
  scatter_S12288x128_S12288x1_S12288x128_1_0_0_1_wf : ScatterDims.WF S12288x128 S12288x1 S12288x128 [1] [0] [0] 1
  dot_S4096x384_S384x128_S4096x128_1_0_0_1_n_n_wf : DotDims.WF S4096x384 S384x128 S4096x128 [1] [0] [0] [1] [] []
  dot_S4096x128_S128x64_S4096x64_1_0_0_1_n_n_wf : DotDims.WF S4096x128 S128x64 S4096x64 [1] [0] [0] [1] [] []

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S12288x128_S128x128_S12288x128_1_0_0_1_n_n : DotDims S12288x128 S128x128 S12288x128 where
  lhsContracting := [1]
  rhsContracting := [0]
  lhsNonContracting := [0]
  rhsNonContracting := [1]
  lhsBatch := []
  rhsBatch := []
  wf := dot_S12288x128_S128x128_S12288x128_1_0_0_1_n_n_wf
def scatter_S12288_S12288x1_S12288_n_0_0_1 : ScatterDims S12288 S12288x1 S12288 where
  updateWindowDims := []
  insertedWindowDims := [0]
  scatterDimsToOperandDims := [0]
  indexVectorDim := 1
  wf := scatter_S12288_S12288x1_S12288_n_0_0_1_wf
def scatter_S4096_S12288x1_S12288_n_0_0_1 : ScatterDims S4096 S12288x1 S12288 where
  updateWindowDims := []
  insertedWindowDims := [0]
  scatterDimsToOperandDims := [0]
  indexVectorDim := 1
  wf := scatter_S4096_S12288x1_S12288_n_0_0_1_wf
def gather_S12288x128_S12288x1_S12288x128_1_0_n_n_0_1_1128 : GatherDims S12288x128 S12288x1 S12288x128 where
  offsetDims := [1]
  collapsedSliceDims := [0]
  operandBatchingDims := []
  startIndicesBatchingDims := []
  startIndexMap := [0]
  indexVectorDim := 1
  sliceSizes := ![1, 128]
  wf := gather_S12288x128_S12288x1_S12288x128_1_0_n_n_0_1_1128_wf
def gather_S4096_S12288x1_S12288_n_0_n_n_0_1_1 : GatherDims S4096 S12288x1 S12288 where
  offsetDims := []
  collapsedSliceDims := [0]
  operandBatchingDims := []
  startIndicesBatchingDims := []
  startIndexMap := [0]
  indexVectorDim := 1
  sliceSizes := ![1]
  wf := gather_S4096_S12288x1_S12288_n_0_n_n_0_1_1_wf
def scatter_S4096x128_S12288x1_S12288x128_1_0_0_1 : ScatterDims S4096x128 S12288x1 S12288x128 where
  updateWindowDims := [1]
  insertedWindowDims := [0]
  scatterDimsToOperandDims := [0]
  indexVectorDim := 1
  wf := scatter_S4096x128_S12288x1_S12288x128_1_0_0_1_wf
def gather_S4096x128_S12288x1_S12288x128_1_0_n_n_0_1_1128 : GatherDims S4096x128 S12288x1 S12288x128 where
  offsetDims := [1]
  collapsedSliceDims := [0]
  operandBatchingDims := []
  startIndicesBatchingDims := []
  startIndexMap := [0]
  indexVectorDim := 1
  sliceSizes := ![1, 128]
  wf := gather_S4096x128_S12288x1_S12288x128_1_0_n_n_0_1_1128_wf
def scatter_S12288x128_S12288x1_S12288x128_1_0_0_1 : ScatterDims S12288x128 S12288x1 S12288x128 where
  updateWindowDims := [1]
  insertedWindowDims := [0]
  scatterDimsToOperandDims := [0]
  indexVectorDim := 1
  wf := scatter_S12288x128_S12288x1_S12288x128_1_0_0_1_wf
def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf

class Facts : Prop extends Facts₀ where

variable [Facts]
-- ==== Proof.Spec.lean ====
/-
  The mathematics both programs compute, stated once over the extended reals with curried coordinates.

  Three modalities are averaged over time and projected to 128 features (`featK`: the time sum scaled by a
  reciprocal; `featR`: the time sum divided by the length).  The three feature tables are stacked into 12288 node
  rows.  Node rows 3b, 3b+1, 3b+2 form hyperedge b.  One hypergraph convolution replaces every node row by the mean
  of its hyperedge's rows after a linear map (`hconvR`); since every node has degree one and every hyperedge degree
  three the normalisations are the constants 1 and 1/3.  Two convolutions, then the three rows of a hyperedge are laid
  side by side (384 features) and pass through two affine layers (`headR`).  The other arrangement (`headK`) takes
  the hyperedge mean FIRST (4096 rows), applies the two linear maps to the mean, and, because the three rows of a
  hyperedge are then equal, meets the 384-wide layer with the sum of its three 128-row thirds.
-/
import Idealize.ShloMosaic.PureOps.Ideal
import Idealize.ShloMosaic.Lib.ValueIdx

noncomputable section

namespace Cert.Fusion

open Idealize.ShloMosaic Idealize.ShloMosaic.ValueIdx

/-- An array of rank one, two, three read by coordinates. -/
abbrev cur1 {a : Nat} (A : (⟨1, ![a]⟩ : Shape).Idx → EReal) : Fin a → EReal := fun r => A (ix1 r)
abbrev cur2 {a b : Nat} (A : (⟨2, ![a, b]⟩ : Shape).Idx → EReal) : Fin a → Fin b → EReal := fun r c => A (ix2 r c)
abbrev cur3 {a b c : Nat} (A : (⟨3, ![a, b, c]⟩ : Shape).Idx → EReal) : Fin a → Fin b → Fin c → EReal :=
  fun r s t => A (ix3 r s t)

/-- A bias stored as a one-row matrix, read by its column. -/
abbrev row {a : Nat} (A : (⟨2, ![1, a]⟩ : Shape).Idx → EReal) : Fin a → EReal := fun h => A (ix2 0 h)

/-- An extended real that is a real number. -/
def IsReal (x : EReal) : Prop := x ≠ ⊤ ∧ x ≠ ⊥

/-- A real number's reciprocal as an extended real: the value of a named reciprocal. -/
abbrev rcp (n : ℝ) : EReal := ((1 / n : ℝ) : EReal)

/-! ## The modality features -/

/-- Time sum times a reciprocal, projected, plus bias. -/
def featK {L D : Nat} (inv : EReal) (A : Fin 4096 → Fin L → Fin D → EReal) (W : Fin D → Fin 128 → EReal)
    (b : Fin 128 → EReal) : Fin 4096 → Fin 128 → EReal :=
  fun r h => (∑ k : Fin D, ((∑ t : Fin L, A r t k) * inv) * W k h) + b h

/-- Time sum divided by the length, projected, plus bias. -/
def featR {L D : Nat} (n : ℝ) (A : Fin 4096 → Fin L → Fin D → EReal) (W : Fin D → Fin 128 → EReal)
    (b : Fin 128 → EReal) : Fin 4096 → Fin 128 → EReal :=
  fun r h => (∑ k : Fin D, Ideal.div (∑ t : Fin L, A r t k) (n : EReal) * W k h) + b h

/-- Three 4096-row tables stacked into 12288 node rows. -/
def stack (f0 f1 f2 : Fin 4096 → Fin 128 → EReal) : Fin 12288 → Fin 128 → EReal :=
  fun n h =>
    if h0 : n.val < 4096 then f0 ⟨n.val, h0⟩ h
    else if h1 : n.val < 8192 then f1 ⟨n.val - 4096, by have := n.isLt; omega⟩ h
    else f2 ⟨n.val - 8192, by have := n.isLt; omega⟩ h

/-- The three tables as one table indexed by modality. -/
def feats3 (f0 f1 f2 : Fin 4096 → Fin 128 → EReal) : Fin 3 → Fin 4096 → Fin 128 → EReal :=
  fun mi => match mi with
    | ⟨0, _⟩ => f0
    | ⟨1, _⟩ => f1
    | ⟨_ + 2, _⟩ => f2

/-! ## The pieces of the head -/

/-- An affine layer. -/
def affine {n K H : Nat} (X : Fin n → Fin K → EReal) (W : Fin K → Fin H → EReal) (b : Fin H → EReal) :
    Fin n → Fin H → EReal :=
  fun r h => (∑ k : Fin K, X r k * W k h) + b h

/-- The positive part. -/
def relu {n H : Nat} (X : Fin n → Fin H → EReal) : Fin n → Fin H → EReal := fun r h => max (X r h) 0

/-- Node row `3 b + j` of hyperedge `b`. -/
abbrev node (b : Fin 4096) (j : Fin 3) : Fin 12288 := ⟨3 * b.val + j.val, by have := b.isLt; have := j.isLt; omega⟩

/-- The hyperedge of node `n`. -/
abbrev edge (n : Fin 12288) : Fin 4096 := ⟨n.val / 3, by have := n.isLt; omega⟩

/-- The mean of a hyperedge's three node rows, by a reciprocal. -/
def tripleMean (inv3 : EReal) (X : Fin 12288 → Fin 128 → EReal) : Fin 4096 → Fin 128 → EReal :=
  fun b k => (∑ j : Fin 3, X (node b j) k) * inv3

/-- The sum of the three 128-row thirds of a 384-row matrix. -/
def thirds (W : Fin 384 → Fin 128 → EReal) : Fin 128 → Fin 128 → EReal :=
  fun k h => W ⟨k.val, by have := k.isLt; omega⟩ h + W ⟨128 + k.val, by have := k.isLt; omega⟩ h
    + W ⟨256 + k.val, by have := k.isLt; omega⟩ h

/-- The head with the hyperedge mean taken first. -/
def headK (inv3 : EReal) (X : Fin 12288 → Fin 128 → EReal) (th0 : Fin 128 → Fin 128 → EReal) (hb0 : Fin 128 → EReal)
    (th1 : Fin 128 → Fin 128 → EReal) (hb1 : Fin 128 → EReal) (Wo1 : Fin 384 → Fin 128 → EReal) (bo1 : Fin 128 → EReal)
    (Wo2 : Fin 128 → Fin 64 → EReal) (bo2 : Fin 64 → EReal) : Fin 4096 → Fin 64 → EReal :=
  affine (relu (affine (affine (relu (affine (tripleMean inv3 X) th0 hb0)) th1 hb1) (thirds Wo1) bo1)) Wo2 bo2

/-- One hypergraph convolution on node rows: linear map, each row scaled by 1/3, summed over its hyperedge, handed
    back to every node of the hyperedge, plus bias. -/
def hconvR (X : Fin 12288 → Fin 128 → EReal) (th : Fin 128 → Fin 128 → EReal) (hb : Fin 128 → EReal) :
    Fin 12288 → Fin 128 → EReal :=
  fun n h => (∑ j : Fin 3, (∑ k : Fin 128, X (node (edge n) j) k * th k h) * rcp 3) + hb h

/-- A hyperedge's three node rows side by side. -/
def flat3 (Y : Fin 12288 → Fin 128 → EReal) : Fin 4096 → Fin 384 → EReal :=
  fun b q => Y ⟨3 * b.val + q.val / 128, by have := b.isLt; have := q.isLt; omega⟩
    ⟨q.val % 128, Nat.mod_lt _ (by decide)⟩

/-- The head on node rows. -/
def headR (X : Fin 12288 → Fin 128 → EReal) (th0 : Fin 128 → Fin 128 → EReal) (hb0 : Fin 128 → EReal)
    (th1 : Fin 128 → Fin 128 → EReal) (hb1 : Fin 128 → EReal) (Wo1 : Fin 384 → Fin 128 → EReal) (bo1 : Fin 128 → EReal)
    (Wo2 : Fin 128 → Fin 64 → EReal) (bo2 : Fin 64 → EReal) : Fin 4096 → Fin 64 → EReal :=
  affine (relu (affine (flat3 (hconvR (relu (hconvR X th0 hb0)) th1 hb1)) Wo1 bo1)) Wo2 bo2

/-! ## The two whole functions of the seventeen arguments -/

section Whole

variable (A0 : Fin 4096 → Fin 20 → Fin 512 → EReal) (A1 : Fin 4096 → Fin 20 → Fin 256 → EReal)
  (A2 : Fin 4096 → Fin 50 → Fin 128 → EReal) (Wp0 : Fin 512 → Fin 128 → EReal) (bp0 : Fin 128 → EReal)
  (Wp1 : Fin 256 → Fin 128 → EReal) (bp1 : Fin 128 → EReal) (Wp2 : Fin 128 → Fin 128 → EReal) (bp2 : Fin 128 → EReal)
  (th0 : Fin 128 → Fin 128 → EReal) (hb0 : Fin 128 → EReal) (th1 : Fin 128 → Fin 128 → EReal) (hb1 : Fin 128 → EReal)
  (Wo1 : Fin 384 → Fin 128 → EReal) (bo1 : Fin 128 → EReal) (Wo2 : Fin 128 → Fin 64 → EReal) (bo2 : Fin 64 → EReal)

/-- The node rows as the reciprocal-scaled arrangement builds them. -/
def nodesK : Fin 12288 → Fin 128 → EReal :=
  stack (featK (rcp 20) A0 Wp0 bp0) (featK (rcp 20) A1 Wp1 bp1) (featK (rcp 50) A2 Wp2 bp2)

/-- The node rows as the dividing arrangement builds them. -/
def nodesR : Fin 12288 → Fin 128 → EReal :=
  stack (featR 20 A0 Wp0 bp0) (featR 20 A1 Wp1 bp1) (featR 50 A2 Wp2 bp2)

/-- The whole result, mean first. -/
def wholeK : Fin 4096 → Fin 64 → EReal :=
  headK (rcp 3) (nodesK A0 A1 A2 Wp0 bp0 Wp1 bp1 Wp2 bp2) th0 hb0 th1 hb1 Wo1 bo1 Wo2 bo2

/-- The whole result, on node rows. -/
def wholeR : Fin 4096 → Fin 64 → EReal :=
  headR (nodesR A0 A1 A2 Wp0 bp0 Wp1 bp1 Wp2 bp2) th0 hb0 th1 hb1 Wo1 bo1 Wo2 bo2

end Whole

end Cert.Fusion

end
-- ==== Proof.Algebra.lean ====
/-
  The algebra that joins the two arrangements.

  Part one: scaling a time sum by the reciprocal of a nonzero real is dividing by that real, on every extended
  real, so the two ways of building the node rows agree entry by entry.

  Part two: sums and products of real numbers are real numbers, so the node rows of real inputs are real numbers.

  Part three: on real numbers the head may be computed either way.  Every array is written as the image of a real
  array, the embedding of the reals is pushed through sums, products and the positive part, and the identity is
  proved over the reals: a convolution hands every node of a hyperedge the same row, namely the affine image of the
  hyperedge mean; the mean of three equal rows is that row; and a 384-wide contraction against three copies of one
  128-wide row is the contraction of that row with the sum of the three 128-row thirds.
-/
import proofs.«129526_g8237747274144_cont_9to1_m_1049_17_alg».proof.Proof.Spec
import Mathlib.Data.EReal.Basic
import Mathlib.Data.EReal.Operations
import Mathlib.Algebra.BigOperators.Fin
import Mathlib.Algebra.BigOperators.Group.Finset.Basic
import Mathlib.Algebra.BigOperators.Ring.Finset
import Mathlib.Data.Fintype.BigOperators
import Mathlib.Order.MinMax
import Mathlib.Tactic.Ring
import Mathlib.Tactic.NormNum

noncomputable section

namespace Cert.Fusion

open Idealize.ShloMosaic

/-! ## Part one: a reciprocal scale is a division -/

theorem featK_eq_featR {L D : Nat} {n : ℝ} (hn : n ≠ 0) (A : Fin 4096 → Fin L → Fin D → EReal)
    (W : Fin D → Fin 128 → EReal) (b : Fin 128 → EReal) : featK (rcp n) A W b = featR n A W b := by
  funext r h
  simp only [featK, featR, Ideal.div_coe hn]

/-! ## Part two: real numbers are closed under the operations used -/

theorem isReal_coe (x : ℝ) : IsReal (x : EReal) := ⟨EReal.coe_ne_top x, EReal.coe_ne_bot x⟩

theorem IsReal.eq_coe {x : EReal} (h : IsReal x) : x = ((x.toReal : ℝ) : EReal) :=
  (EReal.coe_toReal h.1 h.2).symm

theorem IsReal.add {x y : EReal} (hx : IsReal x) (hy : IsReal y) : IsReal (x + y) := by
  rw [hx.eq_coe, hy.eq_coe, ← EReal.coe_add]
  exact isReal_coe _

theorem IsReal.mul {x y : EReal} (hx : IsReal x) (hy : IsReal y) : IsReal (x * y) := by
  rw [hx.eq_coe, hy.eq_coe, ← EReal.coe_mul]
  exact isReal_coe _

/-- The embedding of the reals commutes with finite sums. -/
theorem coe_sum {ι : Type} (s : Finset ι) (f : ι → ℝ) :
    ((s.sum f : ℝ) : EReal) = s.sum fun i => (f i : EReal) := by
  classical
  refine Finset.induction_on s ?_ ?_
  · simp
  · intro a s ha ih
    rw [Finset.sum_insert ha, Finset.sum_insert ha, EReal.coe_add, ih]

theorem isReal_sum {ι : Type} (s : Finset ι) (f : ι → EReal) (h : ∀ i, IsReal (f i)) : IsReal (s.sum f) := by
  rw [Finset.sum_congr rfl fun i _ => (h i).eq_coe, ← coe_sum]
  exact isReal_coe _

theorem featK_isReal {L D : Nat} (c : ℝ) (A : Fin 4096 → Fin L → Fin D → EReal) (W : Fin D → Fin 128 → EReal)
    (b : Fin 128 → EReal) (hA : ∀ r t k, IsReal (A r t k)) (hW : ∀ k h, IsReal (W k h)) (hb : ∀ h, IsReal (b h))
    (r : Fin 4096) (h : Fin 128) : IsReal (featK (c : EReal) A W b r h) := by
  unfold featK
  exact (isReal_sum _ _ fun k => ((isReal_sum _ _ fun t => hA r t k).mul (isReal_coe c)).mul (hW k h)).add (hb h)

theorem stack_isReal (f0 f1 f2 : Fin 4096 → Fin 128 → EReal) (h0 : ∀ r h, IsReal (f0 r h))
    (h1 : ∀ r h, IsReal (f1 r h)) (h2 : ∀ r h, IsReal (f2 r h)) (n : Fin 12288) (h : Fin 128) :
    IsReal (stack f0 f1 f2 n h) := by
  unfold stack
  split_ifs
  · exact h0 _ _
  · exact h1 _ _
  · exact h2 _ _

/-! ## Part three: the head over the reals -/

/-- A real vector, a real matrix, seen as extended reals. -/
def up1 {a : Nat} (f : Fin a → ℝ) : Fin a → EReal := fun i => (f i : EReal)
def up2 {a b : Nat} (f : Fin a → Fin b → ℝ) : Fin a → Fin b → EReal := fun i j => (f i j : EReal)

theorem exists_up1 {a : Nat} (f : Fin a → EReal) (h : ∀ i, IsReal (f i)) : ∃ g : Fin a → ℝ, f = up1 g :=
  ⟨fun i => (f i).toReal, funext fun i => (h i).eq_coe⟩

theorem exists_up2 {a b : Nat} (f : Fin a → Fin b → EReal) (h : ∀ i j, IsReal (f i j)) :
    ∃ g : Fin a → Fin b → ℝ, f = up2 g :=
  ⟨fun i j => (f i j).toReal, funext fun i => funext fun j => (h i j).eq_coe⟩

/-- The pieces of the head over the reals. -/
def affineRe {n K H : Nat} (X : Fin n → Fin K → ℝ) (W : Fin K → Fin H → ℝ) (b : Fin H → ℝ) : Fin n → Fin H → ℝ :=
  fun r h => (∑ k : Fin K, X r k * W k h) + b h

def reluRe {n H : Nat} (X : Fin n → Fin H → ℝ) : Fin n → Fin H → ℝ := fun r h => max (X r h) 0

def meanRe (X : Fin 12288 → Fin 128 → ℝ) : Fin 4096 → Fin 128 → ℝ :=
  fun b k => (∑ j : Fin 3, X (node b j) k) * (1 / 3)

def thirdsRe (W : Fin 384 → Fin 128 → ℝ) : Fin 128 → Fin 128 → ℝ :=
  fun k h => W ⟨k.val, by have := k.isLt; omega⟩ h + W ⟨128 + k.val, by have := k.isLt; omega⟩ h
    + W ⟨256 + k.val, by have := k.isLt; omega⟩ h

def hconvRe (X : Fin 12288 → Fin 128 → ℝ) (th : Fin 128 → Fin 128 → ℝ) (hb : Fin 128 → ℝ) :
    Fin 12288 → Fin 128 → ℝ :=
  fun n h => (∑ j : Fin 3, (∑ k : Fin 128, X (node (edge n) j) k * th k h) * (1 / 3)) + hb h

def flatRe (Y : Fin 12288 → Fin 128 → ℝ) : Fin 4096 → Fin 384 → ℝ :=
  fun b q => Y ⟨3 * b.val + q.val / 128, by have := b.isLt; have := q.isLt; omega⟩
    ⟨q.val % 128, Nat.mod_lt _ (by decide)⟩

/-! ### The embedding passes through every piece -/

theorem affine_up {n K H : Nat} (X : Fin n → Fin K → ℝ) (W : Fin K → Fin H → ℝ) (b : Fin H → ℝ) :
    affine (up2 X) (up2 W) (up1 b) = up2 (affineRe X W b) := by
  funext r h
  simp only [affine, up2, up1, affineRe, EReal.coe_add, coe_sum, EReal.coe_mul]

theorem relu_up {n H : Nat} (X : Fin n → Fin H → ℝ) : relu (up2 X) = up2 (reluRe X) := by
  funext r h
  simp only [relu, up2, reluRe]
  rw [EReal.coe_strictMono.monotone.map_max]
  rfl

theorem tripleMean_up (X : Fin 12288 → Fin 128 → ℝ) : tripleMean (rcp 3) (up2 X) = up2 (meanRe X) := by
  funext b k
  simp only [tripleMean, rcp, up2, meanRe, coe_sum, EReal.coe_mul]

theorem thirds_up (W : Fin 384 → Fin 128 → ℝ) : thirds (up2 W) = up2 (thirdsRe W) := by
  funext k h
  simp only [thirds, up2, thirdsRe, EReal.coe_add]

theorem hconvR_up (X : Fin 12288 → Fin 128 → ℝ) (th : Fin 128 → Fin 128 → ℝ) (hb : Fin 128 → ℝ) :
    hconvR (up2 X) (up2 th) (up1 hb) = up2 (hconvRe X th hb) := by
  funext n h
  simp only [hconvR, rcp, up2, up1, hconvRe, EReal.coe_add, coe_sum, EReal.coe_mul]

theorem flat3_up (Y : Fin 12288 → Fin 128 → ℝ) : flat3 (up2 Y) = up2 (flatRe Y) := rfl

/-! ### The identity over the reals -/

theorem edge_node (b : Fin 4096) (j : Fin 3) : edge (node b j) = b := by
  apply Fin.ext
  show (3 * b.val + j.val) / 3 = b.val
  have := j.isLt
  omega

/-- A convolution gives node n the affine image of the mean of its hyperedge. -/
theorem hconvRe_eq (X : Fin 12288 → Fin 128 → ℝ) (th : Fin 128 → Fin 128 → ℝ) (hb : Fin 128 → ℝ) :
    hconvRe X th hb = fun n h => affineRe (meanRe X) th hb (edge n) h := by
  funext n h
  simp only [hconvRe, affineRe, meanRe]
  congr 1
  simp only [Finset.sum_mul]
  rw [Finset.sum_comm]
  refine Finset.sum_congr rfl fun k _ => Finset.sum_congr rfl fun j _ => ?_
  ring

/-- The mean of a table that is constant on every hyperedge is that constant. -/
theorem meanRe_const (G : Fin 4096 → Fin 128 → ℝ) : meanRe (fun n k => G (edge n) k) = G := by
  funext b k
  simp only [meanRe, Fin.sum_univ_three, edge_node]
  ring

theorem reluRe_edge (G : Fin 4096 → Fin 128 → ℝ) :
    reluRe (fun (n : Fin 12288) h => G (edge n) h) = fun n h => reluRe G (edge n) h := rfl

/-- Laying side by side the rows of a table that is constant on every hyperedge repeats one row three times. -/
theorem flatRe_edge (G : Fin 4096 → Fin 128 → ℝ) (b : Fin 4096) (q : Fin 384) :
    flatRe (fun n h => G (edge n) h) b q = G b ⟨q.val % 128, Nat.mod_lt _ (by decide)⟩ := by
  have hq := q.isLt
  have he : edge (⟨3 * b.val + q.val / 128, by have := b.isLt; omega⟩ : Fin 12288) = b := by
    apply Fin.ext
    show (3 * b.val + q.val / 128) / 3 = b.val
    omega
  simp only [flatRe, he]

/-- Column q = 128 j + k of a 384-wide row, as the pair (j, k). -/
def e384 : Fin 3 × Fin 128 ≃ Fin 384 where
  toFun p := ⟨128 * p.1.val + p.2.val, by have := p.1.isLt; have := p.2.isLt; omega⟩
  invFun q := (⟨q.val / 128, by have := q.isLt; omega⟩, ⟨q.val % 128, Nat.mod_lt _ (by decide)⟩)
  left_inv p := by
    have h1 := p.1.isLt
    have h2 := p.2.isLt
    apply Prod.ext
    · apply Fin.ext
      show (128 * p.1.val + p.2.val) / 128 = p.1.val
      omega
    · apply Fin.ext
      show (128 * p.1.val + p.2.val) % 128 = p.2.val
      omega
  right_inv q := by
    apply Fin.ext
    show 128 * (q.val / 128) + q.val % 128 = q.val
    omega

/-- A 384-wide contraction against a row repeated three times. -/
theorem sum_384 (F : Fin 128 → ℝ) (W : Fin 384 → ℝ) :
    ∑ q : Fin 384, F ⟨q.val % 128, Nat.mod_lt _ (by decide)⟩ * W q
      = ∑ k : Fin 128, F k * (W ⟨k.val, by have := k.isLt; omega⟩ + W ⟨128 + k.val, by have := k.isLt; omega⟩
          + W ⟨256 + k.val, by have := k.isLt; omega⟩) := by
  rw [← Equiv.sum_comp e384, Fintype.sum_prod_type, Finset.sum_comm]
  refine Finset.sum_congr rfl fun k _ => ?_
  have hk := k.isLt
  have hm : ∀ j : Fin 3, (⟨(e384 (j, k)).val % 128, Nat.mod_lt _ (by decide)⟩ : Fin 128) = k := by
    intro j
    have := j.isLt
    apply Fin.ext
    show (128 * j.val + k.val) % 128 = k.val
    omega
  have e0 : e384 (0, k) = ⟨k.val, by omega⟩ := Fin.ext (by show 128 * 0 + k.val = k.val; omega)
  have e1 : e384 (1, k) = ⟨128 + k.val, by omega⟩ := Fin.ext (by show 128 * 1 + k.val = 128 + k.val; omega)
  have e2 : e384 (2, k) = ⟨256 + k.val, by omega⟩ := Fin.ext (by show 128 * 2 + k.val = 256 + k.val; omega)
  rw [Fin.sum_univ_three]
  simp only [hm]
  rw [e0, e1, e2]
  ring

/-- The 384-wide layer on three equal rows is the 128-wide layer with the summed thirds. -/
theorem affineRe_flat (G : Fin 4096 → Fin 128 → ℝ) (W : Fin 384 → Fin 128 → ℝ) (c : Fin 128 → ℝ) :
    affineRe (flatRe (fun n h => G (edge n) h)) W c = affineRe G (thirdsRe W) c := by
  funext b h
  simp only [affineRe, flatRe_edge, thirdsRe]
  rw [sum_384 (G b) (fun q => W q h)]

/-- Over the reals the two arrangements of the middle of the head agree. -/
theorem head_core (X : Fin 12288 → Fin 128 → ℝ) (th0 : Fin 128 → Fin 128 → ℝ) (hb0 : Fin 128 → ℝ)
    (th1 : Fin 128 → Fin 128 → ℝ) (hb1 : Fin 128 → ℝ) (Wo1 : Fin 384 → Fin 128 → ℝ) (bo1 : Fin 128 → ℝ) :
    affineRe (flatRe (hconvRe (reluRe (hconvRe X th0 hb0)) th1 hb1)) Wo1 bo1
      = affineRe (affineRe (reluRe (affineRe (meanRe X) th0 hb0)) th1 hb1) (thirdsRe Wo1) bo1 := by
  rw [hconvRe_eq X, reluRe_edge, hconvRe_eq, meanRe_const, affineRe_flat]

/-! ### The head either way, and the whole -/

/-- On real numbers the head may take the hyperedge mean first. -/
theorem headK_eq_headR (X : Fin 12288 → Fin 128 → EReal) (th0 : Fin 128 → Fin 128 → EReal) (hb0 : Fin 128 → EReal)
    (th1 : Fin 128 → Fin 128 → EReal) (hb1 : Fin 128 → EReal) (Wo1 : Fin 384 → Fin 128 → EReal)
    (bo1 : Fin 128 → EReal) (Wo2 : Fin 128 → Fin 64 → EReal) (bo2 : Fin 64 → EReal)
    (hX : ∀ n h, IsReal (X n h)) (hth0 : ∀ k h, IsReal (th0 k h)) (hhb0 : ∀ h, IsReal (hb0 h))
    (hth1 : ∀ k h, IsReal (th1 k h)) (hhb1 : ∀ h, IsReal (hb1 h)) (hWo1 : ∀ k h, IsReal (Wo1 k h))
    (hbo1 : ∀ h, IsReal (bo1 h)) (hWo2 : ∀ k h, IsReal (Wo2 k h)) (hbo2 : ∀ h, IsReal (bo2 h)) :
    headK (rcp 3) X th0 hb0 th1 hb1 Wo1 bo1 Wo2 bo2 = headR X th0 hb0 th1 hb1 Wo1 bo1 Wo2 bo2 := by
  obtain ⟨X', rfl⟩ := exists_up2 X hX
  obtain ⟨th0', rfl⟩ := exists_up2 th0 hth0
  obtain ⟨hb0', rfl⟩ := exists_up1 hb0 hhb0
  obtain ⟨th1', rfl⟩ := exists_up2 th1 hth1
  obtain ⟨hb1', rfl⟩ := exists_up1 hb1 hhb1
  obtain ⟨Wo1', rfl⟩ := exists_up2 Wo1 hWo1
  obtain ⟨bo1', rfl⟩ := exists_up1 bo1 hbo1
  obtain ⟨Wo2', rfl⟩ := exists_up2 Wo2 hWo2
  obtain ⟨bo2', rfl⟩ := exists_up1 bo2 hbo2
  unfold headK headR
  simp only [tripleMean_up, affine_up, relu_up, thirds_up, hconvR_up, flat3_up]
  rw [head_core]

theorem wholeK_eq_wholeR
    (A0 : Fin 4096 → Fin 20 → Fin 512 → EReal) (A1 : Fin 4096 → Fin 20 → Fin 256 → EReal)
    (A2 : Fin 4096 → Fin 50 → Fin 128 → EReal) (Wp0 : Fin 512 → Fin 128 → EReal) (bp0 : Fin 128 → EReal)
    (Wp1 : Fin 256 → Fin 128 → EReal) (bp1 : Fin 128 → EReal) (Wp2 : Fin 128 → Fin 128 → EReal) (bp2 : Fin 128 → EReal)
    (th0 : Fin 128 → Fin 128 → EReal) (hb0 : Fin 128 → EReal) (th1 : Fin 128 → Fin 128 → EReal) (hb1 : Fin 128 → EReal)
    (Wo1 : Fin 384 → Fin 128 → EReal) (bo1 : Fin 128 → EReal) (Wo2 : Fin 128 → Fin 64 → EReal) (bo2 : Fin 64 → EReal)
    (hA0 : ∀ r t k, IsReal (A0 r t k)) (hA1 : ∀ r t k, IsReal (A1 r t k)) (hA2 : ∀ r t k, IsReal (A2 r t k))
    (hWp0 : ∀ k h, IsReal (Wp0 k h)) (hbp0 : ∀ h, IsReal (bp0 h)) (hWp1 : ∀ k h, IsReal (Wp1 k h)) (hbp1 : ∀ h, IsReal (bp1 h))
    (hWp2 : ∀ k h, IsReal (Wp2 k h)) (hbp2 : ∀ h, IsReal (bp2 h)) (hth0 : ∀ k h, IsReal (th0 k h)) (hhb0 : ∀ h, IsReal (hb0 h))
    (hth1 : ∀ k h, IsReal (th1 k h)) (hhb1 : ∀ h, IsReal (hb1 h)) (hWo1 : ∀ k h, IsReal (Wo1 k h)) (hbo1 : ∀ h, IsReal (bo1 h))
    (hWo2 : ∀ k h, IsReal (Wo2 k h)) (hbo2 : ∀ h, IsReal (bo2 h)) :
    wholeK A0 A1 A2 Wp0 bp0 Wp1 bp1 Wp2 bp2 th0 hb0 th1 hb1 Wo1 bo1 Wo2 bo2
      = wholeR A0 A1 A2 Wp0 bp0 Wp1 bp1 Wp2 bp2 th0 hb0 th1 hb1 Wo1 bo1 Wo2 bo2 := by
  have h20 : (20 : ℝ) ≠ 0 := by norm_num
  have h50 : (50 : ℝ) ≠ 0 := by norm_num
  -- the node rows agree entry by entry
  have hN : nodesK A0 A1 A2 Wp0 bp0 Wp1 bp1 Wp2 bp2 = nodesR A0 A1 A2 Wp0 bp0 Wp1 bp1 Wp2 bp2 := by
    unfold nodesK nodesR
    rw [featK_eq_featR h20 A0, featK_eq_featR h20 A1, featK_eq_featR h50 A2]
  -- and they are real numbers
  have hX : ∀ n h, IsReal (nodesR A0 A1 A2 Wp0 bp0 Wp1 bp1 Wp2 bp2 n h) := by
    rw [← hN]
    intro n h
    unfold nodesK
    refine stack_isReal _ _ _ ?_ ?_ ?_ n h
    · exact featK_isReal _ _ _ _ hA0 hWp0 hbp0
    · exact featK_isReal _ _ _ _ hA1 hWp1 hbp1
    · exact featK_isReal _ _ _ _ hA2 hWp2 hbp2
  unfold wholeK wholeR
  rw [hN]
  exact headK_eq_headR _ th0 hb0 th1 hb1 Wo1 bo1 Wo2 bo2 hX hth0 hhb0 hth1 hhb1 hWo1 hbo1 hWo2 hbo2

end Cert.Fusion

end
-- ==== Proof.Finite.lean ====
/-
  Finiteness of the inputs, read back from the printed precondition.

  The precondition tests, for each of the seventeen float arguments, whether |x| < +∞ holds at every
  entry (the bound being the word 0x7F800000, which denotes +∞), folds each array of answers by 'and'
  over all of its axes, and conjoins the seventeen results. At the ideal instance an entry is an
  extended real and |x| is max x (-x); the strict bound |x| < +∞ excludes exactly the two infinities.
  So when the precondition evaluates to 1, every entry of every argument is a real number.
-/
import proofs.«129526_g8237747274144_cont_9to1_m_1049_17_alg».proof.Pre_finite_inputs
import proofs.«129526_g8237747274144_cont_9to1_m_1049_17_alg».proof.Proof.Gen.Pre_finite_inputs
import proofs.«129526_g8237747274144_cont_9to1_m_1049_17_alg».proof.Proof.Spec
import Idealize.ShloMosaic.Lib.ReduceAll
import Idealize.ShloMosaic.PureOps.Ideal

namespace Cert.Fusion

open Idealize.ShloMosaic Idealize.ShloMosaic.ValueIdx

/-- The empty shape has a single index. -/
instance : Subsingleton Cert.Pre_finite_inputs.S_.Idx := ⟨fun a b => funext fun d => d.elim0⟩

/-- An extended real whose absolute value lies strictly below +∞ is a real number. -/
theorem isReal_of_abs_lt_top (x : EReal) (hx : max x (-x) < ⊤) : IsReal x := by
  induction x using EReal.rec with
  | bot => simp at hx
  | top => simp at hx
  | coe r => exact ⟨EReal.coe_ne_top r, EReal.coe_ne_bot r⟩

/-- One entry: the comparison |x| < +∞ (the word 0x7F800000 read as +∞) came out 1, so x is real. -/
theorem isReal_of_cmp (x : Ideal .f32)
    (hx : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at hx
  rw [htop] at hx
  apply isReal_of_abs_lt_top
  by_contra hn
  simp [Ideal.cmp, hn] at hx

/-- An array whose entrywise test |x| < +∞, reduced by 'and' over all axes, gave 1 has only real entries. -/
theorem real_of_all {s : Shape} {axes : List (Fin s.rank)}
    (hr : s.ReducesTo axes Cert.Pre_finite_inputs.S_) (hu : 0 < Cert.Pre_finite_inputs.S_.numel)
    (bc : Cert.Pre_finite_inputs.S_.BroadcastsInDim s (![] : Fin 0 → Fin s.rank))
    (a : FVec Ideal s .f32) (init : IVec Cert.Pre_finite_inputs.S_ 1) (j : Cert.Pre_finite_inputs.S_.Idx)
    (e : Host.reduce IntOp.andi
          (cmpf .olt (Host.absf a) (broadcastInDim s ![] bc (constant Cert.Pre_finite_inputs.S_ .f32 0x7F800000#32)))
          init hr hu j = 1#1) :
    ∀ i, IsReal (a i) := by
  intro i
  exact isReal_of_cmp (a i) (Host.reduce_andi_all _ init hr hu j e i)

theorem real_of_finite [Cert.Pre_finite_inputs.Facts] (a0 : FVec Ideal Cert.Pre_finite_inputs.S4096x20x512 .f32) (a1 : FVec Ideal Cert.Pre_finite_inputs.S4096x20x256 .f32) (a2 : FVec Ideal Cert.Pre_finite_inputs.S4096x50x128 .f32) (a3 : FVec Ideal Cert.Pre_finite_inputs.S512x128 .f32) (a4 : FVec Ideal Cert.Pre_finite_inputs.S128 .f32) (a5 : FVec Ideal Cert.Pre_finite_inputs.S256x128 .f32) (a6 : FVec Ideal Cert.Pre_finite_inputs.S128 .f32) (a7 : FVec Ideal Cert.Pre_finite_inputs.S128x128 .f32) (a8 : FVec Ideal Cert.Pre_finite_inputs.S128 .f32) (a9 : FVec Ideal Cert.Pre_finite_inputs.S128x128 .f32) (a10 : FVec Ideal Cert.Pre_finite_inputs.S128 .f32) (a11 : FVec Ideal Cert.Pre_finite_inputs.S128x128 .f32) (a12 : FVec Ideal Cert.Pre_finite_inputs.S128 .f32) (a13 : FVec Ideal Cert.Pre_finite_inputs.S384x128 .f32) (a14 : FVec Ideal Cert.Pre_finite_inputs.S128 .f32) (a15 : FVec Ideal Cert.Pre_finite_inputs.S128x64 .f32) (a16 : FVec Ideal Cert.Pre_finite_inputs.S64 .f32)
    (h : Cert.Pre_finite_inputs.fn (F := Ideal) a0 a1 a2 a3 a4 a5 a6 a7 a8 a9 a10 a11 a12 a13 a14 a15 a16 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) := by
  -- The precondition's one result word is 1.
  have h0 := congrFun h ix0
  -- Expose the chain: a left-nested conjunction of seventeen all-axes 'and'-reductions.
  dsimp only [Cert.Pre_finite_inputs.fn, Cert.Pre_finite_inputs.fn_part1, Cert.Pre_finite_inputs.fn_part2,
    Cert.Pre_finite_inputs.fn_part3, Cert.Pre_finite_inputs.fn_part4, Idealize.ShloMosaic.andi] at h0
  -- A conjunction of one-bit words is 1 exactly when both sides are.
  simp only [IntOp.andi_eq_one] at h0
  obtain ⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩ := h0
  -- Each reduction that came out 1 makes its argument's entries real.
  exact ⟨real_of_all _ _ _ a0 _ ix0 e0,
    real_of_all _ _ _ a1 _ ix0 e1,
    real_of_all _ _ _ a2 _ ix0 e2,
    real_of_all _ _ _ a3 _ ix0 e3,
    real_of_all _ _ _ a4 _ ix0 e4,
    real_of_all _ _ _ a5 _ ix0 e5,
    real_of_all _ _ _ a6 _ ix0 e6,
    real_of_all _ _ _ a7 _ ix0 e7,
    real_of_all _ _ _ a8 _ ix0 e8,
    real_of_all _ _ _ a9 _ ix0 e9,
    real_of_all _ _ _ a10 _ ix0 e10,
    real_of_all _ _ _ a11 _ ix0 e11,
    real_of_all _ _ _ a12 _ ix0 e12,
    real_of_all _ _ _ a13 _ ix0 e13,
    real_of_all _ _ _ a14 _ ix0 e14,
    real_of_all _ _ _ a15 _ ix0 e15,
    real_of_all _ _ _ a16 _ ix0 e16⟩

end Cert.Fusion
-- ==== Proof.KValue.lean ====
/-
  The idealized kernel program's result as ONE function of its seventeen arguments.

  The program is: three reshapes of biases to one-row matrices; region 0 (the modality features, a [3, 4096, 128]
  table); a reshape of that table to 12288 node rows and four more bias reshapes; region 1 (the head).  No host operation
  and no region writes an argument, a reshape to a one-row matrix reads the bias back by its column, and the reshape
  [3, 4096, 128] → [12288, 128] puts modality n / 4096's row n % 4096 at node row n: the stacked table.  So the result
  buffer holds the head, mean first, of the stacked reciprocal-scaled features of the arguments.
-/
import proofs.«129526_g8237747274144_cont_9to1_m_1049_17_alg».proof.Proof.Gen.KernelIdeal.Frame
import proofs.«129526_g8237747274144_cont_9to1_m_1049_17_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen Cert.Fusion
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## Index arithmetic -/

/-- Modality `n / 4096`'s row `n % 4096` of the three tables is node row `n` of their stack. -/
theorem feats3_stack (f0 f1 f2 : Fin 4096 → Fin 128 → EReal) (n : Fin 12288) (h : Fin 128) :
    feats3 f0 f1 f2 ⟨n.val / 4096, by have := n.isLt; omega⟩ ⟨n.val % 4096, Nat.mod_lt _ (by decide)⟩ h
      = stack f0 f1 f2 n h := by
  have hn := n.isLt
  unfold stack
  by_cases h0 : n.val < 4096
  · rw [dif_pos h0]
    have e1 : n.val / 4096 = 0 := by omega
    have e2 : n.val % 4096 = n.val := by omega
    simp only [e1, e2]
    rfl
  · rw [dif_neg h0]
    by_cases h1 : n.val < 8192
    · rw [dif_pos h1]
      have e1 : n.val / 4096 = 1 := by omega
      have e2 : n.val % 4096 = n.val - 4096 := by omega
      simp only [e1, e2]
      rfl
    · rw [dif_neg h1]
      have e1 : n.val / 4096 = 2 := by omega
      have e2 : n.val % 4096 = n.val - 8192 := by omega
      simp only [e1, e2]
      rfl

/-- A vector reshaped to a one-row matrix, read by its column. -/
theorem row_reshape {a : Nat} (x : (⟨1, ![a]⟩ : Shape).Idx → EReal)
    (hc : (⟨1, ![a]⟩ : Shape).ShapeCasts ⟨2, ![1, a]⟩) :
    row (shapeCast (⟨2, ![1, a]⟩ : Shape) x hc) = cur1 x := by
  funext h
  show shapeCast (⟨2, ![1, a]⟩ : Shape) x hc (ix2 0 h) = x (ix1 h)
  refine shapeCast_apply x hc (ix2 0 h) (ix1 h) ?_
  rw [Shape.rowMajor_val_one, Shape.rowMajor_val_two]
  show h.val = (0 : Nat) * a + h.val
  omega

/-! ## What the two regions are entered with -/

/-- No reshape of the first stretch writes this buffer. -/
local macro "untouched0" : tactic =>
  `(tactic| (refine StableHlo.after_of_forall_not_mem _ _ (List.forall_iff_forall_mem.mp ?_);
              simp only [hostOps0, List.Forall, StableHlo.reshape_writes, Finset.mem_singleton];
              (repeat' apply And.intro);
              all_goals exact StableHlo.devRef_ne_of_ne (by decide)))

/-- No reshape of the second stretch writes this buffer. -/
local macro "untouched1" : tactic =>
  `(tactic| (refine StableHlo.after_of_forall_not_mem _ _ (List.forall_iff_forall_mem.mp ?_);
              simp only [hostOps1, List.Forall, StableHlo.reshape_writes, Finset.mem_singleton];
              (repeat' apply And.intro);
              all_goals exact StableHlo.devRef_ne_of_ne (by decide)))

section Entry0
variable (c : Dev nD)
theorem in0_a0 : V1 m ρ c main_arg0 = m ((c : Thread nD τ).loc main_arg0) := by
  show StableHlo.after hostOps0 (W0 m ρ c) (Proc.devRef .tc main_arg0) = W0 m ρ c (Proc.devRef .tc main_arg0); untouched0
theorem in0_a1 : V1 m ρ c main_arg1 = m ((c : Thread nD τ).loc main_arg1) := by
  show StableHlo.after hostOps0 (W0 m ρ c) (Proc.devRef .tc main_arg1) = W0 m ρ c (Proc.devRef .tc main_arg1); untouched0
theorem in0_a2 : V1 m ρ c main_arg2 = m ((c : Thread nD τ).loc main_arg2) := by
  show StableHlo.after hostOps0 (W0 m ρ c) (Proc.devRef .tc main_arg2) = W0 m ρ c (Proc.devRef .tc main_arg2); untouched0
theorem in0_a3 : V1 m ρ c main_arg3 = m ((c : Thread nD τ).loc main_arg3) := by
  show StableHlo.after hostOps0 (W0 m ρ c) (Proc.devRef .tc main_arg3) = W0 m ρ c (Proc.devRef .tc main_arg3); untouched0
theorem in0_a5 : V1 m ρ c main_arg5 = m ((c : Thread nD τ).loc main_arg5) := by
  show StableHlo.after hostOps0 (W0 m ρ c) (Proc.devRef .tc main_arg5) = W0 m ρ c (Proc.devRef .tc main_arg5); untouched0
theorem in0_a7 : V1 m ρ c main_arg7 = m ((c : Thread nD τ).loc main_arg7) := by
  show StableHlo.after hostOps0 (W0 m ρ c) (Proc.devRef .tc main_arg7) = W0 m ρ c (Proc.devRef .tc main_arg7); untouched0

/-- The three projection biases as one-row matrices. -/
theorem in0_v0 : row (V1 m ρ c main_v0) = cur1 (m ((c : Thread nD τ).loc main_arg4)) := by
  have e : V1 m ρ c main_v0 = shapeCast S1x128 (m ((c : Thread nD τ).loc main_arg4)) shapeCasts_S128_S1x128 := by
    show StableHlo.after hostOps0 (W0 m ρ c) (Proc.devRef .tc main_v0) = _
    after_results
    rfl
  rw [e]; exact row_reshape _ _
theorem in0_v1 : row (V1 m ρ c main_v1) = cur1 (m ((c : Thread nD τ).loc main_arg6)) := by
  have e : V1 m ρ c main_v1 = shapeCast S1x128 (m ((c : Thread nD τ).loc main_arg6)) shapeCasts_S128_S1x128 := by
    show StableHlo.after hostOps0 (W0 m ρ c) (Proc.devRef .tc main_v1) = _
    after_results
    rfl
  rw [e]; exact row_reshape _ _
theorem in0_v2 : row (V1 m ρ c main_v2) = cur1 (m ((c : Thread nD τ).loc main_arg8)) := by
  have e : V1 m ρ c main_v2 = shapeCast S1x128 (m ((c : Thread nD τ).loc main_arg8)) shapeCasts_S128_S1x128 := by
    show StableHlo.after hostOps0 (W0 m ρ c) (Proc.devRef .tc main_v2) = _
    after_results
    rfl
  rw [e]; exact row_reshape _ _
end Entry0

section Entry1
variable (c : Dev nD)

/-- An argument that is no window of region 0 passes both stretches and region 0 untouched. -/
theorem pass (b : Ref sig .tc) (h1 : StableHlo.after hostOps1 (W2 m ρ c) (Proc.devRef .tc b) = W2 m ρ c (Proc.devRef .tc b))
    (hw : ∀ w, Pipeline.arrRef spec0 w ≠ b)
    (h0 : StableHlo.after hostOps0 (W0 m ρ c) (Proc.devRef .tc b) = W0 m ρ c (Proc.devRef .tc b)) :
    W3 m ρ c (Proc.devRef .tc b) = W0 m ρ c (Proc.devRef .tc b) :=
  h1.trans ((W2_of_ne m ρ c b hw).trans h0)

theorem at2_a10 : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = W0 m ρ c (Proc.devRef .tc main_arg10); untouched0)
theorem at2_a12 : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = W0 m ρ c (Proc.devRef .tc main_arg12); untouched0)
theorem at2_a14 : W2 m ρ c (Proc.devRef .tc main_arg14) = m ((c : Thread nD τ).loc main_arg14) :=
  (W2_of_ne m ρ c main_arg14 (by decide)).trans (by
    show StableHlo.after hostOps0 (W0 m ρ c) (Proc.devRef .tc main_arg14) = W0 m ρ c (Proc.devRef .tc main_arg14); untouched0)
theorem at2_a16 : W2 m ρ c (Proc.devRef .tc main_arg16) = m ((c : Thread nD τ).loc main_arg16) :=
  (W2_of_ne m ρ c main_arg16 (by decide)).trans (by
    show StableHlo.after hostOps0 (W0 m ρ c) (Proc.devRef .tc main_arg16) = W0 m ρ c (Proc.devRef .tc main_arg16); untouched0)

theorem in1_a9 : V3 m ρ c main_arg9 = m ((c : Thread nD τ).loc main_arg9) :=
  pass m ρ c main_arg9 (by untouched1) (by decide) (by untouched0)
theorem in1_a11 : V3 m ρ c main_arg11 = m ((c : Thread nD τ).loc main_arg11) :=
  pass m ρ c main_arg11 (by untouched1) (by decide) (by untouched0)
theorem in1_a13 : V3 m ρ c main_arg13 = m ((c : Thread nD τ).loc main_arg13) :=
  pass m ρ c main_arg13 (by untouched1) (by decide) (by untouched0)
theorem in1_a15 : V3 m ρ c main_arg15 = m ((c : Thread nD τ).loc main_arg15) :=
  pass m ρ c main_arg15 (by untouched1) (by decide) (by untouched0)

/-- The four head biases as one-row matrices. -/
theorem in1_v5 : row (V3 m ρ c main_v5) = cur1 (m ((c : Thread nD τ).loc main_arg10)) := by
  have e : V3 m ρ c main_v5 = shapeCast S1x128 (W2 m ρ c (Proc.devRef .tc main_arg10)) shapeCasts_S128_S1x128 := by
    show StableHlo.after hostOps1 (W2 m ρ c) (Proc.devRef .tc main_v5) = _
    after_results
    rfl
  rw [e, at2_a10]; exact row_reshape _ _
theorem in1_v6 : row (V3 m ρ c main_v6) = cur1 (m ((c : Thread nD τ).loc main_arg12)) := by
  have e : V3 m ρ c main_v6 = shapeCast S1x128 (W2 m ρ c (Proc.devRef .tc main_arg12)) shapeCasts_S128_S1x128 := by
    show StableHlo.after hostOps1 (W2 m ρ c) (Proc.devRef .tc main_v6) = _
    after_results
    rfl
  rw [e, at2_a12]; exact row_reshape _ _
theorem in1_v7 : row (V3 m ρ c main_v7) = cur1 (m ((c : Thread nD τ).loc main_arg14)) := by
  have e : V3 m ρ c main_v7 = shapeCast S1x128 (W2 m ρ c (Proc.devRef .tc main_arg14)) shapeCasts_S128_S1x128 := by
    show StableHlo.after hostOps1 (W2 m ρ c) (Proc.devRef .tc main_v7) = _
    after_results
    rfl
  rw [e, at2_a14]; exact row_reshape _ _
theorem in1_v8 : row (V3 m ρ c main_v8) = cur1 (m ((c : Thread nD τ).loc main_arg16)) := by
  have e : V3 m ρ c main_v8 = shapeCast S1x64 (W2 m ρ c (Proc.devRef .tc main_arg16)) shapeCasts_S64_S1x64 := by
    show StableHlo.after hostOps1 (W2 m ρ c) (Proc.devRef .tc main_v8) = _
    after_results
    rfl
  rw [e, at2_a16]; exact row_reshape _ _

/-- The node rows region 1 is entered with: the feature table region 0 left, reshaped. -/
theorem in1_v4 (T : Fin 3 → Fin 4096 → Fin 128 → EReal)
    (hT : (dat0 (F := Ideal) (V1 m ρ) c).arrAt 9 cfg0.N = fun i => T (i 0) (i 1) (i 2)) (n : Fin 12288) (h : Fin 128) :
    cur2 (V3 m ρ c main_v4) n h = T ⟨n.val / 4096, by have := n.isLt; omega⟩ ⟨n.val % 4096, Nat.mod_lt _ (by decide)⟩ h := by
  have e : V3 m ρ c main_v4 = shapeCast S12288x128 (W2 m ρ c (Proc.devRef .tc main_v3)) shapeCasts_S3x4096x128_S12288x128 := by
    show StableHlo.after hostOps1 (W2 m ρ c) (Proc.devRef .tc main_v4) = _
    after_results
    rfl
  have e3 : W2 m ρ c (Proc.devRef .tc main_v3) = fun i => T (i 0) (i 1) (i 2) := (W2_arr m ρ c 9).trans hT
  show V3 m ρ c main_v4 (ix2 n h) = _
  rw [e, e3]
  have hn := n.isLt
  refine (shapeCast_apply (s := S3x4096x128) (t := S12288x128) _ shapeCasts_S3x4096x128_S12288x128 (ix2 n h)
    (ix3 ⟨n.val / 4096, by omega⟩ ⟨n.val % 4096, Nat.mod_lt _ (by decide)⟩ h) ?_).trans rfl
  rw [Shape.rowMajor_val_three, Shape.rowMajor_val_two]
  show (n.val / 4096 * 4096 + n.val % 4096) * 128 + h.val = n.val * 128 + h.val
  have := Nat.div_add_mod' n.val 4096
  omega
end Entry1

/-! ## The whole program -/

/-- The result buffer after the run, given what each region leaves as a function of what it was entered with. -/
theorem result (c : Dev nD)
    (h0 : (dat0 (F := Ideal) (V1 m ρ) c).arrAt 9 cfg0.N = fun i =>
      feats3 (featK (rcp 20) (cur3 (V1 m ρ c main_arg0)) (cur2 (V1 m ρ c main_arg3)) (row (V1 m ρ c main_v0)))
        (featK (rcp 20) (cur3 (V1 m ρ c main_arg1)) (cur2 (V1 m ρ c main_arg5)) (row (V1 m ρ c main_v1)))
        (featK (rcp 50) (cur3 (V1 m ρ c main_arg2)) (cur2 (V1 m ρ c main_arg7)) (row (V1 m ρ c main_v2))) (i 0) (i 1) (i 2))
    (h1 : (dat1 (F := Ideal) (V3 m ρ) c).arrAt 9 cfg1.N = fun i =>
      headK (rcp 3) (cur2 (V3 m ρ c main_v4)) (cur2 (V3 m ρ c main_arg9)) (row (V3 m ρ c main_v5)) (cur2 (V3 m ρ c main_arg11))
        (row (V3 m ρ c main_v6)) (cur2 (V3 m ρ c main_arg13)) (row (V3 m ρ c main_v7)) (cur2 (V3 m ρ c main_arg15)) (row (V3 m ρ c main_v8))
        (i 0) (i 1)) :
    W4 m ρ c (Proc.devRef .tc main_v9) = fun i =>
      wholeK (cur3 (m ((c : Thread nD τ).loc main_arg0))) (cur3 (m ((c : Thread nD τ).loc main_arg1))) (cur3 (m ((c : Thread nD τ).loc main_arg2))) (cur2 (m ((c : Thread nD τ).loc main_arg3))) (cur1 (m ((c : Thread nD τ).loc main_arg4))) (cur2 (m ((c : Thread nD τ).loc main_arg5))) (cur1 (m ((c : Thread nD τ).loc main_arg6))) (cur2 (m ((c : Thread nD τ).loc main_arg7))) (cur1 (m ((c : Thread nD τ).loc main_arg8))) (cur2 (m ((c : Thread nD τ).loc main_arg9))) (cur1 (m ((c : Thread nD τ).loc main_arg10))) (cur2 (m ((c : Thread nD τ).loc main_arg11))) (cur1 (m ((c : Thread nD τ).loc main_arg12))) (cur2 (m ((c : Thread nD τ).loc main_arg13))) (cur1 (m ((c : Thread nD τ).loc main_arg14))) (cur2 (m ((c : Thread nD τ).loc main_arg15))) (cur1 (m ((c : Thread nD τ).loc main_arg16))) (i 0) (i 1) := by
  have hx : cur2 (V3 m ρ c main_v4) = nodesK (cur3 (m ((c : Thread nD τ).loc main_arg0))) (cur3 (m ((c : Thread nD τ).loc main_arg1))) (cur3 (m ((c : Thread nD τ).loc main_arg2))) (cur2 (m ((c : Thread nD τ).loc main_arg3))) (cur1 (m ((c : Thread nD τ).loc main_arg4))) (cur2 (m ((c : Thread nD τ).loc main_arg5))) (cur1 (m ((c : Thread nD τ).loc main_arg6))) (cur2 (m ((c : Thread nD τ).loc main_arg7))) (cur1 (m ((c : Thread nD τ).loc main_arg8))) := by
    funext n h
    rw [in1_v4 m ρ c _ h0 n h, feats3_stack, in0_a0, in0_a1, in0_a2, in0_a3, in0_a5, in0_a7, in0_v0, in0_v1, in0_v2]
    rfl
  rw [show W4 m ρ c (Proc.devRef .tc main_v9) = (dat1 (F := Ideal) (V3 m ρ) c).arrAt 9 cfg1.N from W4_arr m ρ c 9, h1, hx, in1_a9, in1_a11, in1_a13, in1_a15, in1_v5, in1_v6, in1_v7, in1_v8]
  rfl

end Cert.KernelIdeal.Whole

end
-- ==== Proof.KProj.lean ====
import proofs.«129526_g8237747274144_cont_9to1_m_1049_17_alg».proof.Proof.Gen.KernelIdeal.Frame
import proofs.«129526_g8237747274144_cont_9to1_m_1049_17_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj

open Cert.KernelIdeal Cert.KernelIdeal.Gen Cert.Fusion
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Idealize.ShloMosaic.ValueIdx

/-! ## The feature table of a block of rows

The specification's feature table has 4096 rows; one grid point computes 128 of them from a block.  The same formula
at any number of rows, and the choice among three tables by modality, are stated here once. -/

/-- Time sum times a reciprocal, projected, plus bias, for a table of any height. -/
def featN {n L D : Nat} (inv : EReal) (A : Fin n → Fin L → Fin D → EReal) (W : Fin D → Fin 128 → EReal)
    (b : Fin 128 → EReal) : Fin n → Fin 128 → EReal :=
  fun r h => (∑ k : Fin D, ((∑ t : Fin L, A r t k) * inv) * W k h) + b h

/-- Three tables of any height as one table indexed by modality. -/
def pick3 {n : Nat} (f0 f1 f2 : Fin n → Fin 128 → EReal) : Fin 3 → Fin n → Fin 128 → EReal :=
  fun mi => match mi with
    | ⟨0, _⟩ => f0
    | ⟨1, _⟩ => f1
    | ⟨_ + 2, _⟩ => f2

/-- Row `p` of a block's table is row `r` of the whole table when the block's row `p` is the array's row `r` and
    the weights and bias are the same. -/
theorem featN_eq_featK {L D : Nat} (inv : EReal) (A' : Fin 128 → Fin L → Fin D → EReal) (W' : Fin D → Fin 128 → EReal)
    (b' : Fin 128 → EReal) (A : Fin 4096 → Fin L → Fin D → EReal) (W : Fin D → Fin 128 → EReal) (b : Fin 128 → EReal)
    (p h : Fin 128) (r : Fin 4096) (hA : ∀ s k, A' p s k = A r s k) (hW : ∀ k, W' k h = W k h) (hb : b' h = b h) :
    featN inv A' W' b' p h = featK inv A W b r h := by
  unfold featN featK
  show (∑ k : Fin D, ((∑ s : Fin L, A' p s k) * inv) * W' k h) + b' h
    = (∑ k : Fin D, ((∑ s : Fin L, A r s k) * inv) * W k h) + b h
  rw [hb]
  refine congrArg (· + b h) (Finset.sum_congr rfl fun k _ => ?_)
  rw [hW k]
  exact congrArg (fun s => s * inv * W k h) (Finset.sum_congr rfl fun s _ => hA s k)

/-- The choice by modality commutes with passing from a block's rows to the whole table's. -/
theorem pick3_eq_feats3 (f0 f1 f2 : Fin 128 → Fin 128 → EReal) (F0 F1 F2 : Fin 4096 → Fin 128 → EReal)
    (mi : Fin 3) (p h : Fin 128) (r : Fin 4096) (e0 : f0 p h = F0 r h) (e1 : f1 p h = F1 r h) (e2 : f2 p h = F2 r h) :
    pick3 f0 f1 f2 mi p h = feats3 F0 F1 F2 mi r h := by
  match mi with
  | ⟨0, _⟩ => exact e0
  | ⟨1, _⟩ => exact e1
  | ⟨n + 2, _⟩ => exact e2

/-! ## The body's arithmetic at an index -/

/-- The named reciprocals are the rationals 1/20 and 1/50. -/
theorem inv20 : Named.named (F := Ideal) κ "inv_20" (φ := .f32) 0x3D4CCCCD#32 = rcp 20 :=
  IdealRules.named_const.ideal_named_scalar _ _ _ _ rfl
theorem inv50 : Named.named (F := Ideal) κ "inv_50" (φ := .f32) 0x3CA3D70A#32 = rcp 50 :=
  IdealRules.named_const.ideal_named_scalar _ _ _ _ rfl

/-- The contraction's index maps, axis by axis: the left operand is read at (row, k), the right one at (k, column). -/
theorem lhs512_0 (i : S128x128.Idx) (q : dot_S128x512_S512x128_S128x128_1_0_0_1_n_n.contr.Idx) :
    (dot_S128x512_S512x128_S128x128_1_0_0_1_n_n.lhsIdx i q 0).val = (i 0).val := by
  unfold DotDims.lhsIdx
  rw [dif_neg (show ¬(0 : Fin S128x512.rank) ∈ dot_S128x512_S512x128_S128x128_1_0_0_1_n_n.lhsBatch by decide), dif_pos (show (0 : Fin S128x512.rank) ∈ dot_S128x512_S512x128_S128x128_1_0_0_1_n_n.lhsNonContracting by decide)]
  rfl
theorem lhs512_1 (i : S128x128.Idx) (q : dot_S128x512_S512x128_S128x128_1_0_0_1_n_n.contr.Idx) :
    (dot_S128x512_S512x128_S128x128_1_0_0_1_n_n.lhsIdx i q 1).val = (q ⟨0, by decide⟩).val :=
  dot_S128x512_S512x128_S128x128_1_0_0_1_n_n.lhsIdx_val_of_single rfl i q
theorem rhs512_0 (i : S128x128.Idx) (q : dot_S128x512_S512x128_S128x128_1_0_0_1_n_n.contr.Idx) :
    (dot_S128x512_S512x128_S128x128_1_0_0_1_n_n.rhsIdx i q 0).val = (q ⟨0, by decide⟩).val :=
  dot_S128x512_S512x128_S128x128_1_0_0_1_n_n.rhsIdx_val_of_single rfl i q
theorem rhs512_1 (i : S128x128.Idx) (q : dot_S128x512_S512x128_S128x128_1_0_0_1_n_n.contr.Idx) :
    (dot_S128x512_S512x128_S128x128_1_0_0_1_n_n.rhsIdx i q 1).val = (i 1).val := by
  unfold DotDims.rhsIdx
  rw [dif_neg (show ¬(1 : Fin S512x128.rank) ∈ dot_S128x512_S512x128_S128x128_1_0_0_1_n_n.rhsBatch by decide), dif_pos (show (1 : Fin S512x128.rank) ∈ dot_S128x512_S512x128_S128x128_1_0_0_1_n_n.rhsNonContracting by decide)]
  rfl

/-- A [128, 512] by [512, 128] product into a zero accumulator is, entry by entry, the sum over the 512 inner
    coordinates of the products. -/
theorem matmul512_apply (y : FVec Ideal S128x512 .f32) (w : FVec Ideal S512x128 .f32) (p h : Fin 128) :
    matmul dot_S128x512_S512x128_S128x128_1_0_0_1_n_n none y w (constant (F := Ideal) S128x128 .f32 0x00000000#32) (ix2 p h)
      = ∑ k : Fin 512, y (ix2 p k) * w (ix2 k h) := by
  refine (Ideal.matmul_constant_zero_apply dot_S128x512_S512x128_S128x128_1_0_0_1_n_n none y w (ix2 p h)).trans ?_
  rw [← Equiv.sum_comp (contrEquiv1 dot_S128x512_S512x128_S128x128_1_0_0_1_n_n 512 rfl rfl).symm]
  refine Finset.sum_congr rfl fun k _ => ?_
  have hk := contrEquiv1_symm_val dot_S128x512_S512x128_S128x128_1_0_0_1_n_n 512 rfl rfl k
  have el : dot_S128x512_S512x128_S128x128_1_0_0_1_n_n.lhsIdx (ix2 p h) ((contrEquiv1 dot_S128x512_S512x128_S128x128_1_0_0_1_n_n 512 rfl rfl).symm k) = ix2 p k := funext fun a => Fin.ext (by
    match a with
    | ⟨0, _⟩ => exact lhs512_0 _ _
    | ⟨1, _⟩ => exact (lhs512_1 _ _).trans hk)
  have er : dot_S128x512_S512x128_S128x128_1_0_0_1_n_n.rhsIdx (ix2 p h) ((contrEquiv1 dot_S128x512_S512x128_S128x128_1_0_0_1_n_n 512 rfl rfl).symm k) = ix2 k h := funext fun a => Fin.ext (by
    match a with
    | ⟨0, _⟩ => exact (rhs512_0 _ _).trans hk
    | ⟨1, _⟩ => exact rhs512_1 _ _)
  rw [el, er]

/-- The time sum of a [128, 20, 512] block scaled by the named reciprocal of 20, entry by entry. -/
theorem mean512_apply (x : FVec Ideal S128x20x512 .f32) (hφ : FKind.Formats .f32)
    (hacc : (0x00000000#32 : BitVec 32) = 0x00000000#32) (p : Fin 128) (k : Fin 512) :
    mulf (multiReduction (F := Ideal) .add [1] S128x512 x 0x00000000#32 reduces_S128x20x512_S128x512 hφ hacc)
      (broadcast S128x512 (Named.named (F := Ideal) κ "inv_20" (φ := .f32) 0x3D4CCCCD#32)) (ix2 p k)
      = (∑ t : Fin 20, x (ix3 p t k)) * rcp 20 := by
  rw [mulf_apply, broadcast_apply, inv20]
  refine congrArg (· * rcp 20) ?_
  refine (Ideal.multiReduction_add_single x 0x00000000#32 reduces_S128x20x512_S128x512 hφ hacc (ix2 p k)).trans ?_
  exact Finset.sum_congr rfl fun t _ => congrArg x (funext fun a => Fin.ext (by
    match a with
    | ⟨0, _⟩ => rfl
    | ⟨1, _⟩ => rfl
    | ⟨2, _⟩ => rfl))

/-- The contraction's index maps, axis by axis: the left operand is read at (row, k), the right one at (k, column). -/
theorem lhs256_0 (i : S128x128.Idx) (q : dot_S128x256_S256x128_S128x128_1_0_0_1_n_n.contr.Idx) :
    (dot_S128x256_S256x128_S128x128_1_0_0_1_n_n.lhsIdx i q 0).val = (i 0).val := by
  unfold DotDims.lhsIdx
  rw [dif_neg (show ¬(0 : Fin S128x256.rank) ∈ dot_S128x256_S256x128_S128x128_1_0_0_1_n_n.lhsBatch by decide), dif_pos (show (0 : Fin S128x256.rank) ∈ dot_S128x256_S256x128_S128x128_1_0_0_1_n_n.lhsNonContracting by decide)]
  rfl
theorem lhs256_1 (i : S128x128.Idx) (q : dot_S128x256_S256x128_S128x128_1_0_0_1_n_n.contr.Idx) :
    (dot_S128x256_S256x128_S128x128_1_0_0_1_n_n.lhsIdx i q 1).val = (q ⟨0, by decide⟩).val :=
  dot_S128x256_S256x128_S128x128_1_0_0_1_n_n.lhsIdx_val_of_single rfl i q
theorem rhs256_0 (i : S128x128.Idx) (q : dot_S128x256_S256x128_S128x128_1_0_0_1_n_n.contr.Idx) :
    (dot_S128x256_S256x128_S128x128_1_0_0_1_n_n.rhsIdx i q 0).val = (q ⟨0, by decide⟩).val :=
  dot_S128x256_S256x128_S128x128_1_0_0_1_n_n.rhsIdx_val_of_single rfl i q
theorem rhs256_1 (i : S128x128.Idx) (q : dot_S128x256_S256x128_S128x128_1_0_0_1_n_n.contr.Idx) :
    (dot_S128x256_S256x128_S128x128_1_0_0_1_n_n.rhsIdx i q 1).val = (i 1).val := by
  unfold DotDims.rhsIdx
  rw [dif_neg (show ¬(1 : Fin S256x128.rank) ∈ dot_S128x256_S256x128_S128x128_1_0_0_1_n_n.rhsBatch by decide), dif_pos (show (1 : Fin S256x128.rank) ∈ dot_S128x256_S256x128_S128x128_1_0_0_1_n_n.rhsNonContracting by decide)]
  rfl

/-- A [128, 256] by [256, 128] product into a zero accumulator is, entry by entry, the sum over the 256 inner
    coordinates of the products. -/
theorem matmul256_apply (y : FVec Ideal S128x256 .f32) (w : FVec Ideal S256x128 .f32) (p h : Fin 128) :
    matmul dot_S128x256_S256x128_S128x128_1_0_0_1_n_n none y w (constant (F := Ideal) S128x128 .f32 0x00000000#32) (ix2 p h)
      = ∑ k : Fin 256, y (ix2 p k) * w (ix2 k h) := by
  refine (Ideal.matmul_constant_zero_apply dot_S128x256_S256x128_S128x128_1_0_0_1_n_n none y w (ix2 p h)).trans ?_
  rw [← Equiv.sum_comp (contrEquiv1 dot_S128x256_S256x128_S128x128_1_0_0_1_n_n 256 rfl rfl).symm]
  refine Finset.sum_congr rfl fun k _ => ?_
  have hk := contrEquiv1_symm_val dot_S128x256_S256x128_S128x128_1_0_0_1_n_n 256 rfl rfl k
  have el : dot_S128x256_S256x128_S128x128_1_0_0_1_n_n.lhsIdx (ix2 p h) ((contrEquiv1 dot_S128x256_S256x128_S128x128_1_0_0_1_n_n 256 rfl rfl).symm k) = ix2 p k := funext fun a => Fin.ext (by
    match a with
    | ⟨0, _⟩ => exact lhs256_0 _ _
    | ⟨1, _⟩ => exact (lhs256_1 _ _).trans hk)
  have er : dot_S128x256_S256x128_S128x128_1_0_0_1_n_n.rhsIdx (ix2 p h) ((contrEquiv1 dot_S128x256_S256x128_S128x128_1_0_0_1_n_n 256 rfl rfl).symm k) = ix2 k h := funext fun a => Fin.ext (by
    match a with
    | ⟨0, _⟩ => exact (rhs256_0 _ _).trans hk
    | ⟨1, _⟩ => exact rhs256_1 _ _)
  rw [el, er]

/-- The time sum of a [128, 20, 256] block scaled by the named reciprocal of 20, entry by entry. -/
theorem mean256_apply (x : FVec Ideal S128x20x256 .f32) (hφ : FKind.Formats .f32)
    (hacc : (0x00000000#32 : BitVec 32) = 0x00000000#32) (p : Fin 128) (k : Fin 256) :
    mulf (multiReduction (F := Ideal) .add [1] S128x256 x 0x00000000#32 reduces_S128x20x256_S128x256 hφ hacc)
      (broadcast S128x256 (Named.named (F := Ideal) κ "inv_20" (φ := .f32) 0x3D4CCCCD#32)) (ix2 p k)
      = (∑ t : Fin 20, x (ix3 p t k)) * rcp 20 := by
  rw [mulf_apply, broadcast_apply, inv20]
  refine congrArg (· * rcp 20) ?_
  refine (Ideal.multiReduction_add_single x 0x00000000#32 reduces_S128x20x256_S128x256 hφ hacc (ix2 p k)).trans ?_
  exact Finset.sum_congr rfl fun t _ => congrArg x (funext fun a => Fin.ext (by
    match a with
    | ⟨0, _⟩ => rfl
    | ⟨1, _⟩ => rfl
    | ⟨2, _⟩ => rfl))

/-- The contraction's index maps, axis by axis: the left operand is read at (row, k), the right one at (k, column). -/
theorem lhs128_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem lhs128_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem rhs128_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem rhs128_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- A [128, 128] by [128, 128] product into a zero accumulator is, entry by entry, the sum over the 128 inner
    coordinates of the products. -/
theorem matmul128_apply (y : FVec Ideal S128x128 .f32) (w : FVec Ideal S128x128 .f32) (p h : Fin 128) :
    matmul dot_S128x128_S128x128_S128x128_1_0_0_1_n_n none y w (constant (F := Ideal) S128x128 .f32 0x00000000#32) (ix2 p h)
      = ∑ k : Fin 128, y (ix2 p k) * w (ix2 k h) := by
  refine (Ideal.matmul_constant_zero_apply dot_S128x128_S128x128_S128x128_1_0_0_1_n_n none y w (ix2 p h)).trans ?_
  rw [← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 p h) ((contrEquiv1 dot_S128x128_S128x128_S128x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S128x128_S128x128_S128x128_1_0_0_1_n_n.rhsIdx (ix2 p h) ((contrEquiv1 dot_S128x128_S128x128_S128x128_1_0_0_1_n_n 128 rfl rfl).symm k) = ix2 k h := funext fun a => Fin.ext (by
    match a with
    | ⟨0, _⟩ => exact (rhs128_0 _ _).trans hk
    | ⟨1, _⟩ => exact rhs128_1 _ _)
  rw [el, er]

/-- The time sum of a [128, 50, 128] block scaled by the named reciprocal of 50, entry by entry. -/
theorem mean128_apply (x : FVec Ideal S128x50x128 .f32) (hφ : FKind.Formats .f32)
    (hacc : (0x00000000#32 : BitVec 32) = 0x00000000#32) (p : Fin 128) (k : Fin 128) :
    mulf (multiReduction (F := Ideal) .add [1] S128x128 x 0x00000000#32 reduces_S128x50x128_S128x128 hφ hacc)
      (broadcast S128x128 (Named.named (F := Ideal) κ "inv_50" (φ := .f32) 0x3CA3D70A#32)) (ix2 p k)
      = (∑ t : Fin 50, x (ix3 p t k)) * rcp 50 := by
  rw [mulf_apply, broadcast_apply, inv50]
  refine congrArg (· * rcp 50) ?_
  refine (Ideal.multiReduction_add_single x 0x00000000#32 reduces_S128x50x128_S128x128 hφ hacc (ix2 p k)).trans ?_
  exact Finset.sum_congr rfl fun t _ => congrArg x (funext fun a => Fin.ext (by
    match a with
    | ⟨0, _⟩ => rfl
    | ⟨1, _⟩ => rfl
    | ⟨2, _⟩ => rfl))

/-- Modality 0's stored [1, 128, 128] result of a block: the time mean of the block's rows, projected, plus bias. -/
theorem proj0_apply (x : Vec Ideal S128x20x512 .f32) (w : Vec Ideal S512x128 .f32) (b : Vec Ideal S1x128 .f32)
    (u : Fin 1) (p h : Fin 128) :
    k0_pay4 (F := Ideal) x w b (ix3 u p h) = featN (rcp 20) (cur3 x) (cur2 w) (row b) p h := by
  unfold k0_pay4
  dsimp only
  refine (shapeCast_ab_1ab_apply _ _ u p h).trans ?_
  rw [addf_apply]
  show (_ : EReal) + _ = (∑ k : Fin 512, ((∑ t : Fin 20, x (ix3 p t k)) * rcp 20) * w (ix2 k h)) + b (ix2 (0 : Fin 1) h)
  refine congrArg₂ (· + ·) ?_ ?_
  · refine (matmul512_apply _ w p h).trans ?_
    exact Finset.sum_congr rfl fun k _ => congrArg (· * w (ix2 k h)) (mean512_apply x _ _ p k)
  · refine (broadcastTo_1b_ab_apply _ _ p h).trans ?_
    rw [shapeCast_self]

/-- Modality 1's stored [1, 128, 128] result of a block: the time mean of the block's rows, projected, plus bias. -/
theorem proj1_apply (x : Vec Ideal S128x20x256 .f32) (w : Vec Ideal S256x128 .f32) (b : Vec Ideal S1x128 .f32)
    (u : Fin 1) (p h : Fin 128) :
    k0_pay1 (F := Ideal) (k0_pay5 (F := Ideal) x w b) (ix3 u p h) = featN (rcp 20) (cur3 x) (cur2 w) (row b) p h := by
  unfold k0_pay1 k0_pay5
  dsimp only
  refine (shapeCast_ab_1ab_apply _ _ u p h).trans ?_
  rw [addf_apply]
  show (_ : EReal) + _ = (∑ k : Fin 256, ((∑ t : Fin 20, x (ix3 p t k)) * rcp 20) * w (ix2 k h)) + b (ix2 (0 : Fin 1) h)
  refine congrArg₂ (· + ·) ?_ ?_
  · refine (matmul256_apply _ w p h).trans ?_
    exact Finset.sum_congr rfl fun k _ => congrArg (· * w (ix2 k h)) (mean256_apply x _ _ p k)
  · refine (broadcastTo_1b_ab_apply _ _ p h).trans ?_
    rw [shapeCast_self]

/-- Modality 2's stored [1, 128, 128] result of a block: the time mean of the block's rows, projected, plus bias. -/
theorem proj2_apply (x : Vec Ideal S128x50x128 .f32) (w : Vec Ideal S128x128 .f32) (b : Vec Ideal S1x128 .f32)
    (u : Fin 1) (p h : Fin 128) :
    k0_pay2 (F := Ideal) (k0_pay3 (F := Ideal) x) w b (ix3 u p h) = featN (rcp 50) (cur3 x) (cur2 w) (row b) p h := by
  unfold k0_pay2 k0_pay3
  dsimp only
  refine (shapeCast_ab_1ab_apply _ _ u p h).trans ?_
  rw [addf_apply]
  show (_ : EReal) + _ = (∑ k : Fin 128, ((∑ t : Fin 50, x (ix3 p t k)) * rcp 50) * w (ix2 k h)) + b (ix2 (0 : Fin 1) h)
  refine congrArg₂ (· + ·) ?_ ?_
  · refine (matmul128_apply _ w p h).trans ?_
    exact Finset.sum_congr rfl fun k _ => congrArg (· * w (ix2 k h)) (mean128_apply x _ _ p k)
  · refine (broadcastTo_1b_ab_apply _ _ p h).trans ?_
    rw [shapeCast_self]

/-! ## One grid point's output block

The body's three stores tile the [3, 128, 128] staging buffer: modality `mi`'s result sits at leading coordinate `mi`.
So the buffer after the body is one function of the nine input blocks. -/

theorem hz3 : (![0, 0, 0] : Fin 3 → Nat) = fun _ => 0 := funext fun a => by fin_cases a <;> rfl
theorem hz2 : (![0, 0] : Fin 2 → Nat) = fun _ => 0 := funext fun a => by fin_cases a <;> rfl

/-- The staging buffer after the body, as a function of the input blocks: entry (mi, p, h) is modality `mi`'s feature
    `h` of the block's row `p`. -/
abbrev blockVal (x0 : Vec Ideal S128x20x512 .f32) (x1 : Vec Ideal S128x20x256 .f32) (x2 : Vec Ideal S128x50x128 .f32) (x3 : Vec Ideal S512x128 .f32) (x4 : Vec Ideal S1x128 .f32) (x5 : Vec Ideal S256x128 .f32) (x6 : Vec Ideal S1x128 .f32) (x7 : Vec Ideal S128x128 .f32) (x8 : Vec Ideal S1x128 .f32) : S3x128x128.Idx → EReal := fun y =>
  pick3 (featN (rcp 20) (cur3 x0) (cur2 x3) (row x4)) (featN (rcp 20) (cur3 x1) (cur2 x5) (row x6))
    (featN (rcp 50) (cur3 x2) (cur2 x7) (row x8)) (y 0) (y 1) (y 2)

theorem out_eq (x0 : Vec Ideal S128x20x512 .f32) (x1 : Vec Ideal S128x20x256 .f32) (x2 : Vec Ideal S128x50x128 .f32) (x3 : Vec Ideal S512x128 .f32) (x4 : Vec Ideal S1x128 .f32) (x5 : Vec Ideal S256x128 .f32) (x6 : Vec Ideal S1x128 .f32) (x7 : Vec Ideal S128x128 .f32) (x8 : Vec Ideal S1x128 .f32) :
    out0_9 (F := Ideal) x0 x1 x2 x3 x4 x5 x6 x7 x8 = blockVal x0 x1 x2 x3 x4 x5 x6 x7 x8 := by
  funext y
  unfold out0_9
  refine View.canon_apply_of_pieces (Val := Elt Ideal) (blockVal x0 x1 x2 x3 x4 x5 x6 x7 x8) _ ?_ y (cover0_9 _ _ _ y)
  intro pc hpc
  simp only [List.mem_cons, List.mem_singleton, List.mem_nil_iff, or_false] at hpc
  rcases hpc with rfl | rfl | rfl
  · show ∀ z : S1x128x128.Idx, k0_pay2 (F := Ideal) (k0_pay3 (F := Ideal) (View.ld x2 r0_2)) (View.ld x7 r0_8) (View.ld x8 r0_4) z
      = blockVal x0 x1 x2 x3 x4 x5 x6 x7 x8 (r0_9.emb z)
    intro z
    obtain ⟨u, p, h, rfl⟩ : ∃ (u : Fin 1) (p : Fin 128) (h : Fin 128), z = ix3 u p h := ⟨z 0, z 1, z 2, eq_ix3 z⟩
    have e : r0_9.emb (ix3 u p h) = ix3 (⟨2, by decide⟩ : Fin 3) p h := funext fun a => Fin.ext (by
      match a with
      | ⟨0, _⟩ => show 2 + 1 * u.val = 2; omega
      | ⟨1, _⟩ => show 0 + 1 * p.val = p.val; omega
      | ⟨2, _⟩ => show 0 + 1 * h.val = h.val; omega)
    refine Eq.trans ?_ (congrArg (blockVal x0 x1 x2 x3 x4 x5 x6 x7 x8) e).symm
    show _ = featN (rcp 50) (cur3 x2) (cur2 x7) (row x8) p h
    simp only [View.ld_unit_zero (S := S128x50x128) hz3, View.ld_unit_zero (S := S128x128) hz2, View.ld_unit_zero (S := S1x128) hz2]
    exact proj2_apply x2 x7 x8 u p h
  · show ∀ z : S1x128x128.Idx, k0_pay1 (F := Ideal) (k0_pay5 (F := Ideal) (View.ld x1 r0_1) (View.ld x5 r0_6) (View.ld x6 r0_4)) z
      = blockVal x0 x1 x2 x3 x4 x5 x6 x7 x8 (r0_7.emb z)
    intro z
    obtain ⟨u, p, h, rfl⟩ : ∃ (u : Fin 1) (p : Fin 128) (h : Fin 128), z = ix3 u p h := ⟨z 0, z 1, z 2, eq_ix3 z⟩
    have e : r0_7.emb (ix3 u p h) = ix3 (⟨1, by decide⟩ : Fin 3) p h := funext fun a => Fin.ext (by
      match a with
      | ⟨0, _⟩ => show 1 + 1 * u.val = 1; omega
      | ⟨1, _⟩ => show 0 + 1 * p.val = p.val; omega
      | ⟨2, _⟩ => show 0 + 1 * h.val = h.val; omega)
    refine Eq.trans ?_ (congrArg (blockVal x0 x1 x2 x3 x4 x5 x6 x7 x8) e).symm
    show _ = featN (rcp 20) (cur3 x1) (cur2 x5) (row x6) p h
    simp only [View.ld_unit_zero (S := S128x20x256) hz3, View.ld_unit_zero (S := S256x128) hz2, View.ld_unit_zero (S := S1x128) hz2]
    exact proj1_apply x1 x5 x6 u p h
  · show ∀ z : S1x128x128.Idx, k0_pay4 (F := Ideal) (View.ld x0 r0_0) (View.ld x3 r0_3) (View.ld x4 r0_4) z
      = blockVal x0 x1 x2 x3 x4 x5 x6 x7 x8 (r0_5.emb z)
    intro z
    obtain ⟨u, p, h, rfl⟩ : ∃ (u : Fin 1) (p : Fin 128) (h : Fin 128), z = ix3 u p h := ⟨z 0, z 1, z 2, eq_ix3 z⟩
    have e : r0_5.emb (ix3 u p h) = ix3 (⟨0, by decide⟩ : Fin 3) p h := funext fun a => Fin.ext (by
      match a with
      | ⟨0, _⟩ => show 0 + 1 * u.val = 0; omega
      | ⟨1, _⟩ => show 0 + 1 * p.val = p.val; omega
      | ⟨2, _⟩ => show 0 + 1 * h.val = h.val; omega)
    refine Eq.trans ?_ (congrArg (blockVal x0 x1 x2 x3 x4 x5 x6 x7 x8) e).symm
    show _ = featN (rcp 20) (cur3 x0) (cur2 x3) (row x4) p h
    simp only [View.ld_unit_zero (S := S128x20x512) hz3, View.ld_unit_zero (S := S512x128) hz2, View.ld_unit_zero (S := S1x128) hz2]
    exact proj0_apply x0 x3 x4 u p h

/-! ## The input blocks, read off their arrays -/

abbrev xb0 (c : Dev nD) (t : Fin cfg0.N) : Vec Ideal S128x20x512 .f32 := iblk0 V c 0 t
abbrev xb1 (c : Dev nD) (t : Fin cfg0.N) : Vec Ideal S128x20x256 .f32 := iblk0 V c 1 t
abbrev xb2 (c : Dev nD) (t : Fin cfg0.N) : Vec Ideal S128x50x128 .f32 := iblk0 V c 2 t
abbrev xb3 (c : Dev nD) (t : Fin cfg0.N) : Vec Ideal S512x128 .f32 := iblk0 V c 3 t
abbrev xb4 (c : Dev nD) (t : Fin cfg0.N) : Vec Ideal S1x128 .f32 := iblk0 V c 4 t
abbrev xb5 (c : Dev nD) (t : Fin cfg0.N) : Vec Ideal S256x128 .f32 := iblk0 V c 5 t
abbrev xb6 (c : Dev nD) (t : Fin cfg0.N) : Vec Ideal S1x128 .f32 := iblk0 V c 6 t
abbrev xb7 (c : Dev nD) (t : Fin cfg0.N) : Vec Ideal S128x128 .f32 := iblk0 V c 7 t
abbrev xb8 (c : Dev nD) (t : Fin cfg0.N) : Vec Ideal S1x128 .f32 := iblk0 V c 8 t

/-- The windows' index maps at each of the 32 grid points: the three modality windows move along the batch axis with
    the output window, the weight and bias windows stay at block zero, and the output's batch block index is below 32. -/
theorem idx0 : ∀ t : Fin cfg0.N, win0_0.index t (0 : Fin 3) = win0_9.index t (1 : Fin 3) ∧ win0_0.index t (1 : Fin 3) = 0
    ∧ win0_0.index t (2 : Fin 3) = 0 :=
  (by decide +kernel : ∀ t : Fin grid0.N, _)
theorem idx1 : ∀ t : Fin cfg0.N, win0_1.index t (0 : Fin 3) = win0_9.index t (1 : Fin 3) ∧ win0_1.index t (1 : Fin 3) = 0
    ∧ win0_1.index t (2 : Fin 3) = 0 :=
  (by decide +kernel : ∀ t : Fin grid0.N, _)
theorem idx2 : ∀ t : Fin cfg0.N, win0_2.index t (0 : Fin 3) = win0_9.index t (1 : Fin 3) ∧ win0_2.index t (1 : Fin 3) = 0
    ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 3) = 0 ∧ win0_9.index t (2 : Fin 3) = 0 ∧ win0_9.index t (1 : Fin 3) ≤ 31 :=
  (by decide +kernel : ∀ t : Fin grid0.N, _)

/-- Every batch block is some point's. -/
theorem idx_onto : ∀ q : Fin 32, ∃ t : Fin cfg0.N, win0_9.index t = ![0, q.val, 0] :=
  (by decide +kernel : ∀ q : Fin 32, ∃ t : Fin grid0.N, win0_9.index t = ![0, q.val, 0])

/-- Row `p` of window 0's block at point `t` is row `128 t + p` of its array. -/
theorem read0 (c : Dev nD) (t : Fin cfg0.N) (p : Fin 128) (r : Fin 4096)
    (hr : r.val = win0_9.index t (1 : Fin 3) * 128 + p.val) (s : Fin 20) (k : Fin 512) :
    cur3 (xb0 V c t) p s k = cur3 (V c main_arg0) r s k := by
  obtain ⟨e0, e1, e2⟩ := idx0 t
  show V c main_arg0 (((cfg0.win 0).blk t).view.emb (ix3 p s k)) = V c main_arg0 (ix3 r s k)
  refine congrArg (V c main_arg0) (funext fun a => Fin.ext ?_)
  match a with
  | ⟨0, _⟩ => show win0_0.index t (0 : Fin 3) * 128 + 1 * p.val = r.val; omega
  | ⟨1, _⟩ => show win0_0.index t (1 : Fin 3) * 20 + 1 * s.val = s.val; omega
  | ⟨2, _⟩ => show win0_0.index t (2 : Fin 3) * 512 + 1 * k.val = k.val; omega

/-- Row `p` of window 1's block at point `t` is row `128 t + p` of its array. -/
theorem read1 (c : Dev nD) (t : Fin cfg0.N) (p : Fin 128) (r : Fin 4096)
    (hr : r.val = win0_9.index t (1 : Fin 3) * 128 + p.val) (s : Fin 20) (k : Fin 256) :
    cur3 (xb1 V c t) p s k = cur3 (V c main_arg1) r s k := by
  obtain ⟨e0, e1, e2⟩ := idx1 t
  show V c main_arg1 (((cfg0.win 1).blk t).view.emb (ix3 p s k)) = V c main_arg1 (ix3 r s k)
  refine congrArg (V c main_arg1) (funext fun a => Fin.ext ?_)
  match a with
  | ⟨0, _⟩ => show win0_1.index t (0 : Fin 3) * 128 + 1 * p.val = r.val; omega
  | ⟨1, _⟩ => show win0_1.index t (1 : Fin 3) * 20 + 1 * s.val = s.val; omega
  | ⟨2, _⟩ => show win0_1.index t (2 : Fin 3) * 256 + 1 * k.val = k.val; omega

/-- Row `p` of window 2's block at point `t` is row `128 t + p` of its array. -/
theorem read2 (c : Dev nD) (t : Fin cfg0.N) (p : Fin 128) (r : Fin 4096)
    (hr : r.val = win0_9.index t (1 : Fin 3) * 128 + p.val) (s : Fin 50) (k : Fin 128) :
    cur3 (xb2 V c t) p s k = cur3 (V c main_arg2) r s k := by
  obtain ⟨e0, e1, e2⟩ := idx2 t
  show V c main_arg2 (((cfg0.win 2).blk t).view.emb (ix3 p s k)) = V c main_arg2 (ix3 r s k)
  refine congrArg (V c main_arg2) (funext fun a => Fin.ext ?_)
  match a with
  | ⟨0, _⟩ => show win0_2.index t (0 : Fin 3) * 128 + 1 * p.val = r.val; omega
  | ⟨1, _⟩ => show win0_2.index t (1 : Fin 3) * 50 + 1 * s.val = s.val; omega
  | ⟨2, _⟩ => show win0_2.index t (2 : Fin 3) * 128 + 1 * k.val = k.val; omega

/-- Window 3's block is its whole array at every point. -/
theorem read3 (c : Dev nD) (t : Fin cfg0.N) (k : Fin 512) (h : Fin 128) :
    cur2 (xb3 V c t) k h = cur2 (V c main_arg3) k h := by
  obtain ⟨e0, e1⟩ := idx3 t
  show V c main_arg3 (((cfg0.win 3).blk t).view.emb (ix2 k h)) = V c main_arg3 (ix2 k h)
  refine congrArg (V c main_arg3) (funext fun a => Fin.ext ?_)
  match a with
  | ⟨0, _⟩ => show win0_3.index t (0 : Fin 2) * 512 + 1 * k.val = k.val; omega
  | ⟨1, _⟩ => show win0_3.index t (1 : Fin 2) * 128 + 1 * h.val = h.val; omega

/-- Window 4's block is its whole one-row array at every point. -/
theorem read4 (c : Dev nD) (t : Fin cfg0.N) (h : Fin 128) : row (xb4 V c t) h = row (V c main_v0) h := by
  obtain ⟨e0, e1⟩ := idx4 t
  show V c main_v0 (((cfg0.win 4).blk t).view.emb (ix2 (0 : Fin 1) h)) = V c main_v0 (ix2 (0 : Fin 1) h)
  refine congrArg (V c main_v0) (funext fun a => Fin.ext ?_)
  match a with
  | ⟨0, _⟩ => show win0_4.index t (0 : Fin 2) * 1 + 1 * 0 = 0; omega
  | ⟨1, _⟩ => show win0_4.index t (1 : Fin 2) * 128 + 1 * h.val = h.val; omega

/-- Window 5's block is its whole array at every point. -/
theorem read5 (c : Dev nD) (t : Fin cfg0.N) (k : Fin 256) (h : Fin 128) :
    cur2 (xb5 V c t) k h = cur2 (V c main_arg5) k h := by
  obtain ⟨e0, e1⟩ := idx5 t
  show V c main_arg5 (((cfg0.win 5).blk t).view.emb (ix2 k h)) = V c main_arg5 (ix2 k h)
  refine congrArg (V c main_arg5) (funext fun a => Fin.ext ?_)
  match a with
  | ⟨0, _⟩ => show win0_5.index t (0 : Fin 2) * 256 + 1 * k.val = k.val; omega
  | ⟨1, _⟩ => show win0_5.index t (1 : Fin 2) * 128 + 1 * h.val = h.val; omega

/-- Window 6's block is its whole one-row array at every point. -/
theorem read6 (c : Dev nD) (t : Fin cfg0.N) (h : Fin 128) : row (xb6 V c t) h = row (V c main_v1) h := by
  obtain ⟨e0, e1⟩ := idx6 t
  show V c main_v1 (((cfg0.win 6).blk t).view.emb (ix2 (0 : Fin 1) h)) = V c main_v1 (ix2 (0 : Fin 1) h)
  refine congrArg (V c main_v1) (funext fun a => Fin.ext ?_)
  match a with
  | ⟨0, _⟩ => show win0_6.index t (0 : Fin 2) * 1 + 1 * 0 = 0; omega
  | ⟨1, _⟩ => show win0_6.index t (1 : Fin 2) * 128 + 1 * h.val = h.val; omega

/-- Window 7's block is its whole array at every point. -/
theorem read7 (c : Dev nD) (t : Fin cfg0.N) (k : Fin 128) (h : Fin 128) :
    cur2 (xb7 V c t) k h = cur2 (V c main_arg7) k h := by
  obtain ⟨e0, e1⟩ := idx7 t
  show V c main_arg7 (((cfg0.win 7).blk t).view.emb (ix2 k h)) = V c main_arg7 (ix2 k h)
  refine congrArg (V c main_arg7) (funext fun a => Fin.ext ?_)
  match a with
  | ⟨0, _⟩ => show win0_7.index t (0 : Fin 2) * 128 + 1 * k.val = k.val; omega
  | ⟨1, _⟩ => show win0_7.index t (1 : Fin 2) * 128 + 1 * h.val = h.val; omega

/-- Window 8's block is its whole one-row array at every point. -/
theorem read8 (c : Dev nD) (t : Fin cfg0.N) (h : Fin 128) : row (xb8 V c t) h = row (V c main_v2) h := by
  obtain ⟨e0, e1⟩ := idx8 t
  show V c main_v2 (((cfg0.win 8).blk t).view.emb (ix2 (0 : Fin 1) h)) = V c main_v2 (ix2 (0 : Fin 1) h)
  refine congrArg (V c main_v2) (funext fun a => Fin.ext ?_)
  match a with
  | ⟨0, _⟩ => show win0_8.index t (0 : Fin 2) * 1 + 1 * 0 = 0; omega
  | ⟨1, _⟩ => show win0_8.index t (1 : Fin 2) * 128 + 1 * h.val = h.val; omega

/-! ## From blocks to the array -/

/-- What the feature array ends holding. -/
abbrev G (c : Dev nD) : S3x4096x128.Idx → EReal := fun i =>
  feats3 (featK (rcp 20) (cur3 (V c main_arg0)) (cur2 (V c main_arg3)) (row (V c main_v0)))
    (featK (rcp 20) (cur3 (V c main_arg1)) (cur2 (V c main_arg5)) (row (V c main_v1)))
    (featK (rcp 50) (cur3 (V c main_arg2)) (cur2 (V c main_arg7)) (row (V c main_v2))) (i 0) (i 1) (i 2)

/-- What point `t` writes back is block `t` of that function: entry (mi, p, h) of the staging buffer is the array's
    entry (mi, 128 t + p, h). -/
theorem flushed_eq (c : Dev nD) (t : Fin cfg0.N) :
    (dat0 (F := Ideal) V c).flushed 9 t = ((cfg0.win 9).blk t).view.read (Elt Ideal) (G V c) := by
  show (cfg0.win 9).cut (grid0.coords t) ((dat0 (F := Ideal) V c).after 9 t) = _
  rw [after0_9]
  funext j
  obtain ⟨e0, e2, e1⟩ := idx9 t
  obtain ⟨mi, p, h, hmi, hp, hh⟩ : ∃ (mi : Fin 3) (p : Fin 128) (h : Fin 128),
      mi.val = (j 0).val ∧ p.val = (j 1).val ∧ h.val = (j 2).val :=
    ⟨⟨(j 0).val, (j 0).isLt⟩, ⟨(j 1).val, (j 1).isLt⟩, ⟨(j 2).val, (j 2).isLt⟩, rfl, rfl, rfl⟩
  have hr : win0_9.index t (1 : Fin 3) * 128 + p.val < 4096 := by have := p.isLt; omega
  have hj : (cfg0.win 9).xinj (grid0.coords t) j = ix3 mi p h := funext fun a => Fin.ext (by
    match a with
    | ⟨0, _⟩ => exact hmi.symm
    | ⟨1, _⟩ => exact hp.symm
    | ⟨2, _⟩ => exact hh.symm)
  have he : ((cfg0.win 9).blk t).view.emb j = ix3 mi (⟨win0_9.index t (1 : Fin 3) * 128 + p.val, hr⟩ : Fin 4096) h :=
    funext fun a => Fin.ext (by
      match a with
      | ⟨0, _⟩ => show win0_9.index t (0 : Fin 3) * 3 + 1 * (j 0).val = mi.val; omega
      | ⟨1, _⟩ => show win0_9.index t (1 : Fin 3) * 128 + 1 * (j 1).val = win0_9.index t (1 : Fin 3) * 128 + p.val; omega
      | ⟨2, _⟩ => show win0_9.index t (2 : Fin 3) * 128 + 1 * (j 2).val = h.val; omega)
  refine (congrFun (out_eq (xb0 V c t) (xb1 V c t) (xb2 V c t) (xb3 V c t) (xb4 V c t) (xb5 V c t) (xb6 V c t) (xb7 V c t) (xb8 V c t)) ((cfg0.win 9).xinj (grid0.coords t) j)).trans ?_
  refine (congrArg (blockVal (xb0 V c t) (xb1 V c t) (xb2 V c t) (xb3 V c t) (xb4 V c t) (xb5 V c t) (xb6 V c t) (xb7 V c t) (xb8 V c t)) hj).trans ?_
  refine Eq.trans ?_ (congrArg (G V c) he).symm
  show pick3 (featN (rcp 20) (cur3 (xb0 V c t)) (cur2 (xb3 V c t)) (row (xb4 V c t)))
      (featN (rcp 20) (cur3 (xb1 V c t)) (cur2 (xb5 V c t)) (row (xb6 V c t)))
      (featN (rcp 50) (cur3 (xb2 V c t)) (cur2 (xb7 V c t)) (row (xb8 V c t))) mi p h
    = feats3 (featK (rcp 20) (cur3 (V c main_arg0)) (cur2 (V c main_arg3)) (row (V c main_v0)))
      (featK (rcp 20) (cur3 (V c main_arg1)) (cur2 (V c main_arg5)) (row (V c main_v1)))
      (featK (rcp 50) (cur3 (V c main_arg2)) (cur2 (V c main_arg7)) (row (V c main_v2))) mi (⟨win0_9.index t (1 : Fin 3) * 128 + p.val, hr⟩ : Fin 4096) h
  exact pick3_eq_feats3 _ _ _ _ _ _ mi p h _
    (featN_eq_featK (rcp 20) _ _ _ _ _ _ p h _ (fun s k => read0 V c t p _ rfl s k) (fun k => read3 V c t k h) (read4 V c t h))
    (featN_eq_featK (rcp 20) _ _ _ _ _ _ p h _ (fun s k => read1 V c t p _ rfl s k) (fun k => read5 V c t k h) (read6 V c t h))
    (featN_eq_featK (rcp 50) _ _ _ _ _ _ p h _ (fun s k => read2 V c t p _ rfl s k) (fun k => read7 V c t k h) (read8 V c t h))

/-- An index of the array is in point `t`'s block iff each coordinate is in the block's range on its axis. -/
theorem mem_blk (t : Fin cfg0.N) (i : S3x4096x128.Idx) :
    i ∈ ((cfg0.win 9).blk t).view.set ↔ ∀ a : Fin 3, win0_9.index t a * S3x128x128.size a ≤ (i a).val
      ∧ (i a).val < win0_9.index t a * S3x128x128.size a + S3x128x128.size a := by
  show i ∈ ((View.whole main_v3).slice (win0_9.rect t)).set ↔ _
  rw [View.set_slice_whole, Rect.mem_set_unit]
  exact Iff.rfl

/-- Every index of the array is in some point's block: batch row `b` is covered by point `b / 128`. -/
theorem cover (i : S3x4096x128.Idx) :
    ∃ t : Fin cfg0.N, (cfg0.win 9).flush t = true ∧ i ∈ ((cfg0.win 9).blk t).view.set := by
  have hi0 : (i 0).val < 3 := (i 0).isLt
  have hi1 : (i 1).val < 4096 := (i 1).isLt
  have hi2 : (i 2).val < 128 := (i 2).isLt
  obtain ⟨t, ht⟩ := idx_onto ⟨(i 1).val / 128, by omega⟩
  have q0 : win0_9.index t (0 : Fin 3) = 0 := congrFun ht 0
  have q1 : win0_9.index t (1 : Fin 3) = (i 1).val / 128 := congrFun ht 1
  have q2 : win0_9.index t (2 : Fin 3) = 0 := congrFun ht 2
  refine ⟨t, flush0_9 t, ?_⟩
  rw [mem_blk]
  intro a
  match a with
  | ⟨0, _⟩ => show win0_9.index t (0 : Fin 3) * 3 ≤ (i 0).val ∧ (i 0).val < win0_9.index t (0 : Fin 3) * 3 + 3; omega
  | ⟨1, _⟩ => show win0_9.index t (1 : Fin 3) * 128 ≤ (i 1).val ∧ (i 1).val < win0_9.index t (1 : Fin 3) * 128 + 128; omega
  | ⟨2, _⟩ => show win0_9.index t (2 : Fin 3) * 128 ≤ (i 2).val ∧ (i 2).val < win0_9.index t (2 : Fin 3) * 128 + 128; omega

/-- After region 0 the feature array holds, for every modality, batch row and feature, the time mean projected plus
    bias, computed from the arrays the region was entered with. -/
theorem region0 (c : Dev nD) :
    (dat0 (F := Ideal) V c).arrAt 9 cfg0.N = fun i =>
      feats3 (featK (rcp 20) (cur3 (V c main_arg0)) (cur2 (V c main_arg3)) (row (V c main_v0)))
        (featK (rcp 20) (cur3 (V c main_arg1)) (cur2 (V c main_arg5)) (row (V c main_v1)))
        (featK (rcp 50) (cur3 (V c main_arg2)) (cur2 (V c main_arg7)) (row (V c main_v2))) (i 0) (i 1) (i 2) :=
  (dat0 (F := Ideal) V c).arrAt_eq_of_cover 9 (G V c) (fun t _ => flushed_eq V c t) cover

end Cert.KernelIdeal.Proj

end
-- ==== Proof.KHead.lean ====
import proofs.«129526_g8237747274144_cont_9to1_m_1049_17_alg».proof.Proof.Gen.KernelIdeal.Frame
import proofs.«129526_g8237747274144_cont_9to1_m_1049_17_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Cert.KernelIdeal Cert.KernelIdeal.Gen Cert.Fusion
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-!
  # The value of the second kernel region: the head, hyperedge mean first

  The region runs over eight grid points.  Point `t` reads rows `1536 t … 1536 t + 1535` of the node table (12288 rows of
  128 features), the whole weight matrices and one-row biases, and writes rows `512 t … 512 t + 511` of the result
  (4096 rows of 64 features).  Inside a point the 1536 rows are arranged as 512 × 3 × 128 — row `3 r + j` is entry
  `(r, j)` — and summed over `j` and scaled by the reciprocal of three: the mean of hyperedge `512 t + r`.  Two affine
  layers with a positive part between them follow, then the 384-wide layer met with the SUM of the three 128-row
  slices of its matrix (the three rows of a hyperedge being equal there), a positive part, and the last affine layer.

  Every layer acts row by row, so the block a point writes is the block of ONE function of the result's index: the
  specification's `headK` of the entry arrays.  The eight blocks tile the result (row `b` lies in the block of point
  `b / 512`), hence after the region the result array IS that function.
-/

/-! ## The two matrix products of the body, read at an entry -/

theorem lhsA_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhsA_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhsA_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhsA_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- A product into the zero accumulator, read at row `r` and column `h`: the sum over the contracted coordinate. -/
theorem matmulA_apply (X : FVec Ideal S512x128 .f32) (W : FVec Ideal S128x128 .f32) (r : Fin 512) (h : Fin 128) :
    matmul dot_S512x128_S128x128_S512x128_1_0_0_1_n_n none X W (constant (F := Ideal) S512x128 .f32 0x00000000#32) (ValueIdx.ix2 r h)
      = ∑ k : Fin 128, X (ValueIdx.ix2 r k) * W (ValueIdx.ix2 k h) := by
  refine (Ideal.matmul_constant_zero_apply dot_S512x128_S128x128_S512x128_1_0_0_1_n_n none X W (ValueIdx.ix2 r h)).trans ?_
  rw [← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ValueIdx.ix2 r h) ((ValueIdx.contrEquiv1 dot_S512x128_S128x128_S512x128_1_0_0_1_n_n 128 rfl rfl).symm k) = ValueIdx.ix2 r k := funext fun a => Fin.ext (by
    match a with
    | ⟨0, _⟩ => exact lhsA_0 _ _
    | ⟨1, _⟩ => exact (lhsA_1 _ _).trans hk)
  have er : dot_S512x128_S128x128_S512x128_1_0_0_1_n_n.rhsIdx (ValueIdx.ix2 r h) ((ValueIdx.contrEquiv1 dot_S512x128_S128x128_S512x128_1_0_0_1_n_n 128 rfl rfl).symm k) = ValueIdx.ix2 k h := funext fun a => Fin.ext (by
    match a with
    | ⟨0, _⟩ => exact (rhsA_0 _ _).trans hk
    | ⟨1, _⟩ => exact rhsA_1 _ _)
  rw [el, er]

theorem lhsB_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem lhsB_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
theorem rhsB_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
theorem rhsB_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

/-- A product into the zero accumulator, read at row `r` and column `h`: the sum over the contracted coordinate. -/
theorem matmulB_apply (X : FVec Ideal S512x128 .f32) (W : FVec Ideal S128x64 .f32) (r : Fin 512) (h : Fin 64) :
    matmul dot_S512x128_S128x64_S512x64_1_0_0_1_n_n none X W (constant (F := Ideal) S512x64 .f32 0x00000000#32) (ValueIdx.ix2 r h)
      = ∑ k : Fin 128, X (ValueIdx.ix2 r k) * W (ValueIdx.ix2 k h) := by
  refine (Ideal.matmul_constant_zero_apply dot_S512x128_S128x64_S512x64_1_0_0_1_n_n none X W (ValueIdx.ix2 r h)).trans ?_
  rw [← Equiv.sum_comp (ValueIdx.contrEquiv1 dot_S512x128_S128x64_S512x64_1_0_0_1_n_n 128 rfl rfl).symm]
  refine Finset.sum_congr rfl fun k _ => ?_
  have hk := ValueIdx.contrEquiv1_symm_val dot_S512x128_S128x64_S512x64_1_0_0_1_n_n 128 rfl rfl k
  have el : dot_S512x128_S128x64_S512x64_1_0_0_1_n_n.lhsIdx (ValueIdx.ix2 r h) ((ValueIdx.contrEquiv1 dot_S512x128_S128x64_S512x64_1_0_0_1_n_n 128 rfl rfl).symm k) = ValueIdx.ix2 r k := funext fun a => Fin.ext (by
    match a with
    | ⟨0, _⟩ => exact lhsB_0 _ _
    | ⟨1, _⟩ => exact (lhsB_1 _ _).trans hk)
  have er : dot_S512x128_S128x64_S512x64_1_0_0_1_n_n.rhsIdx (ValueIdx.ix2 r h) ((ValueIdx.contrEquiv1 dot_S512x128_S128x64_S512x64_1_0_0_1_n_n 128 rfl rfl).symm k) = ValueIdx.ix2 k h := funext fun a => Fin.ext (by
    match a with
    | ⟨0, _⟩ => exact (rhsB_0 _ _).trans hk
    | ⟨1, _⟩ => exact rhsB_1 _ _)
  rw [el, er]

/-! ## The layers of the body over a block of 512 rows -/

open ValueIdx in
/-- A one-row bias spread over the 512 rows of a block reads, at any row, the bias at the column. -/
theorem biasRow {H : Nat} (b : FVec Ideal ⟨2, ![1, H]⟩ .f32) (h1 : (⟨2, ![1, H]⟩ : Shape).ShapeCasts ⟨2, ![1, H]⟩)
    (h2 : (⟨2, ![1, H]⟩ : Shape).Broadcasts ⟨2, ![512, H]⟩) (r : Fin 512) (h : Fin H) :
    broadcastTo ⟨2, ![512, H]⟩ (shapeCast ⟨2, ![1, H]⟩ b h1) h2 (ix2 r h) = b (ix2 0 h) := by
  rw [shapeCast_self]
  exact broadcastTo_1b_ab_apply b h2 r h

/-- The zero word of the positive parts is the extended real zero. -/
theorem zeroWord : Scalar.ofBits (F := Ideal) .f32 0x00000000#32 = (0 : EReal) := Ideal.ofBits_zero_f32

/-- The named reciprocal of three. -/
theorem inv3 : Named.named (F := Ideal) κ "inv_3" (φ := .f32) 0x3EAAAAAB#32 = rcp 3 :=
  IdealRules.named_const.ideal_named_scalar _ _ _ _ rfl

open ValueIdx in
/-- A 128-column affine layer of the body is the specification's affine layer of the curried operands. -/
theorem layerA (X : FVec Ideal S512x128 .f32) (W : FVec Ideal S128x128 .f32) (b : FVec Ideal S1x128 .f32)
    (h1 : S1x128.ShapeCasts S1x128) (h2 : S1x128.Broadcasts S512x128) :
    cur2 (addf (matmul dot_S512x128_S128x128_S512x128_1_0_0_1_n_n none X W (constant (F := Ideal) S512x128 .f32 0x00000000#32))
        (broadcastTo S512x128 (shapeCast S1x128 b h1) h2))
      = affine (cur2 X) (cur2 W) (row b) := by
  funext r h
  show matmul dot_S512x128_S128x128_S512x128_1_0_0_1_n_n none X W (constant (F := Ideal) S512x128 .f32 0x00000000#32) (ix2 r h)
      + broadcastTo S512x128 (shapeCast S1x128 b h1) h2 (ix2 r h) = (∑ k : Fin 128, X (ix2 r k) * W (ix2 k h)) + b (ix2 0 h)
  rw [matmulA_apply, biasRow b h1 h2 r h]

open ValueIdx in
/-- The 64-column affine layer likewise. -/
theorem layerB (X : FVec Ideal S512x128 .f32) (W : FVec Ideal S128x64 .f32) (b : FVec Ideal S1x64 .f32)
    (h1 : S1x64.ShapeCasts S1x64) (h2 : S1x64.Broadcasts S512x64) :
    cur2 (addf (matmul dot_S512x128_S128x64_S512x64_1_0_0_1_n_n none X W (constant (F := Ideal) S512x64 .f32 0x00000000#32))
        (broadcastTo S512x64 (shapeCast S1x64 b h1) h2))
      = affine (cur2 X) (cur2 W) (row b) := by
  funext r h
  show matmul dot_S512x128_S128x64_S512x64_1_0_0_1_n_n none X W (constant (F := Ideal) S512x64 .f32 0x00000000#32) (ix2 r h)
      + broadcastTo S512x64 (shapeCast S1x64 b h1) h2 (ix2 r h) = (∑ k : Fin 128, X (ix2 r k) * W (ix2 k h)) + b (ix2 0 h)
  rw [matmulB_apply, biasRow b h1 h2 r h]

open ValueIdx in
/-- The maximum with the spread zero word is the positive part. -/
theorem reluA (X : FVec Ideal S512x128 .f32) :
    cur2 (maximumf X (broadcast S512x128 (Scalar.ofBits (F := Ideal) .f32 0x00000000#32))) = relu (cur2 X) := by
  funext r h
  show max (X (ix2 r h)) (Scalar.ofBits (F := Ideal) .f32 0x00000000#32) = max (X (ix2 r h)) 0
  rw [zeroWord]

/-- The mean of each three consecutive rows of a block of 1536 rows, by the reciprocal. -/
def tmean (x0 : FVec Ideal S1536x128 .f32) : Fin 512 → Fin 128 → EReal :=
  fun r k => (∑ j : Fin 3, x0 (ValueIdx.ix2 (⟨3 * r.val + j.val, by have := r.isLt; have := j.isLt; omega⟩ : Fin 1536) k)) * rcp 3

open ValueIdx in
/-- Rows `3 r + j` of the block are entry `(r, j)` of its 512 × 3 × 128 arrangement; the sum over `j` times the
    named third is the triple mean. -/
theorem tmean_eq (x0 : FVec Ideal S1536x128 .f32) (h0 : S1536x128.ShapeCasts S1536x128) (h1 : S1536x128.ShapeCasts S512x3x128)
    (h2 : S512x3x128.Reduces [1] S512x128) (hφ : FKind.Formats .f32) (hacc : (0x00000000#32 : BitVec 32) = FKind.add.neutral .f32 hφ) :
    cur2 (mulf (multiReduction (F := Ideal) .add [1] S512x128 (shapeCast S512x3x128 (shapeCast S1536x128 x0 h0) h1) 0x00000000#32 h2 hφ hacc)
        (broadcast S512x128 (Named.named (F := Ideal) κ "inv_3" (φ := .f32) 0x3EAAAAAB#32)))
      = tmean x0 := by
  funext r k
  show multiReduction (F := Ideal) .add [1] S512x128 (shapeCast S512x3x128 (shapeCast S1536x128 x0 h0) h1) 0x00000000#32 h2 hφ hacc (ix2 r k)
      * Named.named (F := Ideal) κ "inv_3" (φ := .f32) 0x3EAAAAAB#32 = (∑ j : Fin 3, x0 (ix2 (⟨3 * r.val + j.val, _⟩ : Fin 1536) k)) * rcp 3
  rw [inv3, shapeCast_self]
  congr 1
  refine (Ideal.multiReduction_add_single (shapeCast S512x3x128 x0 h1) 0x00000000#32 h2 hφ hacc (ix2 r k)).trans ?_
  show ∑ j : Fin 3, shapeCast S512x3x128 x0 h1 (h2.lift (ix2 r k) j) = _
  refine Finset.sum_congr rfl fun j _ => ?_
  refine shapeCast_apply x0 h1 _ _ ?_
  rw [Shape.rowMajor_val_two, Shape.rowMajor_val_three]
  show (3 * r.val + j.val) * 128 + k.val = (r.val * 3 + j.val) * 128 + k.val
  omega

/-! ## The payloads as compositions of layers -/

/-- The first payload: the triple mean through two convolution layers, then the 384-wide layer met with the sum of the
    three 128-row slices of its matrix, and the positive part. -/
theorem pay2_eq (x0 : FVec Ideal S1536x128 .f32) (v6 : FVec Ideal S128x128 .f32) (v8 : FVec Ideal S1x128 .f32)
    (v14 : FVec Ideal S128x128 .f32) (v16 : FVec Ideal S1x128 .f32) (v20 v21 v23 : FVec Ideal S128x128 .f32)
    (v26 : FVec Ideal S1x128 .f32) :
    cur2 (k1_pay2 (F := Ideal) x0 v6 v8 v14 v16 v20 v21 v23 v26)
      = relu (affine (affine (relu (affine (tmean x0) (cur2 v6) (row v8))) (cur2 v14) (row v16))
          (fun k h => cur2 v20 k h + cur2 v21 k h + cur2 v23 k h) (row v26)) := by
  unfold k1_pay2
  rw [reluA, layerA, layerA, reluA, layerA]
  exact congrArg (fun T => relu (affine (affine (relu (affine T (cur2 v6) (row v8))) (cur2 v14) (row v16))
      (fun k h => cur2 v20 k h + cur2 v21 k h + cur2 v23 k h) (row v26))) (tmean_eq x0 _ _ _ _ _)

/-- The second payload: the last affine layer. -/
theorem pay1_eq (v31 : FVec Ideal S512x128 .f32) (v32 : FVec Ideal S128x64 .f32) (v34 : FVec Ideal S1x64 .f32) :
    cur2 (k1_pay1 (F := Ideal) v31 v32 v34) = affine (cur2 v31) (cur2 v32) (row v34) := by
  unfold k1_pay1
  exact layerB v31 v32 v34 _ _

open ValueIdx in
/-- The three 128-row slices of the 384-row matrix, added, are the specification's sum of thirds. -/
theorem thirds_eq (x5 : FVec Ideal S384x128 .f32) :
    (fun k h => cur2 (View.ld (Val := Elt Ideal) (e' := EltTy.f32) x5 r1_3) k h + cur2 (View.ld (Val := Elt Ideal) (e' := EltTy.f32) x5 r1_4) k h
        + cur2 (View.ld (Val := Elt Ideal) (e' := EltTy.f32) x5 r1_5) k h) = thirds (cur2 x5) := by
  funext k h
  have hk := k.isLt
  show x5 (r1_3.idx (ix2 k h)) + x5 (r1_4.idx (ix2 k h)) + x5 (r1_5.idx (ix2 k h))
      = x5 (ix2 (⟨k.val, by omega⟩ : Fin 384) h) + x5 (ix2 (⟨128 + k.val, by omega⟩ : Fin 384) h) + x5 (ix2 (⟨256 + k.val, by omega⟩ : Fin 384) h)
  have e3 : r1_3.idx (ix2 k h) = ix2 (⟨k.val, by omega⟩ : Fin 384) h := funext fun a => Fin.ext (by
    match a with
    | ⟨0, _⟩ => show 0 + 1 * k.val = k.val; omega
    | ⟨1, _⟩ => show 0 + 1 * h.val = h.val; omega)
  have e4 : r1_4.idx (ix2 k h) = ix2 (⟨128 + k.val, by omega⟩ : Fin 384) h := funext fun a => Fin.ext (by
    match a with
    | ⟨0, _⟩ => show 128 + 1 * k.val = 128 + k.val; omega
    | ⟨1, _⟩ => show 0 + 1 * h.val = h.val; omega)
  have e5 : r1_5.idx (ix2 k h) = ix2 (⟨256 + k.val, by omega⟩ : Fin 384) h := funext fun a => Fin.ext (by
    match a with
    | ⟨0, _⟩ => show 256 + 1 * k.val = 256 + k.val; omega
    | ⟨1, _⟩ => show 0 + 1 * h.val = h.val; omega)
  rw [e3, e4, e5]

theorem hz : (![0, 0] : Fin 2 → Nat) = fun _ => 0 := funext fun a => by fin_cases a <;> rfl

/-- What the body leaves in the result's staging buffer, as one function of the nine blocks it reads. -/
theorem body_value (x0 : FVec Ideal S1536x128 .f32) (x1 : FVec Ideal S128x128 .f32) (x2 : FVec Ideal S1x128 .f32)
    (x3 : FVec Ideal S128x128 .f32) (x4 : FVec Ideal S1x128 .f32) (x5 : FVec Ideal S384x128 .f32) (x6 : FVec Ideal S1x128 .f32)
    (x7 : FVec Ideal S128x64 .f32) (x8 : FVec Ideal S1x64 .f32) :
    cur2 (out1_9 (F := Ideal) x0 x1 x2 x3 x4 x5 x6 x7 x8)
      = affine (relu (affine (affine (relu (affine (tmean x0) (cur2 x1) (row x2))) (cur2 x3) (row x4)) (thirds (cur2 x5)) (row x6)))
          (cur2 x7) (row x8) := by
  unfold out1_9
  rw [View.canon_unit_zero hz]
  simp only [View.ld_unit_zero (S := S1536x128) hz, View.ld_unit_zero (S := S128x128) hz, View.ld_unit_zero (S := S1x128) hz,
    View.ld_unit_zero (S := S128x64) hz, View.ld_unit_zero (S := S1x64) hz]
  rw [pay1_eq, pay2_eq, thirds_eq]

/-- The head at a row of a relabelled family of rows is the layers over the relabelled triple means: every layer acts
    row by row. -/
theorem headK_rows {n : Nat} (φ : Fin n → Fin 4096) (inv : EReal) (X : Fin 12288 → Fin 128 → EReal)
    (th0 : Fin 128 → Fin 128 → EReal) (hb0 : Fin 128 → EReal) (th1 : Fin 128 → Fin 128 → EReal) (hb1 : Fin 128 → EReal)
    (Wo1 : Fin 384 → Fin 128 → EReal) (bo1 : Fin 128 → EReal) (Wo2 : Fin 128 → Fin 64 → EReal) (bo2 : Fin 64 → EReal)
    (r : Fin n) (h : Fin 64) :
    affine (relu (affine (affine (relu (affine (fun r' => tripleMean inv X (φ r')) th0 hb0)) th1 hb1) (thirds Wo1) bo1)) Wo2 bo2 r h
      = headK inv X th0 hb0 th1 hb1 Wo1 bo1 Wo2 bo2 (φ r) h := rfl

open ValueIdx in
/-- A block of 1536 rows that is rows `1536 T …` of the node table gives, through the body, rows `512 T …` of the head. -/
theorem block_value (X : Fin 12288 → Fin 128 → EReal) (T : Nat) (hT : T ≤ 7)
    (x0 : FVec Ideal S1536x128 .f32) (x1 : FVec Ideal S128x128 .f32) (x2 : FVec Ideal S1x128 .f32)
    (x3 : FVec Ideal S128x128 .f32) (x4 : FVec Ideal S1x128 .f32) (x5 : FVec Ideal S384x128 .f32) (x6 : FVec Ideal S1x128 .f32)
    (x7 : FVec Ideal S128x64 .f32) (x8 : FVec Ideal S1x64 .f32)
    (hx0 : ∀ (r : Fin 1536) (k : Fin 128), x0 (ix2 r k) = X ⟨1536 * T + r.val, by have := r.isLt; omega⟩ k)
    (r : Fin 512) (h : Fin 64) :
    out1_9 (F := Ideal) x0 x1 x2 x3 x4 x5 x6 x7 x8 (ix2 r h)
      = headK (rcp 3) X (cur2 x1) (row x2) (cur2 x3) (row x4) (cur2 x5) (row x6) (cur2 x7) (row x8)
          ⟨512 * T + r.val, by have := r.isLt; omega⟩ h := by
  refine (congrFun (congrFun (body_value x0 x1 x2 x3 x4 x5 x6 x7 x8) r) h).trans ?_
  have ht : tmean x0 = fun r' : Fin 512 => tripleMean (rcp 3) X (⟨512 * T + r'.val, by have := r'.isLt; omega⟩ : Fin 4096) := by
    funext r' k
    show (∑ j : Fin 3, x0 (ix2 (⟨3 * r'.val + j.val, _⟩ : Fin 1536) k)) * rcp 3
        = (∑ j : Fin 3, X (node (⟨512 * T + r'.val, _⟩ : Fin 4096) j) k) * rcp 3
    congr 1
    refine Finset.sum_congr rfl fun j _ => ?_
    rw [hx0]
    congr 1
    apply Fin.ext
    show 1536 * T + (3 * r'.val + j.val) = 3 * (512 * T + r'.val) + j.val
    omega
  rw [ht]
  exact headK_rows (fun r' : Fin 512 => (⟨512 * T + r'.val, by have := r'.isLt; omega⟩ : Fin 4096)) (rcp 3) X _ _ _ _ _ _ _ _ r h

/-! ## The windows: which part of its array each block is -/

/-- The two moving windows: the node table's block and the result's block have the same index on the row axis, which is
    the grid point, and index zero on the column axis. -/
theorem idx_moving : ∀ t : Fin cfg1.N, win1_0.index t (0 : Fin 2) = win1_9.index t (0 : Fin 2) ∧ win1_0.index t (1 : Fin 2) = 0
    ∧ win1_9.index t (1 : Fin 2) = 0 ∧ win1_9.index t (0 : Fin 2) = t.val ∧ win1_9.index t (0 : Fin 2) ≤ 7 :=
  (by decide +kernel : ∀ t : Fin grid1.N, _)

/-- The eight windows of weights and biases stay at block zero. -/
theorem idx_fixed : ∀ t : Fin cfg1.N,
    (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-- Window 1's block is its whole array. -/
theorem blk1_eq (c : Dev nD) (t : Fin cfg1.N) : (iblk1 (F := Ideal) V c 1 t : FVec Ideal S128x128 .f32) = V c main_arg9 := by
  obtain ⟨e0, e1⟩ := (idx_fixed t).1
  funext j
  show V c main_arg9 (((cfg1.win 1).blk t).view.emb j) = V c main_arg9 j
  refine congrArg _ (funext fun a => Fin.ext ?_)
  match a with
  | ⟨0, _⟩ => show win1_1.index t (0 : Fin 2) * 128 + 1 * (j 0).val = (j 0).val; rw [e0]; omega
  | ⟨1, _⟩ => show win1_1.index t (1 : Fin 2) * 128 + 1 * (j 1).val = (j 1).val; rw [e1]; omega

/-- Window 2's block is its whole array. -/
theorem blk2_eq (c : Dev nD) (t : Fin cfg1.N) : (iblk1 (F := Ideal) V c 2 t : FVec Ideal S1x128 .f32) = V c main_v5 := by
  obtain ⟨e0, e1⟩ := (idx_fixed t).2.1
  funext j
  show V c main_v5 (((cfg1.win 2).blk t).view.emb j) = V c main_v5 j
  refine congrArg _ (funext fun a => Fin.ext ?_)
  match a with
  | ⟨0, _⟩ => show win1_2.index t (0 : Fin 2) * 1 + 1 * (j 0).val = (j 0).val; rw [e0]; omega
  | ⟨1, _⟩ => show win1_2.index t (1 : Fin 2) * 128 + 1 * (j 1).val = (j 1).val; rw [e1]; omega

/-- Window 3's block is its whole array. -/
theorem blk3_eq (c : Dev nD) (t : Fin cfg1.N) : (iblk1 (F := Ideal) V c 3 t : FVec Ideal S128x128 .f32) = V c main_arg11 := by
  obtain ⟨e0, e1⟩ := (idx_fixed t).2.2.1
  funext j
  show V c main_arg11 (((cfg1.win 3).blk t).view.emb j) = V c main_arg11 j
  refine congrArg _ (funext fun a => Fin.ext ?_)
  match a with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega

/-- Window 4's block is its whole array. -/
theorem blk4_eq (c : Dev nD) (t : Fin cfg1.N) : (iblk1 (F := Ideal) V c 4 t : FVec Ideal S1x128 .f32) = V c main_v6 := by
  obtain ⟨e0, e1⟩ := (idx_fixed t).2.2.2.1
  funext j
  show V c main_v6 (((cfg1.win 4).blk t).view.emb j) = V c main_v6 j
  refine congrArg _ (funext fun a => Fin.ext ?_)
  match a with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega

/-- Window 5's block is its whole array. -/
theorem blk5_eq (c : Dev nD) (t : Fin cfg1.N) : (iblk1 (F := Ideal) V c 5 t : FVec Ideal S384x128 .f32) = V c main_arg13 := by
  obtain ⟨e0, e1⟩ := (idx_fixed t).2.2.2.2.1
  funext j
  show V c main_arg13 (((cfg1.win 5).blk t).view.emb j) = V c main_arg13 j
  refine congrArg _ (funext fun a => Fin.ext ?_)
  match a with
  | ⟨0, _⟩ => show win1_5.index t (0 : Fin 2) * 384 + 1 * (j 0).val = (j 0).val; rw [e0]; omega
  | ⟨1, _⟩ => show win1_5.index t (1 : Fin 2) * 128 + 1 * (j 1).val = (j 1).val; rw [e1]; omega

/-- Window 6's block is its whole array. -/
theorem blk6_eq (c : Dev nD) (t : Fin cfg1.N) : (iblk1 (F := Ideal) V c 6 t : FVec Ideal S1x128 .f32) = V c main_v7 := by
  obtain ⟨e0, e1⟩ := (idx_fixed t).2.2.2.2.2.1
  funext j
  show V c main_v7 (((cfg1.win 6).blk t).view.emb j) = V c main_v7 j
  refine congrArg _ (funext fun a => Fin.ext ?_)
  match a with
  | ⟨0, _⟩ => show win1_6.index t (0 : Fin 2) * 1 + 1 * (j 0).val = (j 0).val; rw [e0]; omega
  | ⟨1, _⟩ => show win1_6.index t (1 : Fin 2) * 128 + 1 * (j 1).val = (j 1).val; rw [e1]; omega

/-- Window 7's block is its whole array. -/
theorem blk7_eq (c : Dev nD) (t : Fin cfg1.N) : (iblk1 (F := Ideal) V c 7 t : FVec Ideal S128x64 .f32) = V c main_arg15 := by
  obtain ⟨e0, e1⟩ := (idx_fixed t).2.2.2.2.2.2.1
  funext j
  show V c main_arg15 (((cfg1.win 7).blk t).view.emb j) = V c main_arg15 j
  refine congrArg _ (funext fun a => Fin.ext ?_)
  match a with
  | ⟨0, _⟩ => show win1_7.index t (0 : Fin 2) * 128 + 1 * (j 0).val = (j 0).val; rw [e0]; omega
  | ⟨1, _⟩ => show win1_7.index t (1 : Fin 2) * 64 + 1 * (j 1).val = (j 1).val; rw [e1]; omega

/-- Window 8's block is its whole array. -/
theorem blk8_eq (c : Dev nD) (t : Fin cfg1.N) : (iblk1 (F := Ideal) V c 8 t : FVec Ideal S1x64 .f32) = V c main_v8 := by
  obtain ⟨e0, e1⟩ := (idx_fixed t).2.2.2.2.2.2.2
  funext j
  show V c main_v8 (((cfg1.win 8).blk t).view.emb j) = V c main_v8 j
  refine congrArg _ (funext fun a => Fin.ext ?_)
  match a with
  | ⟨0, _⟩ => show win1_8.index t (0 : Fin 2) * 1 + 1 * (j 0).val = (j 0).val; rw [e0]; omega
  | ⟨1, _⟩ => show win1_8.index t (1 : Fin 2) * 64 + 1 * (j 1).val = (j 1).val; rw [e1]; omega

open ValueIdx in
/-- Window 0's block at a point is the 1536 rows of the node table that start at 1536 times the point. -/
theorem blk0_apply (c : Dev nD) (t : Fin cfg1.N) (r : Fin 1536) (k : Fin 128) :
    (iblk1 (F := Ideal) V c 0 t : FVec Ideal S1536x128 .f32) (ix2 r k)
      = cur2 (V c main_v4) ⟨1536 * win1_9.index t (0 : Fin 2) + r.val, by have := (idx_moving t).2.2.2.2; have := r.isLt; omega⟩ k := by
  obtain ⟨e0, e1, -, -, -⟩ := idx_moving t
  show V c main_v4 (((cfg1.win 0).blk t).view.emb (ix2 r k))
      = V c main_v4 (ix2 (⟨1536 * win1_9.index t (0 : Fin 2) + r.val, _⟩ : Fin 12288) k)
  refine congrArg _ (funext fun a => Fin.ext ?_)
  match a with
  | ⟨0, _⟩ => show win1_0.index t (0 : Fin 2) * 1536 + 1 * r.val = 1536 * win1_9.index t (0 : Fin 2) + r.val; rw [e0]; omega
  | ⟨1, _⟩ => show win1_0.index t (1 : Fin 2) * 128 + 1 * k.val = k.val; rw [e1]; omega

/-! ## From the blocks to the array -/

/-- The head, hyperedge mean first, of the arrays the region was entered with, as a function of the result's index. -/
abbrev headOf (c : Dev nD) : S4096x64.Idx → EReal := fun i =>
  headK (rcp 3) (cur2 (V c main_v4)) (cur2 (V c main_arg9)) (row (V c main_v5)) (cur2 (V c main_arg11))
    (row (V c main_v6)) (cur2 (V c main_arg13)) (row (V c main_v7)) (cur2 (V c main_arg15)) (row (V c main_v8))
    (i 0) (i 1)

open ValueIdx in
/-- The body's result over variables at a general index of the block. -/
theorem block_value' (X : Fin 12288 → Fin 128 → EReal) (T : Nat) (hT : T ≤ 7)
    (x0 : FVec Ideal S1536x128 .f32) (x1 : FVec Ideal S128x128 .f32) (x2 : FVec Ideal S1x128 .f32)
    (x3 : FVec Ideal S128x128 .f32) (x4 : FVec Ideal S1x128 .f32) (x5 : FVec Ideal S384x128 .f32) (x6 : FVec Ideal S1x128 .f32)
    (x7 : FVec Ideal S128x64 .f32) (x8 : FVec Ideal S1x64 .f32)
    (hx0 : ∀ (r : Fin 1536) (k : Fin 128), x0 (ix2 r k) = X ⟨1536 * T + r.val, by have := r.isLt; omega⟩ k)
    (y : S512x64.Idx) :
    out1_9 (F := Ideal) x0 x1 x2 x3 x4 x5 x6 x7 x8 y
      = headK (rcp 3) X (cur2 x1) (row x2) (cur2 x3) (row x4) (cur2 x5) (row x6) (cur2 x7) (row x8)
          ⟨512 * T + (y 0).val, by have := idx2_lt0 y; omega⟩ ⟨(y 1).val, idx2_lt1 y⟩ := by
  have hy : y = ix2 (⟨(y 0).val, idx2_lt0 y⟩ : Fin 512) (⟨(y 1).val, idx2_lt1 y⟩ : Fin 64) := eq_ix2 y
  exact (congrArg (out1_9 (F := Ideal) x0 x1 x2 x3 x4 x5 x6 x7 x8) hy).trans
    (block_value X T hT x0 x1 x2 x3 x4 x5 x6 x7 x8 hx0 ⟨(y 0).val, idx2_lt0 y⟩ ⟨(y 1).val, idx2_lt1 y⟩)

/-- WHAT POINT `t` WRITES BACK is block `t` of the head of the entry arrays. -/
theorem flushed_eq (c : Dev nD) (t : Fin cfg1.N) :
    (dat1 (F := Ideal) V c).flushed 9 t = ((cfg1.win 9).blk t).view.read (Elt Ideal) (headOf V c) := by
  show (cfg1.win 9).cut (grid1.coords t) ((dat1 (F := Ideal) V c).after 9 t) = _
  rw [after1_9]
  obtain ⟨-, -, e1, -, hT⟩ := idx_moving t
  funext j
  refine (block_value' (cur2 (V c main_v4)) (win1_9.index t (0 : Fin 2)) hT (iblk1 (F := Ideal) V c 0 t) (iblk1 (F := Ideal) V c 1 t)
    (iblk1 (F := Ideal) V c 2 t) (iblk1 (F := Ideal) V c 3 t) (iblk1 (F := Ideal) V c 4 t) (iblk1 (F := Ideal) V c 5 t)
    (iblk1 (F := Ideal) V c 6 t) (iblk1 (F := Ideal) V c 7 t) (iblk1 (F := Ideal) V c 8 t) (blk0_apply V c t) j).trans ?_
  rw [blk1_eq V c t, blk2_eq V c t, blk3_eq V c t, blk4_eq V c t, blk5_eq V c t, blk6_eq V c t, blk7_eq V c t, blk8_eq V c t]
  show headK _ _ _ _ _ _ _ _ _ _ _ _ = headK _ _ _ _ _ _ _ _ _ _ (((cfg1.win 9).blk t).view.emb j 0) (((cfg1.win 9).blk t).view.emb j 1)
  refine congr (congrArg _ (Fin.ext ?_)) (Fin.ext ?_)
  · show 512 * win1_9.index t (0 : Fin 2) + (j 0).val = win1_9.index t (0 : Fin 2) * 512 + 1 * (j 0).val
    omega
  · show (j 1).val = win1_9.index t (1 : Fin 2) * 64 + 1 * (j 1).val
    rw [e1]; omega

/-- An index of the result is in point `t`'s block iff each coordinate is in the block's range on its axis. -/
theorem mem_blk (t : Fin cfg1.N) (i : S4096x64.Idx) :
    i ∈ ((cfg1.win 9).blk t).view.set ↔ ∀ a : Fin 2, win1_9.index t a * S512x64.size a ≤ (i a).val ∧ (i a).val < win1_9.index t a * S512x64.size a + S512x64.size a := by
  show i ∈ ((View.whole main_v9).slice (win1_9.rect t)).set ↔ _
  rw [View.set_slice_whole, Rect.mem_set_unit]
  exact Iff.rfl

/-- Row `b` of the result is in the block of point `b / 512`. -/
theorem cover (i : S4096x64.Idx) : ∃ t : Fin cfg1.N, (cfg1.win 9).flush t = true ∧ i ∈ ((cfg1.win 9).blk t).view.set := by
  have hi0 : (i 0).val < 4096 := (i 0).isLt
  have hi1 : (i 1).val < 64 := (i 1).isLt
  obtain ⟨t, ht⟩ : ∃ t : Fin cfg1.N, t.val = (i 0).val / 512 :=
    ⟨⟨(i 0).val / 512, by rw [show cfg1.N = 8 from N_1]; omega⟩, rfl⟩
  obtain ⟨-, -, e1, e0, -⟩ := idx_moving t
  refine ⟨t, flush1_9 t, ?_⟩
  rw [mem_blk]
  intro a
  match a with
  | ⟨0, _⟩ =>
    show win1_9.index t (0 : Fin 2) * 512 ≤ (i 0).val ∧ (i 0).val < win1_9.index t (0 : Fin 2) * 512 + 512
    rw [e0, ht]; omega
  | ⟨1, _⟩ =>
    show win1_9.index t (1 : Fin 2) * 64 ≤ (i 1).val ∧ (i 1).val < win1_9.index t (1 : Fin 2) * 64 + 64
    rw [e1]; omega

/-- After region 1 the result array holds the head, hyperedge mean first, of the arrays the region was entered with. -/
theorem region1 (c : Dev nD) :
    (dat1 (F := Ideal) V c).arrAt 9 cfg1.N = fun i =>
      headK (rcp 3) (cur2 (V c main_v4)) (cur2 (V c main_arg9)) (row (V c main_v5)) (cur2 (V c main_arg11))
        (row (V c main_v6)) (cur2 (V c main_arg13)) (row (V c main_v7)) (cur2 (V c main_arg15)) (row (V c main_v8))
        (i 0) (i 1) :=
  (dat1 (F := Ideal) V c).arrAt_eq_of_cover 9 (headOf V c) (fun t _ => flushed_eq V c t) cover

end Cert.KernelIdeal.Head

end
-- ==== Proof.KernelWhole.lean ====
/-
  The idealized kernel program runs, and its result buffer ends at the head, hyperedge mean first, of the stacked
  reciprocal-scaled modality features of its arguments; the arguments end as launched.
-/
import proofs.«129526_g8237747274144_cont_9to1_m_1049_17_alg».proof.Proof.KernelRun
import proofs.«129526_g8237747274144_cont_9to1_m_1049_17_alg».proof.Proof.KValue
import proofs.«129526_g8237747274144_cont_9to1_m_1049_17_alg».proof.Proof.KProj
import proofs.«129526_g8237747274144_cont_9to1_m_1049_17_alg».proof.Proof.KHead

noncomputable section

namespace Cert.KernelIdeal.Whole

open Cert.KernelIdeal Cert.KernelIdeal.Gen Cert.Fusion
open Idealize.ShloMosaic Idealize.ShloMosaic.TcCoe Idealize.ShloMosaic.ValueIdx Idealize.SL.Sem

/-- The run of the idealized kernel program with its result named. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v9) = (fun i =>
        wholeK (cur3 (m ((c : Thread nD τ).loc main_arg0))) (cur3 (m ((c : Thread nD τ).loc main_arg1))) (cur3 (m ((c : Thread nD τ).loc main_arg2))) (cur2 (m ((c : Thread nD τ).loc main_arg3))) (cur1 (m ((c : Thread nD τ).loc main_arg4))) (cur2 (m ((c : Thread nD τ).loc main_arg5))) (cur1 (m ((c : Thread nD τ).loc main_arg6))) (cur2 (m ((c : Thread nD τ).loc main_arg7))) (cur1 (m ((c : Thread nD τ).loc main_arg8))) (cur2 (m ((c : Thread nD τ).loc main_arg9))) (cur1 (m ((c : Thread nD τ).loc main_arg10))) (cur2 (m ((c : Thread nD τ).loc main_arg11))) (cur1 (m ((c : Thread nD τ).loc main_arg12))) (cur2 (m ((c : Thread nD τ).loc main_arg13))) (cur1 (m ((c : Thread nD τ).loc main_arg14))) (cur2 (m ((c : Thread nD τ).loc main_arg15))) (cur1 (m ((c : Thread nD τ).loc main_arg16))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono
    (fun r h c => ⟨(h c).1.trans (result m ρ c (Cert.KernelIdeal.Proj.region0 (V1 m ρ) c) (Cert.KernelIdeal.Head.region1 (V3 m ρ) c)), (h c).2⟩)
    (Cert.KernelIdeal.Result.run m ρ)

end Cert.KernelIdeal.Whole

end
-- ==== Proof.RefEnds.lean ====
/-
  The two ends of the reference computation, read as the mathematics of the specification.

  The beginning: each of three modalities is summed over time, divided by its length (20, 20, 50), projected to 128
  features and shifted by a bias; the three 4096-row tables are joined along the rows into 12288 node rows.  The end:
  a positive part between the two convolutions, and after the second convolution the three node rows of a hyperedge
  are laid side by side (384 features) and pass through an affine layer, a positive part and a second affine layer.
-/
import proofs.«129526_g8237747274144_cont_9to1_m_1049_17_alg».proof.Proof.RefRead
import proofs.«129526_g8237747274144_cont_9to1_m_1049_17_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Ends

open Cert.ReferenceIdeal Cert.ReferenceIdeal.Read Cert.Fusion
open Idealize.ShloMosaic Idealize.ShloMosaic.ValueIdx
open Cert.ReferenceIdeal.Gen

/-! ## Constant words as the reals they denote -/

/-- The word `0x41A00000` denotes the real twenty. -/
theorem ofBits_twenty : Ideal.ofBits .f32 0x41A00000#32 = ((20 : ℝ) : EReal) := by
  simp [Ideal.ofBits, Ideal.ieee, -EReal.coe_mul]; norm_num

/-- The word `0x42480000` denotes the real fifty. -/
theorem ofBits_fifty : Ideal.ofBits .f32 0x42480000#32 = ((50 : ℝ) : EReal) := by
  simp [Ideal.ofBits, Ideal.ieee, -EReal.coe_mul]; norm_num

/-! ## Two indices with equal coordinates are equal -/

theorem idx1_ext {a : Nat} (p q : (⟨1, ![a]⟩ : Shape).Idx) (h0 : (p 0).val = (q 0).val) : p = q :=
  funext fun d => Fin.ext (by match d with | ⟨0, _⟩ => exact h0)

theorem idx2_ext {a b : Nat} (p q : (⟨2, ![a, b]⟩ : Shape).Idx) (h0 : (p 0).val = (q 0).val)
    (h1 : (p 1).val = (q 1).val) : p = q :=
  funext fun d => Fin.ext (by match d with | ⟨0, _⟩ => exact h0 | ⟨1, _⟩ => exact h1)

theorem idx3_ext {a b c : Nat} (p q : (⟨3, ![a, b, c]⟩ : Shape).Idx) (h0 : (p 0).val = (q 0).val)
    (h1 : (p 1).val = (q 1).val) (h2 : (p 2).val = (q 2).val) : p = q :=
  funext fun d => Fin.ext (by match d with | ⟨0, _⟩ => exact h0 | ⟨1, _⟩ => exact h1 | ⟨2, _⟩ => exact h2)

/-! ## Three 4096-row tables joined along the rows -/

/-- Row `n` of the join of three 4096-row tables is row `n`, `n - 4096` or `n - 8192` of the first, second or
    third table, according to the third of the 12288 rows that `n` falls in. -/
theorem concat3_apply (x y z : S4096x128.Idx → EReal) (n : Fin 12288) (c : Fin 128) :
    concatenate S12288x128 0 [⟨S4096x128, x⟩, ⟨S4096x128, y⟩, ⟨S4096x128, z⟩]
      concatenates_S4096x128_S4096x128_S4096x128_S12288x128_d0 (ix2 n c)
      = stack (cur2 x) (cur2 y) (cur2 z) n c := by
  unfold stack
  by_cases h0 : n.val < 4096
  · rw [dif_pos h0]
    refine concatenate_apply_piece (0 : Fin S12288x128.rank) _ _ (ix2 n c) 0 (by show (0 : Nat) < 3; omega) S4096x128 x rfl rfl 0 rfl
      (ix2 ⟨n.val, h0⟩ c) (fun b hb => ?_) ?_
    · match b with
      | ⟨0, _⟩ => exact absurd rfl hb
      | ⟨1, _⟩ => rfl
    · show 0 + n.val = n.val
      omega
  · rw [dif_neg h0]
    by_cases h1 : n.val < 8192
    · rw [dif_pos h1]
      refine concatenate_apply_piece (0 : Fin S12288x128.rank) _ _ (ix2 n c) 1 (by show (1 : Nat) < 3; omega) S4096x128 y rfl rfl 4096 rfl
        (ix2 ⟨n.val - 4096, by omega⟩ c) (fun b hb => ?_) ?_
      · match b with
        | ⟨0, _⟩ => exact absurd rfl hb
        | ⟨1, _⟩ => rfl
      · show 4096 + (n.val - 4096) = n.val
        omega
    · rw [dif_neg h1]
      have hn := n.isLt
      refine concatenate_apply_piece (0 : Fin S12288x128.rank) _ _ (ix2 n c) 2 (by show (2 : Nat) < 3; omega) S4096x128 z rfl rfl 8192 rfl
        (ix2 ⟨n.val - 8192, by omega⟩ c) (fun b hb => ?_) ?_
      · match b with
        | ⟨0, _⟩ => exact absurd rfl hb
        | ⟨1, _⟩ => rfl
      · show 8192 + (n.val - 8192) = n.val
        omega

/-! ## Row-major arithmetic of laying three 128-wide rows side by side -/

theorem flat_row (b q : Nat) (hb : b < 4096) (hq : q < 384) :
    (((b * 384 + q) / 384 * 3 + (b * 384 + q) / 128 % 3) * 128 + (b * 384 + q) % 128) / 128 = 3 * b + q / 128 := by
  omega

theorem flat_col (b q : Nat) (hb : b < 4096) (hq : q < 384) :
    (((b * 384 + q) / 384 * 3 + (b * 384 + q) / 128 % 3) * 128 + (b * 384 + q) % 128) % 128 = q % 128 := by
  omega

section Pieces

variable (x0 : (⟨S4096x20x512, .f32⟩ : BufTy).Contents (Elt Ideal))
  (x1 : (⟨S4096x20x256, .f32⟩ : BufTy).Contents (Elt Ideal))
  (x2 : (⟨S4096x50x128, .f32⟩ : BufTy).Contents (Elt Ideal))
  (x3 : (⟨S512x128, .f32⟩ : BufTy).Contents (Elt Ideal))
  (x4 : (⟨S128, .f32⟩ : BufTy).Contents (Elt Ideal))
  (x5 : (⟨S256x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))
  (x11 : (⟨S128x128, .f32⟩ : BufTy).Contents (Elt Ideal))
  (x12 : (⟨S128, .f32⟩ : BufTy).Contents (Elt Ideal))
  (x13 : (⟨S384x128, .f32⟩ : BufTy).Contents (Elt Ideal))
  (x14 : (⟨S128, .f32⟩ : BufTy).Contents (Elt Ideal))
  (x15 : (⟨S128x64, .f32⟩ : BufTy).Contents (Elt Ideal))
  (x16 : (⟨S64, .f32⟩ : BufTy).Contents (Elt Ideal))

/-! ## The beginning of the reference: three time means, projected -/

/-! ### The first modality -/

/-- The time sum: the zero initial value drops out. -/
theorem sum_v0 (r : Fin 4096) (k : Fin 512) :
    val_main_v0 (F := Ideal) x0 (ix2 r k) = ∑ t : Fin 20, x0 (ix3 r t k) :=
  calc val_main_v0 (F := Ideal) x0 (ix2 r k)
      = ∑ t : Fin 20, x0 (idx_main_v0 (ix2 r k) t) := by
        rw [val_main_v0_apply, val_main_cst_apply, Ideal.ofBits_def, Ideal.ofBits_zero_f32, zero_add]
    _ = ∑ t : Fin 20, x0 (ix3 r t k) :=
        Finset.sum_congr rfl fun t _ => congrArg x0 (idx3_ext _ _ rfl rfl rfl)

/-- The time mean: the sum divided by the length. -/
theorem mean_v2 (r : Fin 4096) (k : Fin 512) :
    val_main_v2 (F := Ideal) x0 (ix2 r k) = Ideal.div (∑ t : Fin 20, x0 (ix3 r t k)) ((20 : ℝ) : EReal) := by
  rw [val_main_v2_apply, sum_v0, val_main_v1_apply, val_main_cst_0_apply, Ideal.hostDivf_def,
    Ideal.ofBits_def, ofBits_twenty]

/-- The projection of the time mean. -/
theorem proj_v3 (r : Fin 4096) (h : Fin 128) :
    val_main_v3 (F := Ideal) x0 x3 (ix2 r h)
      = ∑ k : Fin 512, Ideal.div (∑ t : Fin 20, x0 (ix3 r t k)) ((20 : ℝ) : EReal) * x3 (ix2 k h) :=
  calc val_main_v3 (F := Ideal) x0 x3 (ix2 r h)
      = ∑ k : Fin 512, (val_main_v2 (F := Ideal) x0) (lidx_main_v3 (ix2 r h) k) * x3 (ridx_main_v3 (ix2 r h) k) :=
        val_main_v3_apply x0 x3 (ix2 r h)
    _ = ∑ k : Fin 512, (val_main_v2 (F := Ideal) x0) (ix2 r k) * x3 (ix2 k h) :=
        Finset.sum_congr rfl fun k _ => congrArg₂ (fun p q => (val_main_v2 (F := Ideal) x0) p * x3 q)
          (idx2_ext _ _ rfl rfl) (idx2_ext _ _ rfl rfl)
    _ = ∑ k : Fin 512, Ideal.div (∑ t : Fin 20, x0 (ix3 r t k)) ((20 : ℝ) : EReal) * x3 (ix2 k h) :=
        Finset.sum_congr rfl fun k _ => by rw [mean_v2]

/-- The bias, repeated down the rows. -/
theorem bias_v5 (r : Fin 4096) (h : Fin 128) :
    val_main_v5 (F := Ideal) x4 (ix2 r h) = x4 (ix1 h) :=
  calc val_main_v5 (F := Ideal) x4 (ix2 r h)
      = x4 (idx_main_v4 (idx_main_v5 (ix2 r h))) := by
        rw [val_main_v5_apply, val_main_v4_apply]
    _ = x4 (ix1 h) := congrArg x4 (idx1_ext _ _ rfl)

/-- The feature table of this modality. -/
theorem feat_v6 (r : Fin 4096) (h : Fin 128) :
    val_main_v6 (F := Ideal) x0 x3 x4 (ix2 r h) = featR 20 (cur3 x0) (cur2 x3) (cur1 x4) r h := by
  rw [val_main_v6_apply, proj_v3, bias_v5, Ideal.addf_def]
  rfl

/-! ### The second modality -/

/-- The time sum: the zero initial value drops out. -/
theorem sum_v7 (r : Fin 4096) (k : Fin 256) :
    val_main_v7 (F := Ideal) x1 (ix2 r k) = ∑ t : Fin 20, x1 (ix3 r t k) :=
  calc val_main_v7 (F := Ideal) x1 (ix2 r k)
      = ∑ t : Fin 20, x1 (idx_main_v7 (ix2 r k) t) := by
        rw [val_main_v7_apply, val_main_cst_1_apply, Ideal.ofBits_def, Ideal.ofBits_zero_f32, zero_add]
    _ = ∑ t : Fin 20, x1 (ix3 r t k) :=
        Finset.sum_congr rfl fun t _ => congrArg x1 (idx3_ext _ _ rfl rfl rfl)

/-- The time mean: the sum divided by the length. -/
theorem mean_v9 (r : Fin 4096) (k : Fin 256) :
    val_main_v9 (F := Ideal) x1 (ix2 r k) = Ideal.div (∑ t : Fin 20, x1 (ix3 r t k)) ((20 : ℝ) : EReal) := by
  rw [val_main_v9_apply, sum_v7, val_main_v8_apply, val_main_cst_2_apply, Ideal.hostDivf_def,
    Ideal.ofBits_def, ofBits_twenty]

/-- The projection of the time mean. -/
theorem proj_v10 (r : Fin 4096) (h : Fin 128) :
    val_main_v10 (F := Ideal) x1 x5 (ix2 r h)
      = ∑ k : Fin 256, Ideal.div (∑ t : Fin 20, x1 (ix3 r t k)) ((20 : ℝ) : EReal) * x5 (ix2 k h) :=
  calc val_main_v10 (F := Ideal) x1 x5 (ix2 r h)
      = ∑ k : Fin 256, (val_main_v9 (F := Ideal) x1) (lidx_main_v10 (ix2 r h) k) * x5 (ridx_main_v10 (ix2 r h) k) :=
        val_main_v10_apply x1 x5 (ix2 r h)
    _ = ∑ k : Fin 256, (val_main_v9 (F := Ideal) x1) (ix2 r k) * x5 (ix2 k h) :=
        Finset.sum_congr rfl fun k _ => congrArg₂ (fun p q => (val_main_v9 (F := Ideal) x1) p * x5 q)
          (idx2_ext _ _ rfl rfl) (idx2_ext _ _ rfl rfl)
    _ = ∑ k : Fin 256, Ideal.div (∑ t : Fin 20, x1 (ix3 r t k)) ((20 : ℝ) : EReal) * x5 (ix2 k h) :=
        Finset.sum_congr rfl fun k _ => by rw [mean_v9]

/-- The bias, repeated down the rows. -/
theorem bias_v12 (r : Fin 4096) (h : Fin 128) :
    val_main_v12 (F := Ideal) x6 (ix2 r h) = x6 (ix1 h) :=
  calc val_main_v12 (F := Ideal) x6 (ix2 r h)
      = x6 (idx_main_v11 (idx_main_v12 (ix2 r h))) := by
        rw [val_main_v12_apply, val_main_v11_apply]
    _ = x6 (ix1 h) := congrArg x6 (idx1_ext _ _ rfl)

/-- The feature table of this modality. -/
theorem feat_v13 (r : Fin 4096) (h : Fin 128) :
    val_main_v13 (F := Ideal) x1 x5 x6 (ix2 r h) = featR 20 (cur3 x1) (cur2 x5) (cur1 x6) r h := by
  rw [val_main_v13_apply, proj_v10, bias_v12, Ideal.addf_def]
  rfl

/-! ### The third modality -/

/-- The time sum: the zero initial value drops out. -/
theorem sum_v14 (r : Fin 4096) (k : Fin 128) :
    val_main_v14 (F := Ideal) x2 (ix2 r k) = ∑ t : Fin 50, x2 (ix3 r t k) :=
  calc val_main_v14 (F := Ideal) x2 (ix2 r k)
      = ∑ t : Fin 50, x2 (idx_main_v14 (ix2 r k) t) := by
        rw [val_main_v14_apply, val_main_cst_3_apply, Ideal.ofBits_def, Ideal.ofBits_zero_f32, zero_add]
    _ = ∑ t : Fin 50, x2 (ix3 r t k) :=
        Finset.sum_congr rfl fun t _ => congrArg x2 (idx3_ext _ _ rfl rfl rfl)

/-- The time mean: the sum divided by the length. -/
theorem mean_v16 (r : Fin 4096) (k : Fin 128) :
    val_main_v16 (F := Ideal) x2 (ix2 r k) = Ideal.div (∑ t : Fin 50, x2 (ix3 r t k)) ((50 : ℝ) : EReal) := by
  rw [val_main_v16_apply, sum_v14, val_main_v15_apply, val_main_cst_4_apply, Ideal.hostDivf_def,
    Ideal.ofBits_def, ofBits_fifty]

/-- The projection of the time mean. -/
theorem proj_v17 (r : Fin 4096) (h : Fin 128) :
    val_main_v17 (F := Ideal) x2 x7 (ix2 r h)
      = ∑ k : Fin 128, Ideal.div (∑ t : Fin 50, x2 (ix3 r t k)) ((50 : ℝ) : EReal) * x7 (ix2 k h) :=
  calc val_main_v17 (F := Ideal) x2 x7 (ix2 r h)
      = ∑ k : Fin 128, (val_main_v16 (F := Ideal) x2) (lidx_main_v17 (ix2 r h) k) * x7 (ridx_main_v17 (ix2 r h) k) :=
        val_main_v17_apply x2 x7 (ix2 r h)
    _ = ∑ k : Fin 128, (val_main_v16 (F := Ideal) x2) (ix2 r k) * x7 (ix2 k h) :=
        Finset.sum_congr rfl fun k _ => congrArg₂ (fun p q => (val_main_v16 (F := Ideal) x2) p * x7 q)
          (idx2_ext _ _ rfl rfl) (idx2_ext _ _ rfl rfl)
    _ = ∑ k : Fin 128, Ideal.div (∑ t : Fin 50, x2 (ix3 r t k)) ((50 : ℝ) : EReal) * x7 (ix2 k h) :=
        Finset.sum_congr rfl fun k _ => by rw [mean_v16]

/-- The bias, repeated down the rows. -/
theorem bias_v19 (r : Fin 4096) (h : Fin 128) :
    val_main_v19 (F := Ideal) x8 (ix2 r h) = x8 (ix1 h) :=
  calc val_main_v19 (F := Ideal) x8 (ix2 r h)
      = x8 (idx_main_v18 (idx_main_v19 (ix2 r h))) := by
        rw [val_main_v19_apply, val_main_v18_apply]
    _ = x8 (ix1 h) := congrArg x8 (idx1_ext _ _ rfl)

/-- The feature table of this modality. -/
theorem feat_v20 (r : Fin 4096) (h : Fin 128) :
    val_main_v20 (F := Ideal) x2 x7 x8 (ix2 r h) = featR 50 (cur3 x2) (cur2 x7) (cur1 x8) r h := by
  rw [val_main_v20_apply, proj_v17, bias_v19, Ideal.addf_def]
  rfl

/-! ## The end of the reference: hyperedge rows side by side, two affine layers -/

/-- The two reshapes read node row `3 b + q / 128` at feature `q % 128`. -/
theorem flat_v136 (b : Fin 4096) (q : Fin 384) :
    val_main_v136 (F := Ideal) x0 x1 x2 x3 x4 x5 x6 x7 x8 x9 x10 x11 x12 (ix2 b q) = flat3 (cur2 (val_main_v134 (F := Ideal) x0 x1 x2 x3 x4 x5 x6 x7 x8 x9 x10 x11 x12)) b q :=
  calc val_main_v136 (F := Ideal) x0 x1 x2 x3 x4 x5 x6 x7 x8 x9 x10 x11 x12 (ix2 b q)
      = (val_main_v134 (F := Ideal) x0 x1 x2 x3 x4 x5 x6 x7 x8 x9 x10 x11 x12) (idx_main_v135 (idx_main_v136 (ix2 b q))) := by
        rw [val_main_v136_apply, val_main_v135_apply]
    _ = (val_main_v134 (F := Ideal) x0 x1 x2 x3 x4 x5 x6 x7 x8 x9 x10 x11 x12) (ix2 ⟨3 * b.val + q.val / 128, by have := b.isLt; have := q.isLt; omega⟩
          ⟨q.val % 128, Nat.mod_lt _ (by decide)⟩) :=
        congrArg (val_main_v134 (F := Ideal) x0 x1 x2 x3 x4 x5 x6 x7 x8 x9 x10 x11 x12) (idx2_ext _ _ (flat_row b.val q.val b.isLt q.isLt) (flat_col b.val q.val b.isLt q.isLt))
    _ = flat3 (cur2 (val_main_v134 (F := Ideal) x0 x1 x2 x3 x4 x5 x6 x7 x8 x9 x10 x11 x12)) b q := rfl

/-- The first layer's product. -/
theorem dot_v137 (b : Fin 4096) (h : Fin 128) :
    val_main_v137 (F := Ideal) x0 x1 x2 x3 x4 x5 x6 x7 x8 x9 x10 x11 x12 x13 (ix2 b h)
      = ∑ k : Fin 384, flat3 (cur2 (val_main_v134 (F := Ideal) x0 x1 x2 x3 x4 x5 x6 x7 x8 x9 x10 x11 x12)) b k * x13 (ix2 k h) :=
  calc val_main_v137 (F := Ideal) x0 x1 x2 x3 x4 x5 x6 x7 x8 x9 x10 x11 x12 x13 (ix2 b h)
      = ∑ k : Fin 384, (val_main_v136 (F := Ideal) x0 x1 x2 x3 x4 x5 x6 x7 x8 x9 x10 x11 x12) (lidx_main_v137 (ix2 b h) k) * x13 (ridx_main_v137 (ix2 b h) k) :=
        val_main_v137_apply x0 x1 x2 x3 x4 x5 x6 x7 x8 x9 x10 x11 x12 x13 (ix2 b h)
    _ = ∑ k : Fin 384, (val_main_v136 (F := Ideal) x0 x1 x2 x3 x4 x5 x6 x7 x8 x9 x10 x11 x12) (ix2 b k) * x13 (ix2 k h) :=
        Finset.sum_congr rfl fun k _ => congrArg₂ (fun p q => (val_main_v136 (F := Ideal) x0 x1 x2 x3 x4 x5 x6 x7 x8 x9 x10 x11 x12) p * x13 q)
          (idx2_ext _ _ rfl rfl) (idx2_ext _ _ rfl rfl)
    _ = ∑ k : Fin 384, flat3 (cur2 (val_main_v134 (F := Ideal) x0 x1 x2 x3 x4 x5 x6 x7 x8 x9 x10 x11 x12)) b k * x13 (ix2 k h) :=
        Finset.sum_congr rfl fun k _ => by rw [flat_v136]

/-- The first layer's bias, repeated down the rows. -/
theorem bias_v139 (b : Fin 4096) (h : Fin 128) :
    val_main_v139 (F := Ideal) x14 (ix2 b h) = x14 (ix1 h) :=
  calc val_main_v139 (F := Ideal) x14 (ix2 b h)
      = x14 (idx_main_v138 (idx_main_v139 (ix2 b h))) := by
        rw [val_main_v139_apply, val_main_v138_apply]
    _ = x14 (ix1 h) := congrArg x14 (idx1_ext _ _ rfl)

/-- The first affine layer. -/
theorem layer_v140 (b : Fin 4096) (h : Fin 128) :
    val_main_v140 (F := Ideal) x0 x1 x2 x3 x4 x5 x6 x7 x8 x9 x10 x11 x12 x13 x14 (ix2 b h) = (affine (flat3 (cur2 (val_main_v134 (F := Ideal) x0 x1 x2 x3 x4 x5 x6 x7 x8 x9 x10 x11 x12))) (cur2 x13) (cur1 x14)) b h := by
  rw [val_main_v140_apply, dot_v137, bias_v139, Ideal.addf_def]
  rfl

/-- The positive part of the first layer. -/
theorem relu_v141 (b : Fin 4096) (h : Fin 128) :
    val_main_v141 (F := Ideal) x0 x1 x2 x3 x4 x5 x6 x7 x8 x9 x10 x11 x12 x13 x14 (ix2 b h) = relu (affine (flat3 (cur2 (val_main_v134 (F := Ideal) x0 x1 x2 x3 x4 x5 x6 x7 x8 x9 x10 x11 x12))) (cur2 x13) (cur1 x14)) b h := by
  rw [val_main_v141_apply, layer_v140, val_main_call5_v0_apply, val_main_call5_cst_apply, Ideal.maximumf_def,
    Ideal.ofBits_def, Ideal.ofBits_zero_f32]
  rfl

/-- The second layer's product. -/
theorem dot_v142 (b : Fin 4096) (o : Fin 64) :
    val_main_v142 (F := Ideal) x0 x1 x2 x3 x4 x5 x6 x7 x8 x9 x10 x11 x12 x13 x14 x15 (ix2 b o)
      = ∑ k : Fin 128, relu (affine (flat3 (cur2 (val_main_v134 (F := Ideal) x0 x1 x2 x3 x4 x5 x6 x7 x8 x9 x10 x11 x12))) (cur2 x13) (cur1 x14)) b k * x15 (ix2 k o) :=
  calc val_main_v142 (F := Ideal) x0 x1 x2 x3 x4 x5 x6 x7 x8 x9 x10 x11 x12 x13 x14 x15 (ix2 b o)
      = ∑ k : Fin 128, (val_main_v141 (F := Ideal) x0 x1 x2 x3 x4 x5 x6 x7 x8 x9 x10 x11 x12 x13 x14) (lidx_main_v142 (ix2 b o) k) * x15 (ridx_main_v142 (ix2 b o) k) :=
        val_main_v142_apply x0 x1 x2 x3 x4 x5 x6 x7 x8 x9 x10 x11 x12 x13 x14 x15 (ix2 b o)
    _ = ∑ k : Fin 128, (val_main_v141 (F := Ideal) x0 x1 x2 x3 x4 x5 x6 x7 x8 x9 x10 x11 x12 x13 x14) (ix2 b k) * x15 (ix2 k o) :=
        Finset.sum_congr rfl fun k _ => congrArg₂ (fun p q => (val_main_v141 (F := Ideal) x0 x1 x2 x3 x4 x5 x6 x7 x8 x9 x10 x11 x12 x13 x14) p * x15 q)
          (idx2_ext _ _ rfl rfl) (idx2_ext _ _ rfl rfl)
    _ = ∑ k : Fin 128, relu (affine (flat3 (cur2 (val_main_v134 (F := Ideal) x0 x1 x2 x3 x4 x5 x6 x7 x8 x9 x10 x11 x12))) (cur2 x13) (cur1 x14)) b k * x15 (ix2 k o) :=
        Finset.sum_congr rfl fun k _ => by rw [relu_v141]

/-- The second layer's bias, repeated down the rows. -/
theorem bias_v144 (b : Fin 4096) (o : Fin 64) :
    val_main_v144 (F := Ideal) x16 (ix2 b o) = x16 (ix1 o) :=
  calc val_main_v144 (F := Ideal) x16 (ix2 b o)
      = x16 (idx_main_v143 (idx_main_v144 (ix2 b o))) := by
        rw [val_main_v144_apply, val_main_v143_apply]
    _ = x16 (ix1 o) := congrArg x16 (idx1_ext _ _ rfl)

/-- The second affine layer: the result. -/
theorem layer_v145 (b : Fin 4096) (o : Fin 64) :
    val_main_v145 (F := Ideal) x0 x1 x2 x3 x4 x5 x6 x7 x8 x9 x10 x11 x12 x13 x14 x15 x16 (ix2 b o)
      = affine (relu (affine (flat3 (cur2 (val_main_v134 (F := Ideal) x0 x1 x2 x3 x4 x5 x6 x7 x8 x9 x10 x11 x12))) (cur2 x13) (cur1 x14))) (cur2 x15) (cur1 x16) b o := by
  rw [val_main_v145_apply, dot_v142, bias_v144, Ideal.addf_def]
  rfl

end Pieces

/-! ## The three statements -/

/-- The stacked node rows the reference builds are the dividing arrangement's. -/
theorem nodes (x0 : (⟨S4096x20x512, .f32⟩ : BufTy).Contents (Elt Ideal)) (x1 : (⟨S4096x20x256, .f32⟩ : BufTy).Contents (Elt Ideal)) (x2 : (⟨S4096x50x128, .f32⟩ : BufTy).Contents (Elt Ideal)) (x3 : (⟨S512x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v21 (F := Ideal) x0 x1 x2 x3 x4 x5 x6 x7 x8 = fun i =>
      nodesR (cur3 x0) (cur3 x1) (cur3 x2) (cur2 x3) (cur1 x4) (cur2 x5) (cur1 x6) (cur2 x7) (cur1 x8) (i 0) (i 1) := by
  funext i
  obtain ⟨n, c, rfl⟩ : ∃ (n : Fin 12288) (c : Fin 128), i = ix2 n c := ⟨i 0, i 1, eq_ix2 i⟩
  show val_main_v21 (F := Ideal) x0 x1 x2 x3 x4 x5 x6 x7 x8 (ix2 n c)
    = nodesR (cur3 x0) (cur3 x1) (cur3 x2) (cur2 x3) (cur1 x4) (cur2 x5) (cur1 x6) (cur2 x7) (cur1 x8) n c
  unfold val_main_v21 nodesR
  refine (concat3_apply (val_main_v6 (F := Ideal) x0 x3 x4) (val_main_v13 (F := Ideal) x1 x5 x6)
    (val_main_v20 (F := Ideal) x2 x7 x8) n c).trans ?_
  have e0 : cur2 (val_main_v6 (F := Ideal) x0 x3 x4) = featR 20 (cur3 x0) (cur2 x3) (cur1 x4) :=
    funext fun r => funext fun h => feat_v6 x0 x3 x4 r h
  have e1 : cur2 (val_main_v13 (F := Ideal) x1 x5 x6) = featR 20 (cur3 x1) (cur2 x5) (cur1 x6) :=
    funext fun r => funext fun h => feat_v13 x1 x5 x6 r h
  have e2 : cur2 (val_main_v20 (F := Ideal) x2 x7 x8) = featR 50 (cur3 x2) (cur2 x7) (cur1 x8) :=
    funext fun r => funext fun h => feat_v20 x2 x7 x8 r h
  rw [e0, e1, e2]

/-- The positive part between the two convolutions. -/
theorem relu80 (x0 : (⟨S4096x20x512, .f32⟩ : BufTy).Contents (Elt Ideal)) (x1 : (⟨S4096x20x256, .f32⟩ : BufTy).Contents (Elt Ideal)) (x2 : (⟨S4096x50x128, .f32⟩ : BufTy).Contents (Elt Ideal)) (x3 : (⟨S512x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    cur2 (val_main_v80 (F := Ideal) x0 x1 x2 x3 x4 x5 x6 x7 x8 x9 x10) = relu (cur2 (val_main_v79 (F := Ideal) x0 x1 x2 x3 x4 x5 x6 x7 x8 x9 x10)) := by
  funext r c
  calc val_main_v80 (F := Ideal) x0 x1 x2 x3 x4 x5 x6 x7 x8 x9 x10 (ix2 r c)
      = max (val_main_v79 (F := Ideal) x0 x1 x2 x3 x4 x5 x6 x7 x8 x9 x10 (ix2 r c) : EReal) 0 := by
        rw [val_main_v80_apply, val_main_call2_v0_apply, val_main_call2_cst_apply, Ideal.maximumf_def, Ideal.ofBits_def,
          Ideal.ofBits_zero_f32]
    _ = relu (cur2 (val_main_v79 (F := Ideal) x0 x1 x2 x3 x4 x5 x6 x7 x8 x9 x10)) r c := rfl

/-- From the second convolution's node rows to the result: rows of a hyperedge side by side, two affine layers. -/
theorem tail (x0 : (⟨S4096x20x512, .f32⟩ : BufTy).Contents (Elt Ideal)) (x1 : (⟨S4096x20x256, .f32⟩ : BufTy).Contents (Elt Ideal)) (x2 : (⟨S4096x50x128, .f32⟩ : BufTy).Contents (Elt Ideal)) (x3 : (⟨S512x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S384x128, .f32⟩ : BufTy).Contents (Elt Ideal)) (x14 : (⟨S128, .f32⟩ : BufTy).Contents (Elt Ideal)) (x15 : (⟨S128x64, .f32⟩ : BufTy).Contents (Elt Ideal)) (x16 : (⟨S64, .f32⟩ : BufTy).Contents (Elt Ideal)) :
    val_main_v145 (F := Ideal) x0 x1 x2 x3 x4 x5 x6 x7 x8 x9 x10 x11 x12 x13 x14 x15 x16 = fun i =>
      affine (relu (affine (flat3 (cur2 (val_main_v134 (F := Ideal) x0 x1 x2 x3 x4 x5 x6 x7 x8 x9 x10 x11 x12))) (cur2 x13) (cur1 x14))) (cur2 x15) (cur1 x16) (i 0) (i 1) := by
  funext i
  obtain ⟨b, o, rfl⟩ : ∃ (b : Fin 4096) (o : Fin 64), i = ix2 b o := ⟨i 0, i 1, eq_ix2 i⟩
  exact layer_v145 x0 x1 x2 x3 x4 x5 x6 x7 x8 x9 x10 x11 x12 x13 x14 x15 x16 b o

end Cert.ReferenceIdeal.Ends

end
-- ==== Proof.LibScatterRows.lean ====
import Mathlib.Algebra.BigOperators.Group.Finset.Defs
import Mathlib.Algebra.BigOperators.Group.Finset.Basic
import Mathlib.Algebra.BigOperators.Group.Finset.Piecewise
import Idealize.ShloMosaic.PureOps.Ideal
import Idealize.ShloMosaic.PureOps.Ideal.Laws
import Idealize.ShloMosaic.Lib.ValueIdx

/-!
# Row scatter and row gather read at an index

A column of `N` row numbers (a 32-bit integer array of shape `[N, 1]`, each entry read signed) drives

* an accumulating scatter of the `N` rows of an `[N, C]` array into an `[R, C]` array (and its rank-1
  analogue, `N` scalars into an `[R]` array): at the exact (extended-real) arithmetic the result at row
  `r` is the operand there plus the sum of the update rows whose row number is `r`;
* a gather of `N` rows of an `[R, C]` array (and its rank-1 analogue): when the row number is in
  range the result row is the operand's row of that number (the clamp of the start index does nothing).

The last two lemmas count: a sum over the indices whose number equals a given one is one term, and a sum
over the indices `n < 12288` with `n / 3 = b` is the three terms `3 b, 3 b + 1, 3 b + 2`.
-/

noncomputable section

open scoped BigOperators

namespace Cert.Fusion.Rows

open Idealize.ShloMosaic Idealize.ShloMosaic.ValueIdx

/-! ## Generalities -/

/-- An update index `j` of a scatter lands on the operand index `i` exactly when, on every operand axis,
    the window's start (read signed off the scatter indices, not clamped) plus the window coordinate is
    `i`'s coordinate: being inside the operand is then automatic, and an update that leaves the operand
    lands nowhere. -/
theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro e a
    split at e
    · rename_i h
      have hv : (d.start j idx a + (d.window j a : Int)).toNat = (i a).val :=
        congrArg Fin.val (congrFun (Option.some.inj e) a)
      have h0 := (h a).1
      omega
    · cases e
  · intro hall
    have hgood : ∀ a, 0 ≤ d.start j idx a + (d.window j a : Int) ∧
        d.start j idx a + (d.window j a : Int) < s.size a := by
      intro a
      have h1 := hall a
      have h2 := (i a).isLt
      constructor <;> omega
    split
    · refine congrArg some (funext fun a => Fin.ext ?_)
      have h1 := hall a
      show (d.start j idx a + (d.window j a : Int)).toNat = (i a).val
      omega
    · rename_i hbad
      exact absurd hgood hbad

/-- An axis is among the kept ones exactly when it is not among the removed ones. -/
theorem mem_kept {s : Shape} (axes : List (Fin s.rank)) (a : Fin s.rank) : a ∈ s.kept axes ↔ a ∉ axes := by
  simp [Shape.kept, List.mem_filter, List.mem_finRange]

/-- Of two axes, the second is not in the list holding the first only. -/
theorem one_not_mem_zero : (1 : Fin 2) ∉ ([0] : List (Fin 2)) := by decide

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The accumulating scatter of rows -/

/-- The dimension numbers of a row scatter: operand `[R, C]`, row numbers `[N, 1]`, updates `[N, C]`; the
    updates' axis 1 is the window axis, the operand's axis 0 is inserted and is the one the row number
    addresses, and the row numbers' axis 1 holds the (one-component) index vector. -/
abbrev rowsDims (R C N : Nat)
    (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ := ⟨[1], [0], [0], 1, wf⟩

/-- Update element `(n, c')` of a row scatter lands on operand element `(r, c)` exactly when row number
    `n`, read signed, is `r` and the columns agree. -/
theorem rows_resultIdx?_iff {R C N : Nat}
    (wf : ScatterDims.WF ⟨2, ![R, C]⟩ ⟨2, ![N, 1]⟩ ⟨2, ![N, C]⟩ [1] [0] [0] 1)
    (idx : IVec ⟨2, ![N, 1]⟩ 32) (n : Fin N) (c' : Fin C) (r : Fin R) (c : Fin C) :
    (rowsDims R C N wf).resultIdx? (ix2 n c') idx = some (ix2 r c) ↔
      ((idx (ix2 n 0)).toInt = (r.val : Int) ∧ c' = c) := by
  have hsi : (rowsDims R C N wf).siIdx (ix2 n c')
      ⟨(rowsDims R C N wf).scatterDimsToOperandDims.idxOf 0,
        List.idxOf_lt_length_iff.2 (List.mem_singleton.mpr rfl)⟩ = ix2 n 0 := by
    funext b; refine Fin.ext ?_
    match b with
    | ⟨0, _⟩ => rfl
    | ⟨1, _⟩ => rfl
  have hs0 : (rowsDims R C N wf).start (ix2 n c') idx 0 = (idx (ix2 n 0)).toInt := by
    unfold ScatterDims.start
    rw [dif_pos (show 0 ∈ (rowsDims R C N wf).scatterDimsToOperandDims from List.mem_singleton.mpr rfl), hsi]
  have hs1 : (rowsDims R C N wf).start (ix2 n c') idx 1 = 0 := by
    unfold ScatterDims.start
    exact dif_neg (show 1 ∉ (rowsDims R C N wf).scatterDimsToOperandDims from one_not_mem_zero)
  have hw0 : (rowsDims R C N wf).window (ix2 n c') 0 = 0 := by
    unfold ScatterDims.window
    exact dif_neg (show 0 ∉ (rowsDims R C N wf).sKept from
      fun hm => (mem_kept _ _).1 hm (List.mem_singleton.mpr rfl))
  have hw1 : (rowsDims R C N wf).window (ix2 n c') 1 = c'.val := by
    unfold ScatterDims.window
    refine (dif_pos (show 1 ∈ (rowsDims R C N wf).sKept from (mem_kept _ _).2 one_not_mem_zero)).trans ?_
    rfl
  refine (resultIdx?_eq_some_iff (rowsDims R C N wf) (ix2 n c') idx (ix2 r c)).trans ?_
  constructor
  · intro hall
    have h0 : (rowsDims R C N wf).start (ix2 n c') idx 0
        + (((rowsDims R C N wf).window (ix2 n c') 0 : Nat) : Int) = (r.val : Int) := hall 0
    have h1 : (rowsDims R C N wf).start (ix2 n c') idx 1
        + (((rowsDims R C N wf).window (ix2 n c') 1 : Nat) : Int) = (c.val : Int) := hall 1
    rw [hs0, hw0] at h0
    rw [hs1, hw1] at h1
    exact ⟨by omega, Fin.ext (by omega)⟩
  · rintro ⟨hq, rfl⟩ a
    match a with
    | ⟨0, _⟩ =>
      show (rowsDims R C N wf).start (ix2 n c') idx 0
        + (((rowsDims R C N wf).window (ix2 n c') 0 : Nat) : Int) = (r.val : Int)
      rw [hs0, hw0, hq]; omega
    | ⟨1, _⟩ =>
      show (rowsDims R C N wf).start (ix2 n c') idx 1
        + (((rowsDims R C N wf).window (ix2 n c') 1 : Nat) : Int) = (c'.val : Int)
      rw [hs1, hw1]; omega

/-- THE ROW SCATTER READ AT `(r, c)`, at the exact arithmetic: operand `[R, C]`, row numbers `[N, 1]`,
    updates `[N, C]`, with update_window_dims `[1]`, inserted_window_dims `[0]`,
    scatter_dims_to_operand_dims `[0]`, index_vector_dim `1`. The result at `(r, c)` is the operand there
    plus the sum of the updates `u (n, c)` over the `n` whose row number, read signed, is `r`. -/
theorem scatterAdd_rows_apply {R C N : Nat}
    (wf : ScatterDims.WF ⟨2, ![R, C]⟩ ⟨2, ![N, 1]⟩ ⟨2, ![N, C]⟩ [1] [0] [0] 1)
    (x : FVec Ideal ⟨2, ![R, C]⟩ .f32) (idx : IVec ⟨2, ![N, 1]⟩ 32) (u : FVec Ideal ⟨2, ![N, C]⟩ .f32)
    (r : Fin R) (c : Fin C) :
    Host.scatterAdd (F := Ideal)
        (⟨[1], [0], [0], 1, wf⟩ : ScatterDims ⟨2, ![R, C]⟩ ⟨2, ![N, 1]⟩ ⟨2, ![N, C]⟩) x idx u (ix2 r c)
      = x (ix2 r c)
        + ∑ n ∈ Finset.univ.filter (fun n : Fin N => (idx (ix2 n 0)).toInt = (r.val : Int)), u (ix2 n c) := by
  show Host.scatterAdd (F := Ideal) (rowsDims R C N wf) x idx u (ix2 r c) = _
  simp only [Host.scatterAdd, Ideal.hostScatterAdd_def, Ideal.hostScatterAdd]
  refine congrArg (fun t => x (ix2 r c) + t) ?_
  rw [Finset.sum_filter, Finset.sum_filter, sum_idx2]
  refine Finset.sum_congr rfl fun n _ => ?_
  simp only [rows_resultIdx?_iff]
  by_cases hq : (idx (ix2 n 0)).toInt = (r.val : Int)
  · simp [hq]
  · simp [hq]

/-! ## The accumulating scatter of scalars -/

/-- The dimension numbers of a scalar scatter: operand `[R]`, numbers `[N, 1]`, updates `[N]`; no window
    axis, the operand's one axis inserted and addressed by the number, the index vector on the numbers'
    axis 1. -/
abbrev vecDims (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ := ⟨[], [0], [0], 1, wf⟩

/-- Update element `n` of a scalar scatter lands on operand element `r` exactly when number `n`, read
    signed, is `r`. -/
theorem vec_resultIdx?_iff {R N : Nat} (wf : ScatterDims.WF ⟨1, ![R]⟩ ⟨2, ![N, 1]⟩ ⟨1, ![N]⟩ [] [0] [0] 1)
    (idx : IVec ⟨2, ![N, 1]⟩ 32) (n : Fin N) (r : Fin R) :
    (vecDims R N wf).resultIdx? (ix1 n) idx = some (ix1 r) ↔ (idx (ix2 n 0)).toInt = (r.val : Int) := by
  have hsi : (vecDims R N wf).siIdx (ix1 n)
      ⟨(vecDims R N wf).scatterDimsToOperandDims.idxOf 0,
        List.idxOf_lt_length_iff.2 (List.mem_singleton.mpr rfl)⟩ = ix2 n 0 := by
    funext b; refine Fin.ext ?_
    match b with
    | ⟨0, _⟩ => rfl
    | ⟨1, _⟩ => rfl
  have hs0 : (vecDims R N wf).start (ix1 n) idx 0 = (idx (ix2 n 0)).toInt := by
    unfold ScatterDims.start
    rw [dif_pos (show 0 ∈ (vecDims R N wf).scatterDimsToOperandDims from List.mem_singleton.mpr rfl), hsi]
  have hw0 : (vecDims R N wf).window (ix1 n) 0 = 0 := by
    unfold ScatterDims.window
    exact dif_neg (show 0 ∉ (vecDims R N wf).sKept from
      fun hm => (mem_kept _ _).1 hm (List.mem_singleton.mpr rfl))
  refine (resultIdx?_eq_some_iff (vecDims R N wf) (ix1 n) idx (ix1 r)).trans ?_
  constructor
  · intro hall
    have h0 : (vecDims R N wf).start (ix1 n) idx 0
        + (((vecDims R N wf).window (ix1 n) 0 : Nat) : Int) = (r.val : Int) := hall 0
    rw [hs0, hw0] at h0
    omega
  · intro hq a
    match a with
    | ⟨0, _⟩ =>
      show (vecDims R N wf).start (ix1 n) idx 0
        + (((vecDims R N wf).window (ix1 n) 0 : Nat) : Int) = (r.val : Int)
      rw [hs0, hw0, hq]; omega

/-- THE SCALAR SCATTER READ AT `r`, at the exact arithmetic: operand `[R]`, numbers `[N, 1]`, updates `[N]`,
    with update_window_dims `[]`, inserted_window_dims `[0]`, scatter_dims_to_operand_dims `[0]`,
    index_vector_dim `1`. The result at `r` is the operand there plus the sum of the updates `u n` over the
    `n` whose number, read signed, is `r`. -/
theorem scatterAdd_vec_apply {R N : Nat}
    (wf : ScatterDims.WF ⟨1, ![R]⟩ ⟨2, ![N, 1]⟩ ⟨1, ![N]⟩ [] [0] [0] 1)
    (x : FVec Ideal ⟨1, ![R]⟩ .f32) (idx : IVec ⟨2, ![N, 1]⟩ 32) (u : FVec Ideal ⟨1, ![N]⟩ .f32) (r : Fin R) :
    Host.scatterAdd (F := Ideal)
        (⟨[], [0], [0], 1, wf⟩ : ScatterDims ⟨1, ![R]⟩ ⟨2, ![N, 1]⟩ ⟨1, ![N]⟩) x idx u (ix1 r)
      = x (ix1 r)
        + ∑ n ∈ Finset.univ.filter (fun n : Fin N => (idx (ix2 n 0)).toInt = (r.val : Int)), u (ix1 n) := by
  show Host.scatterAdd (F := Ideal) (vecDims R N wf) x idx u (ix1 r) = _
  simp only [Host.scatterAdd, Ideal.hostScatterAdd_def, Ideal.hostScatterAdd]
  refine congrArg (fun t => x (ix1 r) + t) ?_
  rw [Finset.sum_filter, Finset.sum_filter, sum_idx1]
  refine Finset.sum_congr rfl fun n _ => ?_
  simp only [vec_resultIdx?_iff]

/-! ## The gather of rows -/

/-- The dimension numbers of a row gather: operand `[R, C]`, row numbers `[N, 1]`, result `[N, C]`; the
    result's axis 1 is the offset axis, the operand's axis 0 is collapsed and addressed by the row number,
    the index vector on the row numbers' axis 1, slices of one row. -/
abbrev gatherRowsDims (R C N : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ := ⟨[1], [0], [], [], [0], 1, ![1, C], wf⟩

/-- THE ROW GATHER READ AT `(n, c)`: operand `[R, C]`, row numbers `[N, 1]`, result `[N, C]`, with
    offset_dims `[1]`, collapsed_slice_dims `[0]`, start_index_map `[0]`, no batching axes,
    index_vector_dim `1`, slice_sizes `[1, C]`. When row number `n`, read signed, is the in-range row `r`,
    the clamp of the start index is the identity and the result at `(n, c)` is the operand at `(r, c)`. -/
theorem gather_rows_apply {α : Type} {R C N : Nat}
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ 32) (n : Fin N) (c : Fin C) (r : Fin R)
    (h : (idx (ix2 n 0)).toInt = (r.val : Int)) :
    Host.gather (⟨[1], [0], [], [], [0], 1, ![1, C], wf⟩ : GatherDims ⟨2, ![R, C]⟩ ⟨2, ![N, 1]⟩ ⟨2, ![N, C]⟩)
        x idx (ix2 n c) = x (ix2 r c) := by
  show Host.gather (gatherRowsDims R C N wf) x idx (ix2 n c) = _
  unfold Host.gather
  refine congrArg x ?_
  have hsi : (gatherRowsDims R C N wf).siIdx (ix2 n c)
      ⟨(gatherRowsDims R C N wf).startIndexMap.idxOf 0,
        List.idxOf_lt_length_iff.2 (List.mem_singleton.mpr rfl)⟩ = ix2 n 0 := by
    funext b; refine Fin.ext ?_
    match b with
    | ⟨0, _⟩ => rfl
    | ⟨1, _⟩ => rfl
  have hs0 : (gatherRowsDims R C N wf).start (ix2 n c) idx 0 = r.val := by
    unfold GatherDims.start
    rw [dif_pos (show 0 ∈ (gatherRowsDims R C N wf).startIndexMap from List.mem_singleton.mpr rfl), hsi, h]
    show min ((r.val : Int)).toNat (R - 1) = r.val
    have hr := r.isLt
    omega
  have hs1 : (gatherRowsDims R C N wf).start (ix2 n c) idx 1 = 0 := by
    unfold GatherDims.start
    exact dif_neg (show 1 ∉ (gatherRowsDims R C N wf).startIndexMap from one_not_mem_zero)
  have hb : ∀ a, (gatherRowsDims R C N wf).batchCoord (ix2 n c) a = 0 := fun a =>
    GatherDims.batchCoord_eq_zero _ _ _ List.not_mem_nil
  have ho0 : (gatherRowsDims R C N wf).offCoord (ix2 n c) 0 = 0 :=
    GatherDims.offCoord_eq_zero _ _ _
      (fun hm => ((GatherDims.mem_sKept _ _).mp hm).1 (List.mem_singleton.mpr rfl))
  have ho1 : (gatherRowsDims R C N wf).offCoord (ix2 n c) 1 = c.val := by
    unfold GatherDims.offCoord
    refine (dif_pos (show 1 ∈ (gatherRowsDims R C N wf).sKept from
      (GatherDims.mem_sKept _ _).2 ⟨one_not_mem_zero, List.not_mem_nil⟩)).trans ?_
    rfl
  funext a; refine Fin.ext ?_
  match a with
  | ⟨0, _⟩ =>
    show (gatherRowsDims R C N wf).start (ix2 n c) idx 0 + (gatherRowsDims R C N wf).batchCoord (ix2 n c) 0
      + (gatherRowsDims R C N wf).offCoord (ix2 n c) 0 = r.val
    simp only [hs0, hb, ho0, Nat.add_zero]
  | ⟨1, _⟩ =>
    show (gatherRowsDims R C N wf).start (ix2 n c) idx 1 + (gatherRowsDims R C N wf).batchCoord (ix2 n c) 1
      + (gatherRowsDims R C N wf).offCoord (ix2 n c) 1 = c.val
    rw [hs1, hb, ho1]; omega

/-! ## The gather of scalars -/

/-- The dimension numbers of a scalar gather: operand `[R]`, numbers `[N, 1]`, result `[N]`; no offset
    axis, the operand's one axis collapsed and addressed by the number, the index vector on the numbers'
    axis 1, slices of one element. -/
abbrev gatherVecDims (R N : Nat)
    (wf : GatherDims.WF ⟨1, ![R]⟩ ⟨2, ![N, 1]⟩ ⟨1, ![N]⟩ [] [0] [] [0] [] 1 ![1]) :
    GatherDims ⟨1, ![R]⟩ ⟨2, ![N, 1]⟩ ⟨1, ![N]⟩ := ⟨[], [0], [], [], [0], 1, ![1], wf⟩

/-- THE SCALAR GATHER READ AT `n`: operand `[R]`, numbers `[N, 1]`, result `[N]`, with offset_dims `[]`,
    collapsed_slice_dims `[0]`, start_index_map `[0]`, no batching axes, index_vector_dim `1`,
    slice_sizes `[1]`. When number `n`, read signed, is the in-range position `r`, the clamp of the start
    index is the identity and the result at `n` is the operand at `r`. -/
theorem gather_vec_apply {α : Type} {R N : Nat}
    (wf : GatherDims.WF ⟨1, ![R]⟩ ⟨2, ![N, 1]⟩ ⟨1, ![N]⟩ [] [0] [] [0] [] 1 ![1])
    (x : (⟨1, ![R]⟩ : Shape).Idx → α) (idx : IVec ⟨2, ![N, 1]⟩ 32) (n : Fin N) (r : Fin R)
    (h : (idx (ix2 n 0)).toInt = (r.val : Int)) :
    Host.gather (⟨[], [0], [], [], [0], 1, ![1], wf⟩ : GatherDims ⟨1, ![R]⟩ ⟨2, ![N, 1]⟩ ⟨1, ![N]⟩)
        x idx (ix1 n) = x (ix1 r) := by
  show Host.gather (gatherVecDims R N wf) x idx (ix1 n) = _
  unfold Host.gather
  refine congrArg x ?_
  have hsi : (gatherVecDims R N wf).siIdx (ix1 n)
      ⟨(gatherVecDims R N wf).startIndexMap.idxOf 0,
        List.idxOf_lt_length_iff.2 (List.mem_singleton.mpr rfl)⟩ = ix2 n 0 := by
    funext b; refine Fin.ext ?_
    match b with
    | ⟨0, _⟩ => rfl
    | ⟨1, _⟩ => rfl
  have hs0 : (gatherVecDims R N wf).start (ix1 n) idx 0 = r.val := by
    unfold GatherDims.start
    rw [dif_pos (show 0 ∈ (gatherVecDims R N wf).startIndexMap from List.mem_singleton.mpr rfl), hsi, h]
    show min ((r.val : Int)).toNat (R - 1) = r.val
    have hr := r.isLt
    omega
  have hb0 : (gatherVecDims R N wf).batchCoord (ix1 n) 0 = 0 :=
    GatherDims.batchCoord_eq_zero _ _ _ List.not_mem_nil
  have ho0 : (gatherVecDims R N wf).offCoord (ix1 n) 0 = 0 :=
    GatherDims.offCoord_eq_zero _ _ _
      (fun hm => ((GatherDims.mem_sKept _ _).mp hm).1 (List.mem_singleton.mpr rfl))
  funext a; refine Fin.ext ?_
  match a with
  | ⟨0, _⟩ =>
    show (gatherVecDims R N wf).start (ix1 n) idx 0 + (gatherVecDims R N wf).batchCoord (ix1 n) 0
      + (gatherVecDims R N wf).offCoord (ix1 n) 0 = r.val
    simp only [hs0, hb0, ho0, Nat.add_zero]

/-! ## Counting -/

/-- A sum over the indices whose number equals `r`'s is the one term at `r`. -/
theorem sum_filter_eq_single {M : Type*} [AddCommMonoid M] {N : Nat} (r : Fin N) (f : Fin N → M) :
    (∑ n ∈ Finset.univ.filter (fun n : Fin N => ((n.val : Int)) = (r.val : Int)), f n) = f r := by
  have hset : Finset.univ.filter (fun n : Fin N => ((n.val : Int)) = (r.val : Int)) = {r} := by
    ext n
    simp only [Finset.mem_filter, Finset.mem_univ, true_and, Finset.mem_singleton]
    constructor
    · intro hn
      exact Fin.ext (by omega)
    · intro hn
      rw [hn]
  rw [hset, Finset.sum_singleton]

/-- A sum over the `n < 12288` whose third part `n / 3` is `b` is the three terms at `3 b`, `3 b + 1`,
    `3 b + 2`: these are exactly the numbers with that quotient. -/
theorem sum_filter_div3 {M : Type*} [AddCommMonoid M] (b : Fin 4096) (f : Fin 12288 → M) :
    (∑ n ∈ Finset.univ.filter (fun n : Fin 12288 => ((n.val / 3 : Nat) : Int) = (b.val : Int)), f n)
      = ∑ j : Fin 3, f ⟨3 * b.val + j.val, by have := b.isLt; have := j.isLt; omega⟩ := by
  have hb := b.isLt
  symm
  refine Finset.sum_bij
    (fun (j : Fin 3) _ => (⟨3 * b.val + j.val, by have := j.isLt; omega⟩ : Fin 12288)) ?_ ?_ ?_ ?_
  · intro j _
    have hj := j.isLt
    refine Finset.mem_filter.2 ⟨Finset.mem_univ _, ?_⟩
    show (((3 * b.val + j.val) / 3 : Nat) : Int) = (b.val : Int)
    omega
  · intro j1 _ j2 _ e
    have e' : 3 * b.val + j1.val = 3 * b.val + j2.val := congrArg Fin.val e
    exact Fin.ext (by omega)
  · intro n hn
    have hn' : ((n.val / 3 : Nat) : Int) = (b.val : Int) := (Finset.mem_filter.1 hn).2
    refine ⟨⟨n.val % 3, Nat.mod_lt _ (by decide)⟩, Finset.mem_univ _, Fin.ext ?_⟩
    show 3 * b.val + n.val % 3 = n.val
    omega
  · intro j _
    rfl

end Cert.Fusion.Rows

end
-- ==== Proof.RefDegrees.lean ====
/-
  The constant parts of the reference's two hypergraph convolutions.

  The reference scatters and gathers node rows along two columns of 32-bit words: the identity column (node n
  goes to row n) and the hyperedge column (node n goes to hyperedge n / 3).  Both are built from counters, so every
  word is a small non-negative number and reads back signed as that number; the "wrap a negative index" step the
  gathers apply first never fires.  The degree of a node (the number of column entries equal to its row) is one and
  the degree of a hyperedge is three, so the two normalisations "one over the degree where it is positive" are the
  constants 1 and 1/3, in both layers.
-/
import proofs.«129526_g8237747274144_cont_9to1_m_1049_17_alg».proof.Proof.RefRead
import proofs.«129526_g8237747274144_cont_9to1_m_1049_17_alg».proof.Proof.Spec
import proofs.«129526_g8237747274144_cont_9to1_m_1049_17_alg».proof.Proof.LibScatterRows
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate
import Idealize.ShloMosaic.PureOps.Ideal.Laws

noncomputable section

namespace Cert.ReferenceIdeal.Degrees

open Cert.ReferenceIdeal Cert.ReferenceIdeal.Read Cert.Fusion
open Idealize.ShloMosaic Idealize.ShloMosaic.ValueIdx

open Cert.Fusion.Rows

/-! ## Words -/

/-- A natural number below 2³¹, written as a 32-bit word, reads back signed as itself. -/
theorem toInt_word (k : Nat) (hk : k < 2 ^ 31) : (BitVec.ofNat 32 k).toInt = (k : Int) :=
  StableHlo.Predicate.toInt_ofNat_small k hk

/-- Such a word is not below zero, so replacing a negative index by its wrap leaves it alone. -/
theorem wrap_word (k : Nat) (hk : k < 2 ^ 31) (w : BitVec 32) :
    Scalar.select (IntOp.cmpi .slt (BitVec.ofNat 32 k) 0#32) w (BitVec.ofNat 32 k) = BitVec.ofNat 32 k := by
  have ha : (BitVec.ofNat 32 k).toNat < 2 ^ 31 := by rw [BitVec.toNat_ofNat]; omega
  have hb : (0#32).toNat < 2 ^ 31 := by decide
  refine if_neg (fun h => ?_)
  have h' := (StableHlo.Predicate.slt_iff_toNat ha hb).mp h
  exact Nat.not_lt_zero _ h'

/-! ## Extended reals -/

/-- The comparison "greater than" at the extended reals answers one on a strict inequality. -/
theorem cmpf_ogt_of_lt {x y : EReal} (h : y < x) :
    FloatOps.cmpf (F := Ideal) (φ := .f32) .ogt x y = 1#1 := by
  show Ideal.cmp .ogt x y = 1#1
  simp [Ideal.cmp, h]

/-- One divided by a nonzero real is its reciprocal. -/
theorem div_one_coe {n : ℝ} (h : n ≠ 0) : Ideal.div 1 ((n : ℝ) : EReal) = rcp n := by
  rw [Ideal.div_coe h, one_mul]

/-- The normalisation "one over the degree where the degree is positive, else zero" at a positive real degree is
    the degree's reciprocal. The two float words are zero and one. -/
theorem where_pos {d : ℝ} (hd : 0 < d) (z : EReal) :
    Scalar.select
        (FloatOps.cmpf (F := Ideal) (φ := .f32) .ogt ((d : ℝ) : EReal) (FloatOps.ofBits (F := Ideal) .f32 0x00000000#32))
        (FloatOps.hostDivf (F := Ideal) (φ := .f32) (FloatOps.ofBits (F := Ideal) .f32 0x3F800000#32) ((d : ℝ) : EReal)) z
      = rcp d := by
  rw [Ideal.ofBits_def, Ideal.ofBits_def, Ideal.ofBits_zero_f32, Ideal.ofBits_one_f32, Ideal.hostDivf_def,
    div_one_coe hd.ne', cmpf_ogt_of_lt (EReal.coe_pos.mpr hd)]
  exact select_one _ _

/-- The reciprocal of one is one. -/
theorem rcp_one : rcp 1 = (1 : EReal) := by
  show ((1 / 1 : ℝ) : EReal) = 1
  rw [div_one, EReal.coe_one]

/-- Nothing plus one is the real one. -/
theorem deg_one_eq : (0 : EReal) + 1 = ((1 : ℝ) : EReal) := by
  rw [zero_add, EReal.coe_one]

/-- Nothing plus three ones is the real three. -/
theorem deg_three_eq : (0 : EReal) + ((1 : EReal) + 1 + 1) = ((3 : ℝ) : EReal) := by
  have h : ((3 : ℝ) : EReal) = (((1 : ℝ) + 1 + 1 : ℝ) : EReal) := congrArg _ (by norm_num)
  rw [h, EReal.coe_add, EReal.coe_add, EReal.coe_one, zero_add]

/-! ## Scatter-adds of a vector along the two index columns -/

/-- Scatter-add along the identity column: every row receives its own update. -/
theorem scatter_vec_self {N : Nat} (wf : ScatterDims.WF ⟨1, ![N]⟩ ⟨2, ![N, 1]⟩ ⟨1, ![N]⟩ [] [0] [0] 1)
    (x : FVec Ideal ⟨1, ![N]⟩ .f32) (idx : IVec ⟨2, ![N, 1]⟩ 32) (u : FVec Ideal ⟨1, ![N]⟩ .f32)
    (hidx : ∀ n : Fin N, (idx (ix2 n 0)).toInt = (n.val : Int)) (r : Fin N) :
    Host.scatterAdd (F := Ideal) (⟨[], [0], [0], 1, wf⟩ : ScatterDims ⟨1, ![N]⟩ ⟨2, ![N, 1]⟩ ⟨1, ![N]⟩) x idx u (ix1 r)
      = x (ix1 r) + u (ix1 r) := by
  have hf : (Finset.univ.filter (fun n : Fin N => (idx (ix2 n 0)).toInt = (r.val : Int)))
      = Finset.univ.filter (fun n : Fin N => ((n.val : Int)) = (r.val : Int)) :=
    Finset.filter_congr (fun n _ => by rw [hidx n])
  rw [scatterAdd_vec_apply, hf, sum_filter_eq_single r (fun n => u (ix1 n))]

/-- Scatter-add along the column `n ↦ n / 3`: hyperedge `b` receives the updates of its three nodes. -/
theorem scatter_vec_div3 (wf : ScatterDims.WF ⟨1, ![4096]⟩ ⟨2, ![12288, 1]⟩ ⟨1, ![12288]⟩ [] [0] [0] 1)
    (x : FVec Ideal ⟨1, ![4096]⟩ .f32) (idx : IVec ⟨2, ![12288, 1]⟩ 32) (u : FVec Ideal ⟨1, ![12288]⟩ .f32)
    (hidx : ∀ n : Fin 12288, (idx (ix2 n 0)).toInt = ((n.val / 3 : Nat) : Int)) (b : Fin 4096) :
    Host.scatterAdd (F := Ideal) (⟨[], [0], [0], 1, wf⟩ : ScatterDims ⟨1, ![4096]⟩ ⟨2, ![12288, 1]⟩ ⟨1, ![12288]⟩)
        x idx u (ix1 b)
      = x (ix1 b) + (u (ix1 (node b 0)) + u (ix1 (node b 1)) + u (ix1 (node b 2))) := by
  have hf : (Finset.univ.filter (fun n : Fin 12288 => (idx (ix2 n 0)).toInt = (b.val : Int)))
      = Finset.univ.filter (fun n : Fin 12288 => ((n.val / 3 : Nat) : Int) = (b.val : Int)) :=
    Finset.filter_congr (fun n _ => by rw [hidx n])
  rw [scatterAdd_vec_apply, hf, sum_filter_div3 b (fun n => u (ix1 n)), Fin.sum_univ_three]

/-! ## The two counters -/

/-- The hyperedge counter, spread over three columns and flattened: entry `n` is `n / 3`. -/
theorem v25_val (i : S12288.Idx) : val_main_v25 (F := Ideal) i = BitVec.ofNat 32 ((i 0).val / 3) := by
  rewrite [val_main_v25_apply, val_main_v24_apply, val_main_v23_apply]
  rfl

/-! ## The index columns read signed

Node `n`'s entry of an identity column is `n`; its entry of a hyperedge column is `n / 3`. -/

/-! ### Scatter columns of node rows -/

theorem col_v29 (n : Fin 12288) : (val_main_v29 (F := Ideal) (ix2 n 0)).toInt = (n.val : Int) := by
  rewrite [val_main_v29_apply, val_main_v22_apply]
  exact toInt_word n.val (by have := n.isLt; omega)

theorem col_v72 (n : Fin 12288) : (val_main_v72 (F := Ideal) (ix2 n 0)).toInt = (n.val : Int) := by
  rewrite [val_main_v72_apply, val_main_v22_apply]
  exact toInt_word n.val (by have := n.isLt; omega)

theorem col_v84 (n : Fin 12288) : (val_main_v84 (F := Ideal) (ix2 n 0)).toInt = (n.val : Int) := by
  rewrite [val_main_v84_apply, val_main_v22_apply]
  exact toInt_word n.val (by have := n.isLt; omega)

theorem col_v127 (n : Fin 12288) : (val_main_v127 (F := Ideal) (ix2 n 0)).toInt = (n.val : Int) := by
  rewrite [val_main_v127_apply, val_main_v22_apply]
  exact toInt_word n.val (by have := n.isLt; omega)

/-! ### Scatter columns of hyperedges -/

theorem col_v37 (n : Fin 12288) : (val_main_v37 (F := Ideal) (ix2 n 0)).toInt = ((n.val / 3 : Nat) : Int) := by
  rewrite [val_main_v37_apply, v25_val]
  exact toInt_word (n.val / 3) (by have := n.isLt; omega)

theorem col_v62 (n : Fin 12288) : (val_main_v62 (F := Ideal) (ix2 n 0)).toInt = ((n.val / 3 : Nat) : Int) := by
  rewrite [val_main_v62_apply, v25_val]
  exact toInt_word (n.val / 3) (by have := n.isLt; omega)

theorem col_v92 (n : Fin 12288) : (val_main_v92 (F := Ideal) (ix2 n 0)).toInt = ((n.val / 3 : Nat) : Int) := by
  rewrite [val_main_v92_apply, v25_val]
  exact toInt_word (n.val / 3) (by have := n.isLt; omega)

theorem col_v117 (n : Fin 12288) : (val_main_v117 (F := Ideal) (ix2 n 0)).toInt = ((n.val / 3 : Nat) : Int) := by
  rewrite [val_main_v117_apply, v25_val]
  exact toInt_word (n.val / 3) (by have := n.isLt; omega)

/-! ### Gather columns of node rows -/

/-- The node counter after the negative-index wrap is still the node counter. -/
theorem v48_val (i : S12288.Idx) : val_main_v48 (F := Ideal) i = BitVec.ofNat 32 (i 0).val := by
  rewrite [val_main_v48_apply, val_main_v45_apply, val_main_v44_apply, val_main_c_apply, val_main_v22_apply]
  exact wrap_word (i 0).val (by have h : (i 0).val < 12288 := (i 0).isLt; omega) _

theorem col_v49 (n : Fin 12288) : (val_main_v49 (F := Ideal) (ix2 n 0)).toInt = (n.val : Int) := by
  rewrite [val_main_v49_apply, v48_val]
  exact toInt_word n.val (by have := n.isLt; omega)

/-- The node counter after the negative-index wrap is still the node counter. -/
theorem v103_val (i : S12288.Idx) : val_main_v103 (F := Ideal) i = BitVec.ofNat 32 (i 0).val := by
  rewrite [val_main_v103_apply, val_main_v100_apply, val_main_v99_apply, val_main_c_30_apply, val_main_v22_apply]
  exact wrap_word (i 0).val (by have h : (i 0).val < 12288 := (i 0).isLt; omega) _

theorem col_v104 (n : Fin 12288) : (val_main_v104 (F := Ideal) (ix2 n 0)).toInt = (n.val : Int) := by
  rewrite [val_main_v104_apply, v103_val]
  exact toInt_word n.val (by have := n.isLt; omega)

/-! ### Gather columns of hyperedges -/

/-- The hyperedge counter after the negative-index wrap is still the hyperedge counter. -/
theorem v55_val (i : S12288.Idx) : val_main_v55 (F := Ideal) i = BitVec.ofNat 32 ((i 0).val / 3) := by
  rewrite [val_main_v55_apply, val_main_v52_apply, val_main_v51_apply, val_main_c_15_apply, v25_val]
  exact wrap_word ((i 0).val / 3) (by have h : (i 0).val < 12288 := (i 0).isLt; omega) _

theorem col_v56 (n : Fin 12288) : (val_main_v56 (F := Ideal) (ix2 n 0)).toInt = ((n.val / 3 : Nat) : Int) := by
  rewrite [val_main_v56_apply, v55_val]
  exact toInt_word (n.val / 3) (by have := n.isLt; omega)

/-- The hyperedge counter after the negative-index wrap is still the hyperedge counter. -/
theorem v68_val (i : S12288.Idx) : val_main_v68 (F := Ideal) i = BitVec.ofNat 32 ((i 0).val / 3) := by
  rewrite [val_main_v68_apply, val_main_v65_apply, val_main_v64_apply, val_main_c_18_apply, v25_val]
  exact wrap_word ((i 0).val / 3) (by have h : (i 0).val < 12288 := (i 0).isLt; omega) _

theorem col_v69 (n : Fin 12288) : (val_main_v69 (F := Ideal) (ix2 n 0)).toInt = ((n.val / 3 : Nat) : Int) := by
  rewrite [val_main_v69_apply, v68_val]
  exact toInt_word (n.val / 3) (by have := n.isLt; omega)

/-- The hyperedge counter after the negative-index wrap is still the hyperedge counter. -/
theorem v110_val (i : S12288.Idx) : val_main_v110 (F := Ideal) i = BitVec.ofNat 32 ((i 0).val / 3) := by
  rewrite [val_main_v110_apply, val_main_v107_apply, val_main_v106_apply, val_main_c_32_apply, v25_val]
  exact wrap_word ((i 0).val / 3) (by have h : (i 0).val < 12288 := (i 0).isLt; omega) _

theorem col_v111 (n : Fin 12288) : (val_main_v111 (F := Ideal) (ix2 n 0)).toInt = ((n.val / 3 : Nat) : Int) := by
  rewrite [val_main_v111_apply, v110_val]
  exact toInt_word (n.val / 3) (by have := n.isLt; omega)

/-- The hyperedge counter after the negative-index wrap is still the hyperedge counter. -/
theorem v123_val (i : S12288.Idx) : val_main_v123 (F := Ideal) i = BitVec.ofNat 32 ((i 0).val / 3) := by
  rewrite [val_main_v123_apply, val_main_v120_apply, val_main_v119_apply, val_main_c_35_apply, v25_val]
  exact wrap_word ((i 0).val / 3) (by have h : (i 0).val < 12288 := (i 0).isLt; omega) _

theorem col_v124 (n : Fin 12288) : (val_main_v124 (F := Ideal) (ix2 n 0)).toInt = ((n.val / 3 : Nat) : Int) := by
  rewrite [val_main_v124_apply, v123_val]
  exact toInt_word (n.val / 3) (by have := n.isLt; omega)

/-! ## The degrees and their normalisations, first layer -/

/-- Every node row receives exactly one 1: its degree is one. -/
theorem v30_at (r : Fin 12288) : val_main_v30 (F := Ideal) (ix1 r) = ((1 : ℝ) : EReal) := by
  unfold val_main_v30
  refine (scatter_vec_self _ _ _ _ col_v29 r).trans ?_
  rewrite [val_main_v28_apply, val_main_cst_6_apply, val_main_v27_apply, val_main_cst_5_apply,
    Ideal.ofBits_def, Ideal.ofBits_def, Ideal.ofBits_zero_f32, Ideal.ofBits_one_f32]
  exact deg_one_eq

/-- Every node has degree one: the node normalisation is the constant 1. -/
theorem deg_node1 : val_main_v35 (F := Ideal) = fun _ => (1 : EReal) := by
  refine funext fun (i : S12288.Idx) => ?_
  obtain ⟨r, rfl⟩ : ∃ r : Fin 12288, i = ix1 r := ⟨i 0, eq_ix1 i⟩
  rewrite [val_main_v35_apply, val_main_v32_apply, val_main_v34_apply, v30_at, val_main_v31_apply,
    val_main_cst_7_apply, val_main_v33_apply, val_main_cst_8_apply]
  exact (where_pos (d := 1) one_pos _).trans rcp_one

/-- Every hyperedge receives three 1s, one from each of its nodes: its degree is three. -/
theorem v38_at (b : Fin 4096) : val_main_v38 (F := Ideal) (ix1 b) = ((3 : ℝ) : EReal) := by
  unfold val_main_v38
  refine (scatter_vec_div3 _ _ _ _ col_v37 b).trans ?_
  rewrite [val_main_v36_apply, val_main_cst_10_apply]
  simp only [val_main_v27_apply, val_main_cst_5_apply, Ideal.ofBits_def, Ideal.ofBits_zero_f32, Ideal.ofBits_one_f32]
  exact deg_three_eq

/-- Every hyperedge has degree three: the hyperedge normalisation is the constant 1/3. -/
theorem deg_edge1 : val_main_v43 (F := Ideal) = fun _ => rcp 3 := by
  refine funext fun (i : S4096.Idx) => ?_
  obtain ⟨b, rfl⟩ : ∃ b : Fin 4096, i = ix1 b := ⟨i 0, eq_ix1 i⟩
  rewrite [val_main_v43_apply, val_main_v40_apply, val_main_v42_apply, v38_at, val_main_v39_apply,
    val_main_cst_11_apply, val_main_v41_apply, val_main_cst_12_apply]
  exact where_pos (d := 3) (by norm_num) _

/-! ## The degrees and their normalisations, second layer -/

/-- Every node row receives exactly one 1: its degree is one. -/
theorem v85_at (r : Fin 12288) : val_main_v85 (F := Ideal) (ix1 r) = ((1 : ℝ) : EReal) := by
  unfold val_main_v85
  refine (scatter_vec_self _ _ _ _ col_v84 r).trans ?_
  rewrite [val_main_v83_apply, val_main_cst_22_apply, val_main_v82_apply, val_main_cst_21_apply,
    Ideal.ofBits_def, Ideal.ofBits_def, Ideal.ofBits_zero_f32, Ideal.ofBits_one_f32]
  exact deg_one_eq

/-- Every node has degree one: the node normalisation is the constant 1. -/
theorem deg_node2 : val_main_v90 (F := Ideal) = fun _ => (1 : EReal) := by
  refine funext fun (i : S12288.Idx) => ?_
  obtain ⟨r, rfl⟩ : ∃ r : Fin 12288, i = ix1 r := ⟨i 0, eq_ix1 i⟩
  rewrite [val_main_v90_apply, val_main_v87_apply, val_main_v89_apply, v85_at, val_main_v86_apply,
    val_main_cst_23_apply, val_main_v88_apply, val_main_cst_24_apply]
  exact (where_pos (d := 1) one_pos _).trans rcp_one

/-- Every hyperedge receives three 1s, one from each of its nodes: its degree is three. -/
theorem v93_at (b : Fin 4096) : val_main_v93 (F := Ideal) (ix1 b) = ((3 : ℝ) : EReal) := by
  unfold val_main_v93
  refine (scatter_vec_div3 _ _ _ _ col_v92 b).trans ?_
  rewrite [val_main_v91_apply, val_main_cst_26_apply]
  simp only [val_main_v82_apply, val_main_cst_21_apply, Ideal.ofBits_def, Ideal.ofBits_zero_f32, Ideal.ofBits_one_f32]
  exact deg_three_eq

/-- Every hyperedge has degree three: the hyperedge normalisation is the constant 1/3. -/
theorem deg_edge2 : val_main_v98 (F := Ideal) = fun _ => rcp 3 := by
  refine funext fun (i : S4096.Idx) => ?_
  obtain ⟨b, rfl⟩ : ∃ b : Fin 4096, i = ix1 b := ⟨i 0, eq_ix1 i⟩
  rewrite [val_main_v98_apply, val_main_v95_apply, val_main_v97_apply, v93_at, val_main_v94_apply,
    val_main_cst_27_apply, val_main_v96_apply, val_main_cst_28_apply]
  exact where_pos (d := 3) (by norm_num) _

end Cert.ReferenceIdeal.Degrees

end
-- ==== Proof.RefConv.lean ====
/-
  The reference's two hypergraph convolutions, read as functions of their node table.

  After the linear map (a product of the node table with a 128 x 128 matrix) each convolution does the same thing:
  it multiplies every node row by the normalisation of the node's hyperedge, adds the rows of each hyperedge into one
  hyperedge row, hands that row back to every node of the hyperedge, multiplies by the node's normalisation and adds
  the bias.  The index columns say that node n sits in its own row and in hyperedge n / 3, so the hyperedge row of b
  is the sum over the three nodes 3b, 3b+1, 3b+2, and each node receives exactly the row of hyperedge n / 3.  With
  hyperedge normalisation 1/3 and node normalisation 1 this is the mean over the hyperedge of the mapped rows, plus
  the bias.  The chain is read once, as a function of its operands, and both layers are instances of it.
-/
import proofs.«129526_g8237747274144_cont_9to1_m_1049_17_alg».proof.Proof.RefRead
import proofs.«129526_g8237747274144_cont_9to1_m_1049_17_alg».proof.Proof.Spec
import proofs.«129526_g8237747274144_cont_9to1_m_1049_17_alg».proof.Proof.LibScatterRows
import proofs.«129526_g8237747274144_cont_9to1_m_1049_17_alg».proof.Proof.RefDegrees
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Conv

open Cert.ReferenceIdeal Cert.ReferenceIdeal.Read Cert.Fusion
open Idealize.ShloMosaic Idealize.ShloMosaic.ValueIdx

open Cert.Fusion.Rows Cert.ReferenceIdeal.Degrees

/-! ## Small readings: broadcasts and the zero table -/

/-- A table filled with the zero word reads as the extended real zero everywhere. -/
theorem zeros_apply (t : Shape) (hb : S_.BroadcastsInDim t (![] : Fin 0 → Fin t.rank)) (i : t.Idx) :
    broadcastInDim t ![] hb (constant (F := Ideal) S_ .f32 0x00000000#32) i = (0 : EReal) :=
  Ideal.ofBits_zero_f32

/-- A per-node vector spread along the 128 features reads, at node n and any feature, as the vector at n. -/
theorem bcastNode_apply {α : Type} (v : S12288.Idx → α) (n : Fin 12288) (c : Fin 128) :
    broadcastInDim S12288x128 ![0, 1] Gen.bcast_S12288x1_S12288x128_0_1
      (broadcastInDim S12288x1 ![0] Gen.bcast_S12288_S12288x1_0 v) (ix2 n c) = v (ix1 n) :=
  (broadcastInDim_apply _ Gen.bcast_S12288x1_S12288x128_0_1 _ (ix2 n c) (ix2 n (0 : Fin 1)) (fun a => match a with
      | ⟨0, _⟩ => by show n.val = if (12288 : Nat) = 1 then 0 else n.val; rw [if_neg (by decide)]
      | ⟨1, _⟩ => by show 0 = if (1 : Nat) = 1 then 0 else c.val; rw [if_pos rfl])).trans
    (broadcastInDim_apply _ Gen.bcast_S12288_S12288x1_0 v (ix2 n (0 : Fin 1)) (ix1 n) (fun a => match a with
      | ⟨0, _⟩ => by show n.val = if (12288 : Nat) = 1 then 0 else n.val; rw [if_neg (by decide)]))

/-- A per-feature vector spread along the nodes reads, at any node and feature c, as the vector at c. -/
theorem bcastBias_apply {α : Type} (v : S128.Idx → α) (n : Fin 12288) (c : Fin 128) :
    broadcastInDim S12288x128 ![0, 1] Gen.bcast_S1x128_S12288x128_0_1
      (broadcastInDim S1x128 ![1] Gen.bcast_S128_S1x128_1 v) (ix2 n c) = v (ix1 c) :=
  (broadcastInDim_apply _ Gen.bcast_S1x128_S12288x128_0_1 _ (ix2 n c) (ix2 (0 : Fin 1) c) (fun a => match a with
      | ⟨0, _⟩ => by show 0 = if (1 : Nat) = 1 then 0 else n.val; rw [if_pos rfl]
      | ⟨1, _⟩ => by show c.val = if (128 : Nat) = 1 then 0 else c.val; rw [if_neg (by decide)])).trans
    (broadcastInDim_apply _ Gen.bcast_S128_S1x128_1 v (ix2 (0 : Fin 1) c) (ix1 c) (fun a => match a with
      | ⟨0, _⟩ => by show c.val = if (128 : Nat) = 1 then 0 else c.val; rw [if_neg (by decide)]))

/-! ## Sums selected by an index column -/

/-- A column that sends node n to hyperedge n / 3 selects, for hyperedge b, exactly its three nodes. -/
theorem sumEdge (cS : IVec S12288x1 32)
    (hS : ∀ n : Fin 12288, (cS (ix2 n 0)).toInt = ((n.val / 3 : Nat) : Int)) (b : Fin 4096) (f : Fin 12288 → EReal) :
    (∑ n ∈ Finset.univ.filter (fun n : Fin 12288 => (cS (ix2 n 0)).toInt = (b.val : Int)), f n)
      = ∑ j : Fin 3, f (node b j) :=
  (Finset.sum_congr (Finset.filter_congr fun n _ => by rw [hS n]) fun _ _ => rfl).trans (sum_filter_div3 b f)

/-- A column that sends node n to itself selects, for row r, exactly r. -/
theorem sumOwn (cS : IVec S12288x1 32)
    (hS : ∀ n : Fin 12288, (cS (ix2 n 0)).toInt = (n.val : Int)) (r : Fin 12288) (f : Fin 12288 → EReal) :
    (∑ n ∈ Finset.univ.filter (fun n : Fin 12288 => (cS (ix2 n 0)).toInt = (r.val : Int)), f n) = f r :=
  (Finset.sum_congr (Finset.filter_congr fun n _ => by rw [hS n]) fun _ _ => rfl).trans (sum_filter_eq_single r f)

/-! ## The four gathers and scatters of one convolution -/

/-- Gathering every node's own row changes nothing. -/
theorem gatherOwn {α : Type} (Y : S12288x128.Idx → α) (cG : IVec S12288x1 32)
    (hG : ∀ n : Fin 12288, (cG (ix2 n 0)).toInt = (n.val : Int)) (n : Fin 12288) (c : Fin 128) :
    Host.gather gather_S12288x128_S12288x1_S12288x128_1_0_n_n_0_1_1128 Y cG (ix2 n c) = Y (ix2 n c) :=
  gather_rows_apply (R := 12288) (C := 128) (N := 12288) _ Y cG n c n (hG n)

/-- Gathering a per-hyperedge vector by the hyperedge column reads the vector at node n's hyperedge. -/
theorem gatherEdgeVec {α : Type} (d : S4096.Idx → α) (cG : IVec S12288x1 32)
    (hG : ∀ n : Fin 12288, (cG (ix2 n 0)).toInt = ((n.val / 3 : Nat) : Int)) (n : Fin 12288) :
    Host.gather gather_S4096_S12288x1_S12288_n_0_n_n_0_1_1 d cG (ix1 n) = d (ix1 (edge n)) :=
  gather_vec_apply (R := 4096) (N := 12288) _ d cG n (edge n) (hG n)

/-- Gathering hyperedge rows by the hyperedge column reads row n / 3 at node n. -/
theorem gatherEdge {α : Type} (E : S4096x128.Idx → α) (cG : IVec S12288x1 32)
    (hG : ∀ n : Fin 12288, (cG (ix2 n 0)).toInt = ((n.val / 3 : Nat) : Int)) (n : Fin 12288) (c : Fin 128) :
    Host.gather gather_S4096x128_S12288x1_S12288x128_1_0_n_n_0_1_1128 E cG (ix2 n c) = E (ix2 (edge n) c) :=
  gather_rows_apply (R := 4096) (C := 128) (N := 12288) _ E cG n c (edge n) (hG n)

/-! ## One convolution after its linear map, as a function of its operands -/

section Ops

variable (Y : FVec Ideal S12288x128 .f32) (cG1 cGn cS1 cG2 cS2 : IVec S12288x1 32)
  (dE : FVec Ideal S4096 .f32) (dN : FVec Ideal S12288 .f32) (bias : FVec Ideal S128 .f32)

/-- Every node row times its hyperedge's normalisation. -/
def scaledRows : FVec Ideal S12288x128 .f32 :=
  mulf (Host.gather gather_S12288x128_S12288x1_S12288x128_1_0_n_n_0_1_1128 Y cG1)
    (broadcastInDim S12288x128 ![0, 1] Gen.bcast_S12288x1_S12288x128_0_1
      (broadcastInDim S12288x1 ![0] Gen.bcast_S12288_S12288x1_0
        (Host.gather gather_S4096_S12288x1_S12288_n_0_n_n_0_1_1 dE cGn)))

/-- The node rows of a table summed into their hyperedges. -/
def edgeSums (U : FVec Ideal S12288x128 .f32) : FVec Ideal S4096x128 .f32 :=
  Host.scatterAdd scatter_S4096x128_S12288x1_S12288x128_1_0_0_1
    (broadcastInDim S4096x128 ![] Gen.bcast_S_S4096x128 (constant S_ .f32 0x00000000#32)) cS1 U

/-- Each hyperedge row handed back to the nodes of the hyperedge. -/
def handBack (E : FVec Ideal S4096x128 .f32) : FVec Ideal S12288x128 .f32 :=
  Host.scatterAdd scatter_S12288x128_S12288x1_S12288x128_1_0_0_1
    (broadcastInDim S12288x128 ![] Gen.bcast_S_S12288x128 (constant S_ .f32 0x00000000#32)) cS2
    (Host.gather gather_S4096x128_S12288x1_S12288x128_1_0_n_n_0_1_1128 E cG2)

/-- The whole chain: scale, sum over hyperedges, hand back, node normalisation, bias. -/
def convOps : FVec Ideal S12288x128 .f32 :=
  addf
    (mulf (handBack cG2 cS2 (edgeSums cS1 (scaledRows Y cG1 cGn dE)))
      (broadcastInDim S12288x128 ![0, 1] Gen.bcast_S12288x1_S12288x128_0_1
        (broadcastInDim S12288x1 ![0] Gen.bcast_S12288_S12288x1_0 dN)))
    (broadcastInDim S12288x128 ![0, 1] Gen.bcast_S1x128_S12288x128_0_1
      (broadcastInDim S1x128 ![1] Gen.bcast_S128_S1x128_1 bias))

variable (hG1 : ∀ n : Fin 12288, (cG1 (ix2 n 0)).toInt = (n.val : Int))
  (hGn : ∀ n : Fin 12288, (cGn (ix2 n 0)).toInt = ((n.val / 3 : Nat) : Int))
  (hS1 : ∀ n : Fin 12288, (cS1 (ix2 n 0)).toInt = ((n.val / 3 : Nat) : Int))
  (hG2 : ∀ n : Fin 12288, (cG2 (ix2 n 0)).toInt = ((n.val / 3 : Nat) : Int))
  (hS2 : ∀ n : Fin 12288, (cS2 (ix2 n 0)).toInt = (n.val : Int))

include hG1 hGn in
theorem scaledRows_apply (m : Fin 12288) (c : Fin 128) :
    scaledRows Y cG1 cGn dE (ix2 m c) = Y (ix2 m c) * dE (ix1 (edge m)) :=
  congrArg₂ (· * ·) (gatherOwn Y cG1 hG1 m c)
    ((bcastNode_apply _ m c).trans (gatherEdgeVec dE cGn hGn m))

include hS1 in
theorem edgeSums_apply (U : FVec Ideal S12288x128 .f32) (b : Fin 4096) (c : Fin 128) :
    edgeSums cS1 U (ix2 b c) = ∑ j : Fin 3, U (ix2 (node b j) c) := by
  unfold edgeSums
  refine (scatterAdd_rows_apply (R := 4096) (C := 128) (N := 12288) _ _ cS1 U b c).trans ?_
  exact (congrArg₂ (· + ·) (zeros_apply _ _ _) (sumEdge cS1 hS1 b fun n => U (ix2 n c))).trans (zero_add _)

include hG2 hS2 in
theorem handBack_apply (E : FVec Ideal S4096x128 .f32) (n : Fin 12288) (c : Fin 128) :
    handBack cG2 cS2 E (ix2 n c) = E (ix2 (edge n) c) := by
  unfold handBack
  refine (scatterAdd_rows_apply (R := 12288) (C := 128) (N := 12288) _ _ cS2 _ n c).trans ?_
  refine (congrArg₂ (· + ·) (zeros_apply _ _ _)
    (sumOwn cS2 hS2 n fun m => Host.gather gather_S4096x128_S12288x1_S12288x128_1_0_n_n_0_1_1128 E cG2 (ix2 m c))).trans ?_
  exact (zero_add _).trans (gatherEdge E cG2 hG2 n c)

include hG1 hGn hS1 hG2 hS2 in
/-- With hyperedge normalisation 1/3 and node normalisation 1, the chain reads: the three rows of the node's hyperedge,
    each times 1/3, summed, plus the bias. -/
theorem convOps_apply (hdE : dE = fun _ => rcp 3) (hdN : dN = fun _ => (1 : EReal)) (n : Fin 12288) (c : Fin 128) :
    convOps Y cG1 cGn cS1 cG2 cS2 dE dN bias (ix2 n c)
      = (∑ j : Fin 3, Y (ix2 (node (edge n) j) c) * rcp 3) + bias (ix1 c) := by
  have h1 : handBack cG2 cS2 (edgeSums cS1 (scaledRows Y cG1 cGn dE)) (ix2 n c)
      = ∑ j : Fin 3, Y (ix2 (node (edge n) j) c) * rcp 3 := by
    refine (handBack_apply cG2 cS2 hG2 hS2 _ n c).trans ?_
    refine (edgeSums_apply cS1 hS1 _ (edge n) c).trans ?_
    refine Finset.sum_congr rfl fun j _ => ?_
    refine (scaledRows_apply Y cG1 cGn dE hG1 hGn _ c).trans ?_
    exact congrArg (Y (ix2 (node (edge n) j) c) * ·) (congrFun hdE _)
  have h2 : broadcastInDim S12288x128 ![0, 1] Gen.bcast_S12288x1_S12288x128_0_1
      (broadcastInDim S12288x1 ![0] Gen.bcast_S12288_S12288x1_0 dN) (ix2 n c) = (1 : EReal) :=
    (bcastNode_apply dN n c).trans (congrFun hdN _)
  have h3 := bcastBias_apply bias n c
  unfold convOps
  exact congrArg₂ (· + ·) ((congrArg₂ (· * ·) h1 h2).trans (mul_one _)) h3

end Ops

/-- The chain applied to a product of a node table with a weight matrix is the hypergraph convolution of the table. -/
theorem hconvR_of (X : S12288x128.Idx → EReal) (W : S128x128.Idx → EReal) (bias : S128.Idx → EReal)
    (Y : S12288x128.Idx → EReal)
    (hY : ∀ (m : Fin 12288) (c : Fin 128), Y (ix2 m c) = ∑ k : Fin 128, X (ix2 m k) * W (ix2 k c))
    (n : Fin 12288) (c : Fin 128) :
    (∑ j : Fin 3, Y (ix2 (node (edge n) j) c) * rcp 3) + bias (ix1 c) = hconvR (cur2 X) (cur2 W) (cur1 bias) n c := by
  show _ = (∑ j : Fin 3, (∑ k : Fin 128, X (ix2 (node (edge n) j) k) * W (ix2 k c)) * rcp 3) + bias (ix1 c)
  exact congrArg (· + bias (ix1 c)) (Finset.sum_congr rfl fun j _ => congrArg (· * rcp 3) (hY _ c))

/-! ## The two layers -/

/-- The first layer's operations after its product are the chain at the first layer's columns and normalisations. -/
theorem ops1 (x0 : (⟨S4096x20x512, .f32⟩ : BufTy).Contents (Elt Ideal)) (x1 : (⟨S4096x20x256, .f32⟩ : BufTy).Contents (Elt Ideal)) (x2 : (⟨S4096x50x128, .f32⟩ : BufTy).Contents (Elt Ideal)) (x3 : (⟨S512x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v79 (F := Ideal) x0 x1 x2 x3 x4 x5 x6 x7 x8 x9 x10
      = convOps (val_main_v26 (F := Ideal) x0 x1 x2 x3 x4 x5 x6 x7 x8 x9) (val_main_v49 (F := Ideal)) (val_main_v56 (F := Ideal))
          (val_main_v62 (F := Ideal)) (val_main_v69 (F := Ideal)) (val_main_v72 (F := Ideal))
          (val_main_v43 (F := Ideal)) (val_main_v35 (F := Ideal)) x10 := rfl

/-- The second layer's operations after its product are the chain at the second layer's columns and normalisations. -/
theorem ops2 (x0 : (⟨S4096x20x512, .f32⟩ : BufTy).Contents (Elt Ideal)) (x1 : (⟨S4096x20x256, .f32⟩ : BufTy).Contents (Elt Ideal)) (x2 : (⟨S4096x50x128, .f32⟩ : BufTy).Contents (Elt Ideal)) (x3 : (⟨S512x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    val_main_v134 (F := Ideal) x0 x1 x2 x3 x4 x5 x6 x7 x8 x9 x10 x11 x12
      = convOps (val_main_v81 (F := Ideal) x0 x1 x2 x3 x4 x5 x6 x7 x8 x9 x10 x11) (val_main_v104 (F := Ideal)) (val_main_v111 (F := Ideal))
          (val_main_v117 (F := Ideal)) (val_main_v124 (F := Ideal)) (val_main_v127 (F := Ideal))
          (val_main_v98 (F := Ideal)) (val_main_v90 (F := Ideal)) x12 := rfl

/-- Where the first layer's product reads its operands at node m, feature c, summand k: the table at (m, k). -/
theorem lidx1 (m : Fin 12288) (c k : Fin 128) : lidx_main_v26 (ix2 m c) k = ix2 m k :=
  funext fun a => Fin.ext (by match a with | ⟨0, _⟩ => rfl | ⟨1, _⟩ => rfl)
/-- And the matrix at (k, c). -/
theorem ridx1 (m : Fin 12288) (c k : Fin 128) : ridx_main_v26 (ix2 m c) k = ix2 k c :=
  funext fun a => Fin.ext (by match a with | ⟨0, _⟩ => rfl | ⟨1, _⟩ => rfl)
/-- The same two readings for the second layer's product. -/
theorem lidx2 (m : Fin 12288) (c k : Fin 128) : lidx_main_v81 (ix2 m c) k = ix2 m k :=
  funext fun a => Fin.ext (by match a with | ⟨0, _⟩ => rfl | ⟨1, _⟩ => rfl)
theorem ridx2 (m : Fin 12288) (c k : Fin 128) : ridx_main_v81 (ix2 m c) k = ix2 k c :=
  funext fun a => Fin.ext (by match a with | ⟨0, _⟩ => rfl | ⟨1, _⟩ => rfl)

/-- The first layer's product at node m, feature c: the sum over k of the table at (m, k) times the matrix at (k, c). -/
theorem dot1 (x0 : (⟨S4096x20x512, .f32⟩ : BufTy).Contents (Elt Ideal)) (x1 : (⟨S4096x20x256, .f32⟩ : BufTy).Contents (Elt Ideal)) (x2 : (⟨S4096x50x128, .f32⟩ : BufTy).Contents (Elt Ideal)) (x3 : (⟨S512x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (m : Fin 12288) (c : Fin 128) :
    val_main_v26 (F := Ideal) x0 x1 x2 x3 x4 x5 x6 x7 x8 x9 (ix2 m c)
      = ∑ k : Fin 128, val_main_v21 (F := Ideal) x0 x1 x2 x3 x4 x5 x6 x7 x8 (ix2 m k) * x9 (ix2 k c) :=
  (val_main_v26_apply x0 x1 x2 x3 x4 x5 x6 x7 x8 x9 (ix2 m c)).trans (Finset.sum_congr rfl fun k _ =>
    congrArg₂ (fun a b => val_main_v21 (F := Ideal) x0 x1 x2 x3 x4 x5 x6 x7 x8 a * x9 b)
      (lidx1 m c k) (ridx1 m c k))

/-- The second layer's product at node m, feature c. -/
theorem dot2 (x0 : (⟨S4096x20x512, .f32⟩ : BufTy).Contents (Elt Ideal)) (x1 : (⟨S4096x20x256, .f32⟩ : BufTy).Contents (Elt Ideal)) (x2 : (⟨S4096x50x128, .f32⟩ : BufTy).Contents (Elt Ideal)) (x3 : (⟨S512x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (m : Fin 12288) (c : Fin 128) :
    val_main_v81 (F := Ideal) x0 x1 x2 x3 x4 x5 x6 x7 x8 x9 x10 x11 (ix2 m c)
      = ∑ k : Fin 128, val_main_v80 (F := Ideal) x0 x1 x2 x3 x4 x5 x6 x7 x8 x9 x10 (ix2 m k) * x11 (ix2 k c) :=
  (val_main_v81_apply x0 x1 x2 x3 x4 x5 x6 x7 x8 x9 x10 x11 (ix2 m c)).trans (Finset.sum_congr rfl fun k _ =>
    congrArg₂ (fun a b => val_main_v80 (F := Ideal) x0 x1 x2 x3 x4 x5 x6 x7 x8 x9 x10 a * x11 b)
      (lidx2 m c k) (ridx2 m c k))

/-- The first hypergraph convolution. -/
theorem conv1 (x0 : (⟨S4096x20x512, .f32⟩ : BufTy).Contents (Elt Ideal)) (x1 : (⟨S4096x20x256, .f32⟩ : BufTy).Contents (Elt Ideal)) (x2 : (⟨S4096x50x128, .f32⟩ : BufTy).Contents (Elt Ideal)) (x3 : (⟨S512x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v79 (F := Ideal) x0 x1 x2 x3 x4 x5 x6 x7 x8 x9 x10 = fun i =>
      hconvR (cur2 (val_main_v21 (F := Ideal) x0 x1 x2 x3 x4 x5 x6 x7 x8)) (cur2 x9) (cur1 x10) (i 0) (i 1) := by
  funext i
  obtain ⟨n, c, rfl⟩ : ∃ (n : Fin 12288) (c : Fin 128), i = ix2 n c := ⟨i 0, i 1, ValueIdx.eq_ix2 i⟩
  refine (congrFun (ops1 x0 x1 x2 x3 x4 x5 x6 x7 x8 x9 x10) (ix2 n c)).trans ?_
  refine (convOps_apply _ _ _ _ _ _ _ _ x10 col_v49 col_v56 col_v62 col_v69 col_v72 deg_edge1 deg_node1 n c).trans ?_
  exact hconvR_of (val_main_v21 (F := Ideal) x0 x1 x2 x3 x4 x5 x6 x7 x8) x9 x10 _ (dot1 x0 x1 x2 x3 x4 x5 x6 x7 x8 x9) n c

/-- The second hypergraph convolution. -/
theorem conv2 (x0 : (⟨S4096x20x512, .f32⟩ : BufTy).Contents (Elt Ideal)) (x1 : (⟨S4096x20x256, .f32⟩ : BufTy).Contents (Elt Ideal)) (x2 : (⟨S4096x50x128, .f32⟩ : BufTy).Contents (Elt Ideal)) (x3 : (⟨S512x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    val_main_v134 (F := Ideal) x0 x1 x2 x3 x4 x5 x6 x7 x8 x9 x10 x11 x12 = fun i =>
      hconvR (cur2 (val_main_v80 (F := Ideal) x0 x1 x2 x3 x4 x5 x6 x7 x8 x9 x10)) (cur2 x11) (cur1 x12) (i 0) (i 1) := by
  funext i
  obtain ⟨n, c, rfl⟩ : ∃ (n : Fin 12288) (c : Fin 128), i = ix2 n c := ⟨i 0, i 1, ValueIdx.eq_ix2 i⟩
  refine (congrFun (ops2 x0 x1 x2 x3 x4 x5 x6 x7 x8 x9 x10 x11 x12) (ix2 n c)).trans ?_
  refine (convOps_apply _ _ _ _ _ _ _ _ x12 col_v104 col_v111 col_v117 col_v124 col_v127 deg_edge2 deg_node2 n c).trans ?_
  exact hconvR_of (val_main_v80 (F := Ideal) x0 x1 x2 x3 x4 x5 x6 x7 x8 x9 x10) x11 x12 _ (dot2 x0 x1 x2 x3 x4 x5 x6 x7 x8 x9 x10 x11) n c

end Cert.ReferenceIdeal.Conv

end
-- ==== Proof.RefValue.lean ====
/-
  The idealized reference's result as ONE function of its seventeen arguments: the stacked dividing features, two
  hypergraph convolutions with a positive part between them, the rows of a hyperedge laid side by side, two affine
  layers with a positive part between them.
-/
import proofs.«129526_g8237747274144_cont_9to1_m_1049_17_alg».proof.Proof.RefEnds
import proofs.«129526_g8237747274144_cont_9to1_m_1049_17_alg».proof.Proof.RefConv
import proofs.«129526_g8237747274144_cont_9to1_m_1049_17_alg».proof.Proof.Spec

noncomputable section

namespace Cert.ReferenceIdeal.Whole

open Cert.ReferenceIdeal Cert.ReferenceIdeal.Read Cert.Fusion
open Idealize.ShloMosaic Idealize.ShloMosaic.ValueIdx

/-- The reference's result. -/
theorem value (x0 : (⟨S4096x20x512, .f32⟩ : BufTy).Contents (Elt Ideal)) (x1 : (⟨S4096x20x256, .f32⟩ : BufTy).Contents (Elt Ideal)) (x2 : (⟨S4096x50x128, .f32⟩ : BufTy).Contents (Elt Ideal)) (x3 : (⟨S512x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S384x128, .f32⟩ : BufTy).Contents (Elt Ideal)) (x14 : (⟨S128, .f32⟩ : BufTy).Contents (Elt Ideal)) (x15 : (⟨S128x64, .f32⟩ : BufTy).Contents (Elt Ideal)) (x16 : (⟨S64, .f32⟩ : BufTy).Contents (Elt Ideal)) :
    val_main_v145 (F := Ideal) x0 x1 x2 x3 x4 x5 x6 x7 x8 x9 x10 x11 x12 x13 x14 x15 x16 = fun i =>
      wholeR (cur3 x0) (cur3 x1) (cur3 x2) (cur2 x3) (cur1 x4) (cur2 x5) (cur1 x6) (cur2 x7) (cur1 x8) (cur2 x9) (cur1 x10)
        (cur2 x11) (cur1 x12) (cur2 x13) (cur1 x14) (cur2 x15) (cur1 x16) (i 0) (i 1) := by
  have e21 : cur2 (val_main_v21 (F := Ideal) x0 x1 x2 x3 x4 x5 x6 x7 x8)
      = nodesR (cur3 x0) (cur3 x1) (cur3 x2) (cur2 x3) (cur1 x4) (cur2 x5) (cur1 x6) (cur2 x7) (cur1 x8) := by
    rw [Cert.ReferenceIdeal.Ends.nodes]
  have e79 : cur2 (val_main_v79 (F := Ideal) x0 x1 x2 x3 x4 x5 x6 x7 x8 x9 x10)
      = hconvR (nodesR (cur3 x0) (cur3 x1) (cur3 x2) (cur2 x3) (cur1 x4) (cur2 x5) (cur1 x6) (cur2 x7) (cur1 x8)) (cur2 x9) (cur1 x10) := by
    rw [Cert.ReferenceIdeal.Conv.conv1, e21]
  have e134 : cur2 (val_main_v134 (F := Ideal) x0 x1 x2 x3 x4 x5 x6 x7 x8 x9 x10 x11 x12)
      = hconvR (relu (hconvR (nodesR (cur3 x0) (cur3 x1) (cur3 x2) (cur2 x3) (cur1 x4) (cur2 x5) (cur1 x6) (cur2 x7) (cur1 x8)) (cur2 x9) (cur1 x10))) (cur2 x11) (cur1 x12) := by
    rw [Cert.ReferenceIdeal.Conv.conv2, Cert.ReferenceIdeal.Ends.relu80, e79]
  rw [Cert.ReferenceIdeal.Ends.tail, e134]
  rfl

end Cert.ReferenceIdeal.Whole

end
-- ==== Proof.lean ====
/-
  The certificate of the fused hypergraph head: three modality tensors are averaged over time and projected, the
  features are stacked into node rows, two hypergraph convolutions (every node of degree one, every hyperedge of three
  consecutive nodes) and a two-layer head follow.

  The kernel program computes the same function in another arrangement: a reciprocal in place of each division (named
  constants 1/20, 1/50, 1/3: the four `preserves` conjuncts), the hyperedge mean taken BEFORE the linear maps, and the
  384-wide layer met with the sum of its three thirds.  Over the reals the two arrangements agree (Proof/Algebra.lean),
  and the precondition makes every input a real number (Proof/Finite.lean).  Each program's result as one function of the
  arguments: Proof/KernelWhole.lean (over the two regions' values, Proof/KProj.lean and Proof/KHead.lean, and the run
  Proof/KernelRun.lean) and Proof/RefValue.lean (over Proof/RefEnds.lean, Proof/RefDegrees.lean, Proof/RefConv.lean and the
  scatter / gather lemmas Proof/LibScatterRows.lean; the reference's run and its reading operation by operation are
  Proof/RefRun.lean and Proof/RefRead.lean).  The two kernel frames are the generated ones.
-/
import proofs.«129526_g8237747274144_cont_9to1_m_1049_17_alg».proof.Defs
import proofs.«129526_g8237747274144_cont_9to1_m_1049_17_alg».proof.Proof.Gen.Kernel
import proofs.«129526_g8237747274144_cont_9to1_m_1049_17_alg».proof.Proof.Gen.Kernel.Skeleton
import proofs.«129526_g8237747274144_cont_9to1_m_1049_17_alg».proof.Proof.Gen.Kernel.Launch
import proofs.«129526_g8237747274144_cont_9to1_m_1049_17_alg».proof.Proof.Gen.Kernel.Points
import proofs.«129526_g8237747274144_cont_9to1_m_1049_17_alg».proof.Proof.Gen.Kernel.Frame
import proofs.«129526_g8237747274144_cont_9to1_m_1049_17_alg».proof.Proof.Gen.KernelIdeal
import proofs.«129526_g8237747274144_cont_9to1_m_1049_17_alg».proof.Proof.Gen.KernelIdeal.Skeleton
import proofs.«129526_g8237747274144_cont_9to1_m_1049_17_alg».proof.Proof.Gen.KernelIdeal.Launch
import proofs.«129526_g8237747274144_cont_9to1_m_1049_17_alg».proof.Proof.Gen.KernelIdeal.Points
import proofs.«129526_g8237747274144_cont_9to1_m_1049_17_alg».proof.Proof.Gen.KernelIdeal.Frame
import proofs.«129526_g8237747274144_cont_9to1_m_1049_17_alg».proof.Proof.Gen.ReferenceIdeal
import proofs.«129526_g8237747274144_cont_9to1_m_1049_17_alg».proof.Proof.Gen.Pre_finite_inputs
import proofs.«129526_g8237747274144_cont_9to1_m_1049_17_alg».proof.Proof.RefRun
import proofs.«129526_g8237747274144_cont_9to1_m_1049_17_alg».proof.Proof.RefRead
import proofs.«129526_g8237747274144_cont_9to1_m_1049_17_alg».proof.Proof.Spec
import proofs.«129526_g8237747274144_cont_9to1_m_1049_17_alg».proof.Proof.Algebra
import proofs.«129526_g8237747274144_cont_9to1_m_1049_17_alg».proof.Proof.Finite
import proofs.«129526_g8237747274144_cont_9to1_m_1049_17_alg».proof.Proof.KernelWhole
import proofs.«129526_g8237747274144_cont_9to1_m_1049_17_alg».proof.Proof.RefValue
import Idealize.ShloMosaic.Adequacy
import Idealize.ShloMosaic.Init

noncomputable section

namespace Cert.Proof

open Idealize.ShloMosaic Idealize.SL.Sem Cert.Fusion

/-- The reference program runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The four named reciprocals denote 1/20, 1/20, 1/50 and 1/3 at the ideal instance. -/
theorem preserves : Cert.preserves_Kernel_KernelIdeal :=
  ⟨IdealRules.named_const.statement Cert.KernelIdeal.κ "inv_20" .f32 0x3D4CCCCD#32 ((1 / 20 : ℝ) : EReal) rfl,
   IdealRules.named_const.statement Cert.KernelIdeal.κ "inv_20" .f32 0x3D4CCCCD#32 ((1 / 20 : ℝ) : EReal) rfl,
   IdealRules.named_const.statement Cert.KernelIdeal.κ "inv_50" .f32 0x3CA3D70A#32 ((1 / 50 : ℝ) : EReal) rfl,
   IdealRules.named_const.statement Cert.KernelIdeal.κ "inv_3" .f32 0x3EAAAAAB#32 ((1 / 3 : ℝ) : EReal) rfl⟩

/-- Both idealized programs end at one function of the arguments: the kernel's at the mean-first arrangement, the
    reference's at the node-row arrangement, equal because every input is a real number. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12, e13, e14, e15, e16⟩ := hagree c
  obtain ⟨r0, r1, r2, r3, r4, r5, r6, r7, r8, r9, r10, r11, r12, r13, r14, r15, r16⟩ := Cert.Fusion.real_of_finite _ _ _ _ _ _ _ _ _ _ _ _ _ _ _ _ _ (hpre c)
  rw [Cert.ReferenceIdeal.Read.val_main_v145_eq, Cert.ReferenceIdeal.Whole.value, e0, e1, e2, e3, e4, e5, e6, e7, e8, e9, e10, e11, e12, e13, e14, e15, e16]
  funext i
  exact (congrFun (congrFun (Cert.Fusion.wholeK_eq_wholeR _ _ _ _ _ _ _ _ _ _ _ _ _ _ _ _ _
    (fun a b d => r0 _) (fun a b d => r1 _) (fun a b d => r2 _) (fun a b => r3 _) (fun a => r4 _) (fun a b => r5 _) (fun a => r6 _) (fun a b => r7 _) (fun a => r8 _) (fun a b => r9 _) (fun a => r10 _) (fun a b => r11 _) (fun a => r12 _) (fun a b => r13 _) (fun a => r14 _) (fun a b => r15 _) (fun a => r16 _)) (i 0)) (i 1)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, preserves, algebraic⟩

end Cert.Proof

end
